-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v64_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v64_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S2x131072 : Shape := ⟨2, ![2, 131072]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x131072 : S_.BroadcastsInDim S2x131072 (![] : Fin 0 → Fin S2x131072.rank)
  reducesTo_S2x131072_S_d0_1 : S2x131072.ReducesTo [0, 1] S_

variable [Facts]

def fn_part5 {F : FTy → Type} [FloatOps F] (main_v82 : IVec S_ 1) (main_v84 : IVec S2x131072 1) : IVec S_ 1 :=
  let main_c_33 : IVec S_ 1 := constantI S_ 1 1#1
  let main_v85 : IVec S_ 1 := (fun x v => Host.reduce IntOp.andi x v reducesTo_S2x131072_S_d0_1 h_S_) main_v84 main_c_33
  let main_v86 : IVec S_ 1 := andi main_v82 main_v85
  main_v86

def fn_part4 {F : FTy → Type} [FloatOps F] (main_arg1 : IVec S2x131072 32) (main_arg15 : FVec F S256x256 .f32) (main_arg16 : FVec F S256 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_c_30 : IVec S_ 32 := constantI S_ 32 4294836224#32
  let main_v79 : IVec S2x131072 32 := broadcastInDim S2x131072 ![] bcast_S_S2x131072 main_c_30
  let main_v80 : IVec S2x131072 1 := cmpi .sge main_arg1 main_v79
  let main_c_31 : IVec S_ 1 := constantI S_ 1 1#1
  let main_v81 : IVec S_ 1 := (fun x v => Host.reduce IntOp.andi x v reducesTo_S2x131072_S_d0_1 h_S_) main_v80 main_c_31
  let main_v82 : IVec S_ 1 := andi main_v78 main_v81
  let main_c_32 : IVec S_ 32 := constantI S_ 32 131072#32
  let main_v83 : IVec S2x131072 32 := broadcastInDim S2x131072 ![] bcast_S_S2x131072 main_c_32
  let main_v84 : IVec S2x131072 1 := cmpi .slt main_arg1 main_v83
  fn_part5 (F := F) main_v82 main_v84

def fn_part3 {F : FTy → Type} [FloatOps F] (main_arg1 : IVec S2x131072 32) (main_arg12 : FVec F S256 .f32) (main_arg13 : FVec F S256x256 .f32) (main_arg14 : FVec F S256 .f32) (main_arg15 : FVec F S256x256 .f32) (main_arg16 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg15 main_arg16 main_v63 main_v67

def fn_part2 {F : FTy → Type} [FloatOps F] (main_arg1 : IVec S2x131072 32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_arg15 main_arg16 main_v48 main_v49 main_v50

def fn_part1 {F : FTy → Type} [FloatOps F] (main_arg1 : IVec S2x131072 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S131072x256 .f32) (main_arg1 : IVec S2x131072 32) (main_arg2 : FVec F S131072x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg2
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S131072x256 : Shape := ⟨2, ![131072, 256]⟩
abbrev S2x131072 : Shape := ⟨2, ![2, 131072]⟩
abbrev S256x256 : Shape := ⟨2, ![256, 256]⟩
abbrev S256 : Shape := ⟨1, ![256]⟩
abbrev S1x131072 : Shape := ⟨2, ![1, 131072]⟩
abbrev S131072 : Shape := ⟨1, ![131072]⟩
abbrev S1x256 : Shape := ⟨2, ![1, 256]⟩
abbrev S2048x256 : Shape := ⟨2, ![2048, 256]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S1x512 : Shape := ⟨2, ![1, 512]⟩
abbrev S8192x256 : Shape := ⟨2, ![8192, 256]⟩
abbrev S4096x256 : Shape := ⟨2, ![4096, 256]⟩

abbrev nBuf : Space → Nat
  | .hbm => 164
  | .vmem => 44
  | .smem => 0
  | _ => 0

abbrev hbmTy0_0 (i : Nat) : BufTy := match i % 128 with
  | 0 => ⟨S131072x256, .f32⟩
  | 1 => ⟨S2x131072, .i32⟩
  | 2 => ⟨S131072x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256x256, .f32⟩
  | 16 => ⟨S256, .f32⟩
  | 17 => ⟨S1x131072, .i32⟩
  | 18 => ⟨S131072, .i32⟩
  | 19 => ⟨S1x131072, .i32⟩
  | 20 => ⟨S131072, .i32⟩
  | 21 => ⟨S256x256, .f32⟩
  | 22 => ⟨S256x256, .f32⟩
  | 23 => ⟨S256x256, .f32⟩
  | 24 => ⟨S256x256, .f32⟩
  | 25 => ⟨S256x256, .f32⟩
  | 26 => ⟨S256x256, .f32⟩
  | 27 => ⟨S256, .f32⟩
  | 28 => ⟨S1x256, .f32⟩
  | 29 => ⟨S256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S131072x256, .f32⟩
  | 36 => ⟨S131072x256, .f32⟩
  | 37 => ⟨S131072x256, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S1, .i32⟩
  | 47 => ⟨S_, .i32⟩
  | 48 => ⟨S131072x1, .i32⟩
  | 49 => ⟨S131072x1, .i1⟩
  | 50 => ⟨S1x1, .i32⟩
  | 51 => ⟨S131072x1, .i32⟩
  | 52 => ⟨S131072x1, .i1⟩
  | 53 => ⟨S131072x1, .i1⟩
  | 54 => ⟨S_, .i1⟩
  | 55 => ⟨S131072, .i1⟩
  | 56 => ⟨S131072x256, .f32⟩
  | 57 => ⟨S131072x256, .i1⟩
  | 58 => ⟨S_, .f32⟩
  | 59 => ⟨S131072x256, .f32⟩
  | 60 => ⟨S131072x256, .f32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S1, .i32⟩
  | 70 => ⟨S_, .i32⟩
  | 71 => ⟨S131072x1, .i32⟩
  | 72 => ⟨S131072x1, .i1⟩
  | 73 => ⟨S1x1, .i32⟩
  | 74 => ⟨S131072x1, .i32⟩
  | 75 => ⟨S131072x1, .i1⟩
  | 76 => ⟨S131072x1, .i1⟩
  | 77 => ⟨S_, .i1⟩
  | 78 => ⟨S131072, .i1⟩
  | 79 => ⟨S131072x256, .f32⟩
  | 80 => ⟨S131072x256, .i1⟩
  | 81 => ⟨S_, .f32⟩
  | 82 => ⟨S131072x256, .f32⟩
  | 83 => ⟨S131072x256, .f32⟩
  | 84 => ⟨S131072x256, .f32⟩
  | 85 => ⟨S1x512, .f32⟩
  | 86 => ⟨S1x512, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S_, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S1x256, .f32⟩
  | 100 => ⟨S1x256, .f32⟩
  | 101 => ⟨S_, .f32⟩
  | 102 => ⟨S1x256, .f32⟩
  | 103 => ⟨S1x256, .f32⟩
  | 104 => ⟨S131072x256, .f32⟩
  | 105 => ⟨S131072x256, .f32⟩
  | 106 => ⟨S131072x256, .f32⟩
  | 107 => ⟨S131072x256, .f32⟩
  | 108 => ⟨S_, .f32⟩
  | 109 => ⟨S1x256, .f32⟩
  | 110 => ⟨S1x256, .f32⟩
  | 111 => ⟨S1x256, .f32⟩
  | 112 => ⟨S131072x256, .f32⟩
  | 113 => ⟨S131072x256, .f32⟩
  | 114 => ⟨S131072x256, .f32⟩
  | 115 => ⟨S131072x256, .f32⟩
  | 116 => ⟨S_, .f32⟩
  | 117 => ⟨S131072x256, .f32⟩
  | 118 => ⟨S131072x256, .f32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072x256, .f32⟩
  | _ => ⟨S131072x256, .f32⟩

abbrev hbmTy0_1 (i : Nat) : BufTy := match i % 128 with
  | 0 => ⟨S1x512, .f32⟩
  | 1 => ⟨S1x256, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S1, .i32⟩
  | 16 => ⟨S_, .i32⟩
  | 17 => ⟨S131072x1, .i32⟩
  | 18 => ⟨S131072x1, .i1⟩
  | 19 => ⟨S1x1, .i32⟩
  | 20 => ⟨S131072x1, .i32⟩
  | 21 => ⟨S131072x1, .i1⟩
  | 22 => ⟨S131072x1, .i1⟩
  | 23 => ⟨S_, .i1⟩
  | 24 => ⟨S131072, .i1⟩
  | 25 => ⟨S131072x256, .f32⟩
  | 26 => ⟨S131072x256, .i1⟩
  | 27 => ⟨S_, .f32⟩
  | 28 => ⟨S131072x256, .f32⟩
  | 29 => ⟨S131072x256, .f32⟩
  | 30 => ⟨S131072x256, .f32⟩
  | 31 => ⟨S1x512, .f32⟩
  | 32 => ⟨S1x256, .f32⟩
  | 33 => ⟨S1x256, .f32⟩
  | 34 => ⟨S1x256, .f32⟩
  | 35 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S8192x256, .f32⟩
  | .local _ .vmem, ⟨19, _⟩ => ⟨S8192x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S8192x256, .f32⟩
  | .local _ .vmem, ⟨25, _⟩ => ⟨S8192x256, .f32⟩
  | .local _ .vmem, ⟨26, _⟩ => ⟨S1x256, .f32⟩
  | .local _ .vmem, ⟨27, _⟩ => ⟨S1x256, .f32⟩
  | .local _ .vmem, ⟨28, _⟩ => ⟨S4096x256, .f32⟩
  | .local _ .vmem, ⟨29, _⟩ => ⟨S4096x256, .f32⟩
  | .local _ .vmem, ⟨30, _⟩ => ⟨S1x256, .f32⟩
  | .local _ .vmem, ⟨31, _⟩ => ⟨S4096x256, .f32⟩
  | .local _ .vmem, ⟨32, _⟩ => ⟨S4096x256, .f32⟩
  | .local _ .vmem, ⟨33, _⟩ => ⟨S4096x256, .f32⟩
  | .local _ .vmem, ⟨34, _⟩ => ⟨S4096x256, .f32⟩
  | .local _ .vmem, ⟨35, _⟩ => ⟨S1x256, .f32⟩
  | .local _ .vmem, ⟨36, _⟩ => ⟨S1x256, .f32⟩
  | .local _ .vmem, ⟨37, _⟩ => ⟨S4096x256, .f32⟩
  | .local _ .vmem, ⟨38, _⟩ => ⟨S4096x256, .f32⟩
  | .local _ .vmem, ⟨39, _⟩ => ⟨S256x256, .f32⟩
  | .local _ .vmem, ⟨40, _⟩ => ⟨S1x256, .f32⟩
  | .local _ .vmem, ⟨41, _⟩ => ⟨S1x256, .f32⟩
  | .local _ .vmem, ⟨42, _⟩ => ⟨S4096x256, .f32⟩
  | .local _ .vmem, ⟨43, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_cst : Ref sig .tc := ⟨.hbm, 58, rfl⟩
abbrev main_call0_v15 : Ref sig .tc := ⟨.hbm, 59, rfl⟩
abbrev main_v19 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v20 : Ref sig .tc := ⟨.hbm, 83, rfl⟩
abbrev main_v21 : Ref sig .tc := ⟨.hbm, 84, rfl⟩
abbrev main_v22_0 : Ref sig .tc := ⟨.hbm, 85, rfl⟩
abbrev main_v22_1 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_cst : Ref sig .tc := ⟨.hbm, 93, rfl⟩
abbrev main_v29 : Ref sig .tc := ⟨.hbm, 94, rfl⟩
abbrev main_v30 : Ref sig .tc := ⟨.hbm, 95, rfl⟩
abbrev main_cst_0 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_1 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_2 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_cst_3 : Ref sig .tc := ⟨.hbm, 116, rfl⟩
abbrev main_v48 : Ref sig .tc := ⟨.hbm, 117, rfl⟩
abbrev main_v49 : Ref sig .tc := ⟨.hbm, 118, rfl⟩
abbrev main_c : Ref sig .tc := ⟨.hbm, 119, rfl⟩
abbrev main_v50 : Ref sig .tc := ⟨.hbm, 120, rfl⟩
abbrev main_v51 : Ref sig .tc := ⟨.hbm, 121, rfl⟩
abbrev main_c_4 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_cst_5 : Ref sig .tc := ⟨.hbm, 132, rfl⟩
abbrev main_v61 : Ref sig .tc := ⟨.hbm, 133, rfl⟩
abbrev main_v62 : Ref sig .tc := ⟨.hbm, 134, rfl⟩
abbrev main_call2_c : Ref sig .tc := ⟨.hbm, 135, rfl⟩
abbrev main_call2_v0 : Ref sig .tc := ⟨.hbm, 136, rfl⟩
abbrev main_call2_v1 : Ref sig .tc := ⟨.hbm, 137, rfl⟩
abbrev main_call2_c_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_c_1 : Ref sig .tc := ⟨.hbm, 143, rfl⟩
abbrev main_call2_c_2 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_c_3 : Ref sig .tc := ⟨.hbm, 151, rfl⟩
abbrev main_call2_v12 : Ref sig .tc := ⟨.hbm, 152, rfl⟩
abbrev main_call2_v13 : Ref sig .tc := ⟨.hbm, 153, rfl⟩
abbrev main_call2_v14 : Ref sig .tc := ⟨.hbm, 154, rfl⟩
abbrev main_call2_cst : Ref sig .tc := ⟨.hbm, 155, rfl⟩
abbrev main_call2_v15 : Ref sig .tc := ⟨.hbm, 156, rfl⟩
abbrev main_v63 : Ref sig .tc := ⟨.hbm, 157, rfl⟩
abbrev main_v64_0 : Ref sig .tc := ⟨.hbm, 158, rfl⟩
abbrev main_v64_1 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem4_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![2, 16], ![false, false]⟩

def cc3_transform_0 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x256_0 : S131072.BroadcastsInDim S131072x256 (![0] : Fin 1 → Fin S131072x256.rank)
  bcast_S_S131072x256 : S_.BroadcastsInDim S131072x256 (![] : Fin 0 → Fin S131072x256.rank)
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S8192x256_S256 : S8192x256.Reduces [0] S256
  slices_S1x512_S1x256_0_0 : S1x512.Slices ![0, 0] S1x256
  slices_S1x512_S1x256_0_256 : S1x512.Slices ![0, 256] S1x256
  bcast_S_S1x256 : S_.BroadcastsInDim S1x256 (![] : Fin 0 → Fin S1x256.rank)
  bcast_S1x256_S131072x256_0_1 : S1x256.BroadcastsInDim S131072x256 (![0, 1] : Fin 2 → Fin S131072x256.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  reduces_S4096x256_S256 : S4096x256.Reduces [0] S256
  dot_S2048x256_S256x256_S2048x256_1_0_0_1_n_n_wf : DotDims.WF S2048x256 S256x256 S2048x256 [1] [0] [0] [1] [] []
  gather_S131072x256_S131072x1_S131072x256_1_0_n_n_0_1_1256_wf : GatherDims.WF S131072x256 S131072x1 S131072x256 [1] [0] [] [0] [] 1 ![1, 256]
  scatter_S131072x256_S131072x1_S131072x256_1_0_0_1_wf : ScatterDims.WF S131072x256 S131072x1 S131072x256 [1] [0] [0] 1
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S131072x256.size a
  hwx0_10 : ∀ i : grid0.Coords, EltTy.bits .f32 = 32 ∨ (Rect.block (s := S131072x256) S2048x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S131072x256.size a
  hwx0_11 : ∀ i : grid0.Coords, EltTy.bits .f32 = 32 ∨ (Rect.block (s := S131072x256) S2048x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S131072x256.size a
  hwx0_12 : ∀ i : grid0.Coords, EltTy.bits .f32 = 32 ∨ (Rect.block (s := S131072x256) S2048x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S131072x256.size a
  hwx1_0 : ∀ i : grid1.Coords, EltTy.bits .f32 = 32 ∨ (Rect.block (s := S131072x256) S8192x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x512.size a
  hwx1_1 : ∀ i : grid1.Coords, EltTy.bits .f32 = 32 ∨ (Rect.block (s := S1x512) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x512.size a
  hwx1_2 : ∀ i : grid1.Coords, EltTy.bits .f32 = 32 ∨ (Rect.block (s := S1x512) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S131072x256.size a
  hwx2_0 : ∀ i : grid2.Coords, EltTy.bits .f32 = 32 ∨ (Rect.block (s := S131072x256) S8192x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x512.size a
  hwx2_1 : ∀ i : grid2.Coords, EltTy.bits .f32 = 32 ∨ (Rect.block (s := S1x512) S1x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S131072x256.size a
  hwx3_0 : ∀ i : grid3.Coords, EltTy.bits .f32 = 32 ∨ (Rect.block (s := S131072x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S131072x256.size a
  hwx3_2 : ∀ i : grid3.Coords, EltTy.bits .f32 = 32 ∨ (Rect.block (s := S131072x256) S4096x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x256.size a ≤ S131072x256.size a
  hwx3_3 : ∀ i : grid3.Coords, EltTy.bits .f32 = 32 ∨ (Rect.block (s := S131072x256) S4096x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x512.size a
  hwx3_4 : ∀ i : grid3.Coords, EltTy.bits .f32 = 32 ∨ (Rect.block (s := S1x512) S1x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S131072x256.size a
  hwx4_0 : ∀ i : grid4.Coords, EltTy.bits .f32 = 32 ∨ (Rect.block (s := S131072x256) S4096x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x256.size a ≤ S131072x256.size a
  hwx4_4 : ∀ i : grid4.Coords, EltTy.bits .f32 = 32 ∨ (Rect.block (s := S131072x256) S4096x256.size (cc4_transform_4 i) (hinb4_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def scatter_S131072x256_S131072x1_S131072x256_1_0_0_1 : ScatterDims S131072x256 S131072x1 S131072x256 where
  updateWindowDims := [1]
  insertedWindowDims := [0]
  scatterDimsToOperandDims := [0]
  indexVectorDim := 1
  wf := scatter_S131072x256_S131072x1_S131072x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18_0) S2048x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18_1) S2048x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v18_2) S2048x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v21) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S1x256.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_1) S1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S8192x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v56) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4096x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64_0) S4096x256.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v64_1) S1x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg0) S4096x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S4096x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S131072x256 : Shape := ⟨2, ![131072, 256]⟩
abbrev S2x131072 : Shape := ⟨2, ![2, 131072]⟩
abbrev S256x256 : Shape := ⟨2, ![256, 256]⟩
abbrev S256 : Shape := ⟨1, ![256]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S1x256 : Shape := ⟨2, ![1, 256]⟩

abbrev nBuf : Space → Nat
  | .hbm => 180
  | .vmem => 0
  | .smem => 0
  | _ => 0

abbrev hbmTy0_0 (i : Nat) : BufTy := match i % 128 with
  | 0 => ⟨S131072x256, .f32⟩
  | 1 => ⟨S2x131072, .i32⟩
  | 2 => ⟨S131072x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256x256, .f32⟩
  | 16 => ⟨S256, .f32⟩
  | 17 => ⟨S1x131072, .i32⟩
  | 18 => ⟨S131072, .i32⟩
  | 19 => ⟨S1x131072, .i32⟩
  | 20 => ⟨S131072, .i32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S131072x256, .f32⟩
  | 30 => ⟨S256x256, .f32⟩
  | 31 => ⟨S131072x256, .f32⟩
  | 32 => ⟨S1x256, .f32⟩
  | 33 => ⟨S131072x256, .f32⟩
  | 34 => ⟨S131072x256, .f32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x256, .f32⟩
  | 44 => ⟨S256x256, .f32⟩
  | 45 => ⟨S131072x256, .f32⟩
  | 46 => ⟨S131072x256, .f32⟩
  | 47 => ⟨S1x256, .f32⟩
  | 48 => ⟨S131072x256, .f32⟩
  | 49 => ⟨S131072x256, .f32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S131072x1, .i32⟩
  | 58 => ⟨S131072x256, .f32⟩
  | 59 => ⟨S256x256, .f32⟩
  | 60 => ⟨S131072x256, .f32⟩
  | 61 => ⟨S131072x256, .f32⟩
  | 62 => ⟨S1x256, .f32⟩
  | 63 => ⟨S131072x256, .f32⟩
  | 64 => ⟨S131072x256, .f32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x256, .f32⟩
  | 74 => ⟨S256x256, .f32⟩
  | 75 => ⟨S131072x256, .f32⟩
  | 76 => ⟨S131072x256, .f32⟩
  | 77 => ⟨S1x256, .f32⟩
  | 78 => ⟨S131072x256, .f32⟩
  | 79 => ⟨S131072x256, .f32⟩
  | 80 => ⟨S_, .f32⟩
  | 81 => ⟨S256, .f32⟩
  | 82 => ⟨S_, .f32⟩
  | 83 => ⟨S256, .f32⟩
  | 84 => ⟨S256, .f32⟩
  | 85 => ⟨S_, .i32⟩
  | 86 => ⟨S_, .f32⟩
  | 87 => ⟨S256, .f32⟩
  | 88 => ⟨S1x256, .f32⟩
  | 89 => ⟨S_, .f32⟩
  | 90 => ⟨S1x256, .f32⟩
  | 91 => ⟨S1x256, .f32⟩
  | 92 => ⟨S131072x256, .f32⟩
  | 93 => ⟨S131072x256, .f32⟩
  | 94 => ⟨S131072x256, .f32⟩
  | 95 => ⟨S_, .f32⟩
  | 96 => ⟨S_, .f32⟩
  | 97 => ⟨S_, .f32⟩
  | 98 => ⟨S_, .f32⟩
  | 99 => ⟨S256, .f32⟩
  | 100 => ⟨S256, .f32⟩
  | 101 => ⟨S256, .f32⟩
  | 102 => ⟨S_, .f32⟩
  | 103 => ⟨S_, .i1⟩
  | 104 => ⟨S_, .f32⟩
  | 105 => ⟨S_, .f32⟩
  | 106 => ⟨S256, .f32⟩
  | 107 => ⟨S256, .f32⟩
  | 108 => ⟨S1x256, .f32⟩
  | 109 => ⟨S131072x256, .f32⟩
  | 110 => ⟨S131072x256, .f32⟩
  | 111 => ⟨S1x256, .f32⟩
  | 112 => ⟨S131072x256, .f32⟩
  | 113 => ⟨S131072x256, .f32⟩
  | 114 => ⟨S_, .f32⟩
  | 115 => ⟨S256, .f32⟩
  | 116 => ⟨S256, .f32⟩
  | 117 => ⟨S256, .f32⟩
  | 118 => ⟨S1x256, .f32⟩
  | 119 => ⟨S131072x256, .f32⟩
  | 120 => ⟨S131072x256, .f32⟩
  | 121 => ⟨S1x256, .f32⟩
  | 122 => ⟨S131072x256, .f32⟩
  | 123 => ⟨S131072x256, .f32⟩
  | 124 => ⟨S_, .f32⟩
  | 125 => ⟨S131072x256, .f32⟩
  | 126 => ⟨S131072x256, .f32⟩
  | 127 => ⟨S_, .i32⟩
  | _ => ⟨S131072x256, .f32⟩

abbrev hbmTy0_1 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S131072x1, .i32⟩
  | 7 => ⟨S131072x256, .f32⟩
  | 8 => ⟨S131072x256, .f32⟩
  | 9 => ⟨S131072x256, .f32⟩
  | 10 => ⟨S_, .f32⟩
  | 11 => ⟨S131072x256, .f32⟩
  | 12 => ⟨S131072x256, .f32⟩
  | 13 => ⟨S_, .f32⟩
  | 14 => ⟨S131072x256, .f32⟩
  | 15 => ⟨S131072x256, .f32⟩
  | 16 => ⟨S_, .f32⟩
  | 17 => ⟨S256, .f32⟩
  | 18 => ⟨S1x256, .f32⟩
  | 19 => ⟨S_, .f32⟩
  | 20 => ⟨S1x256, .f32⟩
  | 21 => ⟨S1x256, .f32⟩
  | 22 => ⟨S131072x256, .f32⟩
  | 23 => ⟨S131072x256, .f32⟩
  | 24 => ⟨S256x256, .f32⟩
  | 25 => ⟨S131072x256, .f32⟩
  | 26 => ⟨S1x256, .f32⟩
  | 27 => ⟨S131072x256, .f32⟩
  | 28 => ⟨S131072x256, .f32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072x256, .f32⟩
  | 38 => ⟨S256x256, .f32⟩
  | 39 => ⟨S131072x256, .f32⟩
  | 40 => ⟨S1x256, .f32⟩
  | 41 => ⟨S131072x256, .f32⟩
  | 42 => ⟨S131072x256, .f32⟩
  | 43 => ⟨S131072x256, .f32⟩
  | 44 => ⟨S_, .f32⟩
  | 45 => ⟨S256, .f32⟩
  | 46 => ⟨S1x256, .f32⟩
  | 47 => ⟨S131072x256, .f32⟩
  | 48 => ⟨S131072x256, .f32⟩
  | 49 => ⟨S_, .f32⟩
  | 50 => ⟨S131072x256, .f32⟩
  | 51 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_c_8 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_cst_3 : Ref sig .tc := ⟨.hbm, 102, rfl⟩
abbrev main_call0_v12 : Ref sig .tc := ⟨.hbm, 103, rfl⟩
abbrev main_call0_cst_4 : Ref sig .tc := ⟨.hbm, 104, rfl⟩
abbrev main_call0_call0_v0 : Ref sig .tc := ⟨.hbm, 105, rfl⟩
abbrev main_call0_call0_v1 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_9 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_call1_cst : Ref sig .tc := ⟨.hbm, 124, rfl⟩
abbrev main_call1_v0 : Ref sig .tc := ⟨.hbm, 125, rfl⟩
abbrev main_v74 : Ref sig .tc := ⟨.hbm, 126, rfl⟩
abbrev main_c_10 : Ref sig .tc := ⟨.hbm, 127, rfl⟩
abbrev main_v75 : Ref sig .tc := ⟨.hbm, 128, rfl⟩
abbrev main_v76 : Ref sig .tc := ⟨.hbm, 129, rfl⟩
abbrev main_c_11 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_12 : Ref sig .tc := ⟨.hbm, 138, rfl⟩
abbrev main_v84 : Ref sig .tc := ⟨.hbm, 139, rfl⟩
abbrev main_v85 : Ref sig .tc := ⟨.hbm, 140, rfl⟩
abbrev main_cst_13 : Ref sig .tc := ⟨.hbm, 141, rfl⟩
abbrev main_v86 : Ref sig .tc := ⟨.hbm, 142, rfl⟩
abbrev main_v87 : Ref sig .tc := ⟨.hbm, 143, rfl⟩
abbrev main_cst_14 : Ref sig .tc := ⟨.hbm, 144, rfl⟩
abbrev main_v88 : Ref sig .tc := ⟨.hbm, 145, rfl⟩
abbrev main_v89 : Ref sig .tc := ⟨.hbm, 146, rfl⟩
abbrev main_cst_15 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_16 : Ref sig .tc := ⟨.hbm, 157, rfl⟩
abbrev main_v99 : Ref sig .tc := ⟨.hbm, 158, rfl⟩
abbrev main_v100 : Ref sig .tc := ⟨.hbm, 159, rfl⟩
abbrev main_c_17 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_cst_18 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_call2_cst : Ref sig .tc := ⟨.hbm, 177, rfl⟩
abbrev main_call2_v0 : Ref sig .tc := ⟨.hbm, 178, rfl⟩
abbrev main_v116 : Ref sig .tc := ⟨.hbm, 179, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S131072x256_S256_d0 : S131072x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S131072x256 : S_.BroadcastsInDim S131072x256 (![] : Fin 0 → Fin S131072x256.rank)
  gather_S131072x256_S131072x1_S131072x256_1_0_n_n_0_1_1256_wf : GatherDims.WF S131072x256 S131072x1 S131072x256 [1] [0] [] [0] [] 1 ![1, 256]
  dot_S131072x256_S256x256_S131072x256_1_0_0_1_n_n_wf : DotDims.WF S131072x256 S256x256 S131072x256 [1] [0] [0] [1] [] []
  scatter_S131072x256_S131072x1_S131072x256_1_0_0_1_wf : ScatterDims.WF S131072x256 S131072x1 S131072x256 [1] [0] [0] 1

variable [Facts₀]

def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def scatter_S131072x256_S131072x1_S131072x256_1_0_0_1 : ScatterDims S131072x256 S131072x1 S131072x256 where
  updateWindowDims := [1]
  insertedWindowDims := [0]
  scatterDimsToOperandDims := [0]
  indexVectorDim := 1
  wf := scatter_S131072x256_S131072x1_S131072x256_1_0_0_1_wf

class Facts : Prop extends Facts₀ where

variable [Facts]
-- ==== Proof.Spec.lean ====
/-
  The mathematics both programs compute, index by index, over the extended reals.
  A "big" array is a function of a row in Fin 131072 and a channel in Fin 256; a weight matrix is given ALREADY
  TRANSPOSED (wT k j = W j k), as both programs transpose it on the host before any product.
  Nothing here mentions a program: both sides read their own terms at an index and land on these functions.
-/
import Idealize.ShloMosaic.PureOps.Ideal
import Idealize.ShloMosaic.PureOps.Ideal.Laws
import Idealize.ShloMosaic.Lib.ValueIdx

noncomputable section

open scoped BigOperators

namespace Cert.Spec

open Idealize.ShloMosaic

abbrev Big := Fin 131072 → Fin 256 → EReal
abbrev Mat := Fin 256 → Fin 256 → EReal
abbrev Row := Fin 256 → EReal
/-- A gather's row map: which row of the operand lands in row `r` of the result. -/
abbrev Ix := Fin 131072 → Fin 131072

/-- An array of shape [131072, 256] (or [256, 256], or [1, 256]) read by its two coordinates. -/
abbrev cur {n0 n1 : Nat} (x : (⟨2, ![n0, n1]⟩ : Shape).Idx → EReal) : Fin n0 → Fin n1 → EReal :=
  fun r j => x (ValueIdx.ix2 r j)
/-- An array of shape [256] read by its coordinate. -/
abbrev cur1 {n : Nat} (x : (⟨1, ![n]⟩ : Shape).Idx → EReal) : Fin n → EReal := fun j => x (ValueIdx.ix1 j)

/-- An array from its two-coordinate reading (the inverse of `cur`). -/
def arr2 {α : Type} {n0 n1 : Nat} (f : Fin n0 → Fin n1 → α) : (⟨2, ![n0, n1]⟩ : Shape).Idx → α :=
  fun i => f ⟨(i 0).val, ValueIdx.idx2_lt0 i⟩ ⟨(i 1).val, ValueIdx.idx2_lt1 i⟩
theorem arr2_apply {α : Type} {n0 n1 : Nat} (f : Fin n0 → Fin n1 → α) (r : Fin n0) (j : Fin n1) :
    arr2 f (ValueIdx.ix2 r j) = f r j := rfl
theorem arr2_cur {n0 n1 : Nat} (x : (⟨2, ![n0, n1]⟩ : Shape).Idx → EReal) : arr2 (cur x) = x :=
  funext fun i => congrArg x (ValueIdx.eq_ix2 i).symm
theorem cur_arr2 {n0 n1 : Nat} (f : Fin n0 → Fin n1 → EReal) : cur (arr2 f) = f := rfl
/-- Two arrays with the same two-coordinate reading are equal. -/
theorem ext2 {α : Type} {n0 n1 : Nat} {x y : (⟨2, ![n0, n1]⟩ : Shape).Idx → α}
    (h : ∀ (r : Fin n0) (j : Fin n1), x (ValueIdx.ix2 r j) = y (ValueIdx.ix2 r j)) : x = y :=
  funext fun i => by rw [ValueIdx.eq_ix2 i]; exact h _ _

/-- A weight matrix read transposed: both programs transpose W on the host, so the product sees wT k j = W j k. -/
def tr (w : Mat) : Mat := fun k j => w j k

/-! ## The index words -/

/-- jnp's normalisation of a possibly negative index: add the extent to a negative one. -/
def nrm (v : BitVec 32) : BitVec 32 := if v.slt 0#32 then v + 131072#32 else v
/-- A gather's clamp of a start index into [0, 131071], read signed. -/
def gix (v : BitVec 32) : Fin 131072 := ⟨min v.toInt.toNat 131071, by omega⟩
/-- The row map of a gather by `edge_index[0]` (a = 0) or `edge_index[1]` (a = 1). -/
def eIx (ei : (⟨2, ![2, 131072]⟩ : Shape).Idx → BitVec 32) (a : Fin 2) : Ix := fun r => gix (nrm (ei (ValueIdx.ix2 a r)))
/-- Every index word lies in [-131072, 131072): the range in which a negative index still names a row. -/
def InRange (ei : (⟨2, ![2, 131072]⟩ : Shape).Idx → BitVec 32) : Prop :=
  ∀ (a : Fin 2) (r : Fin 131072), -131072 ≤ (ei (ValueIdx.ix2 a r)).toInt ∧ (ei (ValueIdx.ix2 a r)).toInt < 131072
/-- The scatter's index operand, [131072, 1]: the normalised `edge_index[0]`. -/
def scatIdx (ei : (⟨2, ![2, 131072]⟩ : Shape).Idx → BitVec 32) : (⟨2, ![131072, 1]⟩ : Shape).Idx → BitVec 32 :=
  arr2 (fun r (_ : Fin 1) => nrm (ei (ValueIdx.ix2 0 r)))
/-- The dimension numbers of `e.at[row].add(upd)`: rows of the update added into rows of the operand. -/
def scatD : ScatterDims ⟨2, ![131072, 256]⟩ ⟨2, ![131072, 1]⟩ ⟨2, ![131072, 256]⟩ where
  updateWindowDims := [1]
  insertedWindowDims := [0]
  scatterDimsToOperandDims := [0]
  indexVectorDim := 1
  wf := by decide

/-- The dimension numbers of a row gather `x[idx]`: row r of the result is the operand's row named by start index r. -/
def gathD : GatherDims ⟨2, ![131072, 256]⟩ ⟨2, ![131072, 1]⟩ ⟨2, ![131072, 256]⟩ where
  offsetDims := [1]
  collapsedSliceDims := [0]
  operandBatchingDims := []
  startIndicesBatchingDims := []
  startIndexMap := [0]
  indexVectorDim := 1
  sliceSizes := ![1, 256]
  wf := by decide

/-- The number of rows, 131072.0, as both programs print it. -/
def cN : EReal := Ideal.ofBits .f32 0x48000000#32
/-- f32(1e-5), the one epsilon of both programs (batch norm's and the normaliser's). -/
def cEps : EReal := Ideal.ofBits .f32 0x3727C5AC#32
def cOne : EReal := Ideal.ofBits .f32 0x3F800000#32

/-- x · wT: row r, channel j is the sum over k of x[r,k] · wT[k,j]. -/
def mm (x : Big) (wT : Mat) : Big := fun r j => ∑ k : Fin 256, x r k * wT k j
/-- The sum of a column over all 131072 rows. -/
def colsum (x : Big) : Row := fun j => ∑ r : Fin 131072, x r j
def mean (x : Big) : Row := fun j => Ideal.div (colsum x j) cN
/-- The reference's biased variance: the mean of the squared deviations. -/
def varRef (x : Big) : Row := fun j => Ideal.div (∑ r : Fin 131072, (x r j - mean x j) * (x r j - mean x j)) cN
/-- The kernel's: mean of squares minus squared mean, clamped at zero. -/
def varKer (x : Big) : Row := fun j => max (Ideal.div (∑ r : Fin 131072, x r j * x r j) cN - mean x j * mean x j) 0

/-- The edge message before batch norm, in the reference's order of additions (left to right). -/
def eOutRef (h e : Big) (At Bt Ct Dt : Mat) (Ab Bb Cb Db : Row) (row col : Ix) : Big := fun r j =>
  mm h At (row r) j + Ab j + mm h Bt (col r) j + Bb j + mm e Ct (col r) j + Cb j + mm e Dt (row r) j + Db j
/-- The same in the kernel's grouping: the row-gathered half plus the column-gathered half, biases paired. -/
def eOutKer (h e : Big) (At Bt Ct Dt : Mat) (Ab Bb Cb Db : Row) (row col : Ix) : Big := fun r j =>
  (mm h At (row r) j + mm e Dt (row r) j + (Ab j + Db j)) + (mm h Bt (col r) j + mm e Ct (col r) j + (Bb j + Cb j))

/-- Batch norm with given statistics, then ReLU. -/
def bn (x : Big) (mu v gamma beta : Row) : Big := fun r j =>
  max (gamma j * (x r j - mu j) * Ideal.rsqrt (v j + cEps) + beta j) 0

/-- The logistic function as both programs spell it: 1 / (1 + e^(-x)). -/
def sgm (x : EReal) : EReal := Ideal.div cOne (cOne + Ideal.exp (-x))
/-- The second result: the sigmoid of x normalised by its column sum plus epsilon. -/
def eFinal (x : Big) : Big := fun r j => Ideal.div (sgm (x r j)) (colsum (fun r j => sgm (x r j)) j + cEps)
/-- V(h[col]): the V-transformed node features gathered by column index. -/
def hV (h : Big) (Vt : Mat) (Vb : Row) (col : Ix) : Big := fun r j => mm h Vt (col r) j + Vb j
/-- The reduce of the final stage: column sums of ef ⊙ hv. -/
def accV (ef hv : Big) : Row := colsum (fun r j => ef r j * hv r j)
/-- The first result: ReLU(h · Ut + Ub + acc). -/
def hOut (h : Big) (Ut : Mat) (Ub acc : Row) : Big := fun r j => max (mm h Ut r j + Ub j + acc j) 0

/-- The edge features after the messages are scattered in: `e.at[row].add(upd)`, the exact sum at this instance. -/
def eNew (e : Big) (ei : (⟨2, ![2, 131072]⟩ : Shape).Idx → BitVec 32) (upd : Big) : Big :=
  cur (Ideal.hostScatterAdd scatD (arr2 e) (scatIdx ei) (arr2 upd))

/-- The sum of a column over one half of the rows: j' < 256 is column j' over rows 0 … 65535, j' ≥ 256 is column
    j' − 256 over rows 65536 … 131071 — what a reduction split over the two cores leaves in its [1, 512] output. -/
def halfSum (f : Big) : Fin 512 → EReal := fun j' =>
  ∑ r : Fin 65536, f ⟨j'.val / 256 * 65536 + r.val, by have := j'.isLt; have := r.isLt; omega⟩ ⟨j'.val % 256, by omega⟩

/-- The second result as one function: x is the edge message before batch norm, v its variance. -/
def out1 (x : Big) (v : Row) (e : Big) (ei : (⟨2, ![2, 131072]⟩ : Shape).Idx → BitVec 32) (gamma beta : Row) : Big :=
  eFinal (eNew e ei (bn x (mean x) v gamma beta))
/-- The first result as one function. -/
def out0 (x : Big) (v : Row) (e : Big) (ei : (⟨2, ![2, 131072]⟩ : Shape).Idx → BitVec 32) (gamma beta : Row)
    (h : Big) (Ut : Mat) (Ub : Row) (Vt : Mat) (Vb : Row) : Big :=
  hOut h Ut Ub (accV (out1 x v e ei gamma beta) (hV h Vt Vb (eIx ei 1)))

/-- Every entry is a real number. -/
def Real2 {α β : Type} (x : α → β → EReal) : Prop := ∀ a b, ∃ v : ℝ, x a b = (v : EReal)
def Real1 {α : Type} (x : α → EReal) : Prop := ∀ a, ∃ v : ℝ, x a = (v : EReal)

/-- A finite sum of real numbers, taken in the extended reals, is the real sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum is real when both summands are. -/
private theorem real_add {a b : EReal} (ha : ∃ v : ℝ, a = (v : EReal)) (hb : ∃ v : ℝ, b = (v : EReal)) :
    ∃ v : ℝ, a + b = (v : EReal) := by
  obtain ⟨x, rfl⟩ := ha
  obtain ⟨y, rfl⟩ := hb
  exact ⟨x + y, (EReal.coe_add x y).symm⟩

/-- The product x · wT of real arrays is real. -/
private theorem real_mm {x : Big} {wT : Mat} (hx : Real2 x) (hw : Real2 wT) (r : Fin 131072) (j : Fin 256) :
    ∃ v : ℝ, mm x wT r j = (v : EReal) := by
  choose gx hgx using hx
  choose gw hgw using hw
  refine ⟨∑ k : Fin 256, gx r k * gw k j, ?_⟩
  unfold mm
  rw [← coe_sum]
  refine Finset.sum_congr rfl fun k _ => ?_
  rw [hgx, hgw, EReal.coe_mul]

/-- The number of rows is the real number 131072. -/
private theorem cN_eq : cN = ((131072 : ℝ) : EReal) := by
  unfold cN
  simp [Ideal.ofBits, Ideal.ieee]
  rw [← EReal.coe_mul]
  norm_num

/-- Addition on the extended reals is commutative and associative, so the two groupings agree everywhere. -/
theorem eOutKer_eq (h e : Big) (At Bt Ct Dt : Mat) (Ab Bb Cb Db : Row) (row col : Ix) :
    eOutKer h e At Bt Ct Dt Ab Bb Cb Db row col = eOutRef h e At Bt Ct Dt Ab Bb Cb Db row col := by
  funext r j
  simp only [eOutKer, eOutRef]
  ac_rfl

/-- A product of reals summed over k stays real. -/
theorem eOutRef_real (h e : Big) (At Bt Ct Dt : Mat) (Ab Bb Cb Db : Row) (row col : Ix)
    (hh : Real2 h) (he : Real2 e) (hA : Real2 At) (hB : Real2 Bt) (hC : Real2 Ct) (hD : Real2 Dt)
    (hAb : Real1 Ab) (hBb : Real1 Bb) (hCb : Real1 Cb) (hDb : Real1 Db) :
    Real2 (eOutRef h e At Bt Ct Dt Ab Bb Cb Db row col) := by
  intro r j
  simp only [eOutRef]
  exact real_add (real_add (real_add (real_add (real_add (real_add (real_add (real_mm hh hA _ _) (hAb j))
    (real_mm hh hB _ _)) (hBb j)) (real_mm he hC _ _)) (hCb j)) (real_mm he hD _ _)) (hDb j)

/-- On real entries E[x²] − (E x)² is the mean squared deviation, which is nonnegative, so the clamp does nothing. -/
theorem varKer_eq (x : Big) (hx : Real2 x) : varKer x = varRef x := by
  choose g hg using hx
  obtain rfl : x = fun r j => ((g r j : ℝ) : EReal) := funext fun r => funext fun j => hg r j
  funext j
  -- the mean, the mean of squares and the mean squared deviation as real numbers
  have hmean : mean (fun r j => ((g r j : ℝ) : EReal)) j = (((∑ r, g r j) * (1 / 131072) : ℝ) : EReal) := by
    unfold mean colsum
    rw [cN_eq, Ideal.div_coe (by norm_num), coe_sum, ← EReal.coe_mul]
  unfold varKer varRef
  rw [hmean, cN_eq, Ideal.div_coe (by norm_num), Ideal.div_coe (by norm_num)]
  simp only [← EReal.coe_mul, ← EReal.coe_sub, coe_sum]
  -- the algebra: E[g²] − (E g)² = E[(g − E g)²]
  have key : (∑ r, g r j * g r j) * (1 / 131072) - (∑ r, g r j) * (1 / 131072) * ((∑ r, g r j) * (1 / 131072))
      = (∑ r, (g r j - (∑ r, g r j) * (1 / 131072)) * (g r j - (∑ r, g r j) * (1 / 131072))) * (1 / 131072) := by
    have hsq : ∀ r, (g r j - (∑ r, g r j) * (1 / 131072)) * (g r j - (∑ r, g r j) * (1 / 131072))
        = g r j * g r j - 2 * ((∑ r, g r j) * (1 / 131072)) * g r j
          + (∑ r, g r j) * (1 / 131072) * ((∑ r, g r j) * (1 / 131072)) := fun r => by ring
    simp only [hsq, Finset.sum_add_distrib, Finset.sum_sub_distrib, ← Finset.mul_sum, Finset.sum_const,
      Finset.card_univ, Fintype.card_fin, nsmul_eq_mul]
    push_cast
    ring
  rw [key, max_eq_left]
  exact_mod_cast mul_nonneg (Finset.sum_nonneg fun r _ => mul_self_nonneg _) (by norm_num)

/-- The rows split as the first 65536 and the last 65536. -/
private theorem sum_rows_split (g : Fin 131072 → EReal) :
    ∑ r : Fin 131072, g r
      = ∑ r : Fin 65536, g ⟨r.val, by omega⟩ + ∑ r : Fin 65536, g ⟨65536 + r.val, by omega⟩ := by
  have h := Fin.sum_univ_add (M := EReal) (a := 65536) (b := 65536) (fun r : Fin (65536 + 65536) => g r)
  change ∑ r : Fin (65536 + 65536), g r = _
  rw [h]
  rfl

/-- The two half sums of a column add up to the whole column sum. -/
theorem halfSum_add (f : Big) (j : Fin 256) :
    halfSum f ⟨j.val, by omega⟩ + halfSum f ⟨j.val + 256, by omega⟩ = colsum f j := by
  have hj := j.isLt
  -- the lower half: j / 256 = 0 and j % 256 = j
  have h1 : halfSum f ⟨j.val, by omega⟩ = ∑ r : Fin 65536, f ⟨r.val, by omega⟩ j := by
    unfold halfSum
    refine Finset.sum_congr rfl fun r _ => ?_
    have hr := r.isLt
    refine congrArg₂ f (Fin.ext ?_) (Fin.ext ?_)
    · show j.val / 256 * 65536 + r.val = r.val
      omega
    · show j.val % 256 = j.val
      omega
  -- the upper half: (j + 256) / 256 = 1 and (j + 256) % 256 = j
  have h2 : halfSum f ⟨j.val + 256, by omega⟩ = ∑ r : Fin 65536, f ⟨65536 + r.val, by omega⟩ j := by
    unfold halfSum
    refine Finset.sum_congr rfl fun r _ => ?_
    have hr := r.isLt
    refine congrArg₂ f (Fin.ext ?_) (Fin.ext ?_)
    · show (j.val + 256) / 256 * 65536 + r.val = 65536 + r.val
      omega
    · show (j.val + 256) % 256 = j.val
      omega
  rw [h1, h2]
  exact (sum_rows_split (fun r => f r j)).symm

/-- In range, a normalised index word is its own clamp: it lies in [0, 131072). -/
theorem nrm_inRange (v : BitVec 32) (h : -131072 ≤ v.toInt ∧ v.toInt < 131072) :
    0 ≤ (nrm v).toInt ∧ (nrm v).toInt ≤ 131071 := by
  unfold nrm
  by_cases hneg : v.toInt < 0
  · have hs : v.slt 0#32 = true := by simp [BitVec.slt, hneg]
    rw [hs, if_pos rfl]
    have : (v + 131072#32).toInt = v.toInt + 131072 := by
      rw [BitVec.toInt_add, Int.bmod_def]
      simp
      split <;> omega
    omega
  · have hs : v.slt 0#32 = false := by simp [BitVec.slt, hneg]
    rw [hs, if_neg (by simp)]
    omega

end Cert.Spec

end
-- ==== Proof.KerArgs.lean ====
/-
  The kernel program's seventeen argument arrays read by coordinates, and the edge message in the kernel's grouping.
-/
import proofs.«407534_j31061203484850_2_alg».proof.Proof.Gen.KernelIdeal.Frame
import proofs.«407534_j31061203484850_2_alg».proof.Proof.Spec

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.KA

variable (m : (ℓ : Loc nD τ sig) → Buf (Elt Ideal) ℓ) (c : Dev nD)

abbrev H : Big := cur (m ((c : Thread nD τ).loc main_arg0))
abbrev EI : IVec S2x131072 32 := m ((c : Thread nD τ).loc main_arg1)
abbrev E : Big := cur (m ((c : Thread nD τ).loc main_arg2))
abbrev Aw : Mat := cur (m ((c : Thread nD τ).loc main_arg3))
abbrev Ab : Row := cur1 (m ((c : Thread nD τ).loc main_arg4))
abbrev Bw : Mat := cur (m ((c : Thread nD τ).loc main_arg5))
abbrev Bb : Row := cur1 (m ((c : Thread nD τ).loc main_arg6))
abbrev Cw : Mat := cur (m ((c : Thread nD τ).loc main_arg7))
abbrev Cb : Row := cur1 (m ((c : Thread nD τ).loc main_arg8))
abbrev Dw : Mat := cur (m ((c : Thread nD τ).loc main_arg9))
abbrev Db : Row := cur1 (m ((c : Thread nD τ).loc main_arg10))
abbrev Gm : Row := cur1 (m ((c : Thread nD τ).loc main_arg11))
abbrev Be : Row := cur1 (m ((c : Thread nD τ).loc main_arg12))
abbrev Uw : Mat := cur (m ((c : Thread nD τ).loc main_arg13))
abbrev Ub : Row := cur1 (m ((c : Thread nD τ).loc main_arg14))
abbrev Vw : Mat := cur (m ((c : Thread nD τ).loc main_arg15))
abbrev Vb : Row := cur1 (m ((c : Thread nD τ).loc main_arg16))

/-- The edge message before batch norm, as the kernel program groups it. -/
def xK : Big := eOutKer (H m c) (E m c) (tr (Aw m c)) (tr (Bw m c)) (tr (Cw m c)) (tr (Dw m c))
  (Ab m c) (Bb m c) (Cb m c) (Db m c) (eIx (EI m c) 0) (eIx (EI m c) 1)

/-- What the precondition gives: every float argument has real entries and every index word is in range. -/
structure Good : Prop where
  hH : Real2 (H m c)
  hE : Real2 (E m c)
  hAw : Real2 (Aw m c)
  hAb : Real1 (Ab m c)
  hBw : Real2 (Bw m c)
  hBb : Real1 (Bb m c)
  hCw : Real2 (Cw m c)
  hCb : Real1 (Cb m c)
  hDw : Real2 (Dw m c)
  hDb : Real1 (Db m c)
  hEI : InRange (EI m c)

end Cert.KernelIdeal.KA

end
-- ==== Proof.RefArgs.lean ====
/-
  The reference program's seventeen argument arrays read by coordinates, and the edge message in the reference's order of additions.
-/
import proofs.«407534_j31061203484850_2_alg».proof.Proof.Gen.ReferenceIdeal
import proofs.«407534_j31061203484850_2_alg».proof.Proof.Spec

noncomputable section

open scoped BigOperators
open Idealize.ShloMosaic Idealize.ShloMosaic.TcCoe Idealize.SL.Sem
open Cert.ReferenceIdeal Cert.ReferenceIdeal.Gen Cert.Spec

namespace Cert.ReferenceIdeal.RA

variable (m : (ℓ : Loc nD τ sig) → Buf (Elt Ideal) ℓ) (c : Dev nD)

abbrev H : Big := cur (m ((c : Thread nD τ).loc main_arg0))
abbrev EI : IVec S2x131072 32 := m ((c : Thread nD τ).loc main_arg1)
abbrev E : Big := cur (m ((c : Thread nD τ).loc main_arg2))
abbrev Aw : Mat := cur (m ((c : Thread nD τ).loc main_arg3))
abbrev Ab : Row := cur1 (m ((c : Thread nD τ).loc main_arg4))
abbrev Bw : Mat := cur (m ((c : Thread nD τ).loc main_arg5))
abbrev Bb : Row := cur1 (m ((c : Thread nD τ).loc main_arg6))
abbrev Cw : Mat := cur (m ((c : Thread nD τ).loc main_arg7))
abbrev Cb : Row := cur1 (m ((c : Thread nD τ).loc main_arg8))
abbrev Dw : Mat := cur (m ((c : Thread nD τ).loc main_arg9))
abbrev Db : Row := cur1 (m ((c : Thread nD τ).loc main_arg10))
abbrev Gm : Row := cur1 (m ((c : Thread nD τ).loc main_arg11))
abbrev Be : Row := cur1 (m ((c : Thread nD τ).loc main_arg12))
abbrev Uw : Mat := cur (m ((c : Thread nD τ).loc main_arg13))
abbrev Ub : Row := cur1 (m ((c : Thread nD τ).loc main_arg14))
abbrev Vw : Mat := cur (m ((c : Thread nD τ).loc main_arg15))
abbrev Vb : Row := cur1 (m ((c : Thread nD τ).loc main_arg16))

/-- The edge message before batch norm, in the reference's order of additions. -/
def xR : Big := eOutRef (H m c) (E m c) (tr (Aw m c)) (tr (Bw m c)) (tr (Cw m c)) (tr (Dw m c))
  (Ab m c) (Bb m c) (Cb m c) (Db m c) (eIx (EI m c) 0) (eIx (EI m c) 1)

end Cert.ReferenceIdeal.RA

end
-- ==== Proof.Region0.lean ====
/-
  The first region (the three commuted linears) as whole-array functions: after the region, each of its three output arrays holds, at row r and channel j, the two matrix products of row r plus the bias of channel j.
-/
import proofs.«407534_j31061203484850_2_alg».proof.Proof.Gen.KernelIdeal.Frame
import proofs.«407534_j31061203484850_2_alg».proof.Proof.Spec
import Idealize.ShloMosaic.Lib.Pipeline.Value
import Idealize.ShloMosaic.PureOps.Ideal.Laws

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.Region0

section Helpers
open Idealize.ShloMosaic.ValueIdx

/-! ## One block product read at an index

The body multiplies a [2048, 256] block of rows by a whole [256, 256] weight: the left operand is contracted along its
second axis, the right along its first. At output index (p, q) and contraction position k the left operand is read at
(p, k) and the right at (k, q): one fact per operand axis. -/

theorem lhs_blk_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

theorem lhs_blk_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

theorem rhs_blk_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

theorem rhs_blk_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- A block of rows times a whole weight, into the zero accumulator, at (p, q): the sum over k of row p of the block
    at k times column q of the weight at k. No rounding is left at the extended reals. -/
theorem blockProduct_apply (A : FVec Ideal S2048x256 .bf16) (B : FVec Ideal S256x256 .bf16) (p : Fin 2048) (q : Fin 256) :
    matmul dot_S2048x256_S256x256_S2048x256_1_0_0_1_n_n none A B (constant S2048x256 .f32 0x00000000#32) (ix2 p q)
      = ∑ k : Fin 256, A (ix2 p k) * B (ix2 k q) := by
  simp only [matmul]
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q)
      ((contrEquiv1 dot_S2048x256_S256x256_S2048x256_1_0_0_1_n_n 256 rfl rfl).symm k) = ix2 p k :=
    funext fun a => Fin.ext (by
      match a with
      | ⟨0, _⟩ => exact lhs_blk_0 _ _
      | ⟨1, _⟩ => exact (lhs_blk_1 _ _).trans hk)
  have er : dot_S2048x256_S256x256_S2048x256_1_0_0_1_n_n.rhsIdx (ix2 p q)
      ((contrEquiv1 dot_S2048x256_S256x256_S2048x256_1_0_0_1_n_n 256 rfl rfl).symm k) = ix2 k q :=
    funext fun a => Fin.ext (by
      match a with
      | ⟨0, _⟩ => exact (rhs_blk_0 _ _).trans hk
      | ⟨1, _⟩ => exact rhs_blk_1 _ _)
  rw [el, er]

/-- A [1, 256] row copied down 2048 rows reads, at (p, q), the row at (0, q). -/
theorem rowDown_apply (v : FVec Ideal S1x256 .f32) (p : Fin 2048) (q : Fin 256) :
    broadcastTo S2048x256 v broadcasts_S1x256_S2048x256 (ix2 p q) = v (ix2 (0 : Fin 1) q) := by
  refine broadcastTo_apply v broadcasts_S1x256_S2048x256 (ix2 p q) (ix2 (0 : Fin 1) q) fun ax => ?_
  match ax with
  | ⟨0, _⟩ => rfl
  | ⟨1, _⟩ => rfl

/-! ## The body's three results at an index

The narrowing casts in front of every product are the identity at the extended reals, and the shape casts are between
equal shapes; what is left is two block products and the bias row. -/

/-- First result: rows of x0 against w0, plus rows of x1 against w1, plus the bias b. -/
theorem pay4_apply (x0 x1 : Vec Ideal S2048x256 .f32) (w0 w1 : Vec Ideal S256x256 .f32) (b : Vec Ideal S1x256 .f32)
    (p : Fin 2048) (q : Fin 256) :
    k0_pay4 x0 x1 w0 w1 b (ix2 p q)
      = (∑ k : Fin 256, x0 (ix2 p k) * w0 (ix2 k q)) + (∑ k : Fin 256, x1 (ix2 p k) * w1 (ix2 k q)) + b (ix2 (0 : Fin 1) q) := by
  unfold k0_pay4 k0_pay2 k0_pay3
  simp only [shapeCast_self]
  refine (addf_apply _ _ _).trans ?_
  refine congrArg₂ (· + ·) ((addf_apply _ _ _).trans (congrArg₂ (· + ·) (blockProduct_apply _ _ p q) (blockProduct_apply _ _ p q))) ?_
  exact rowDown_apply b p q

/-- Second result: the same with the second pair of weights and the second bias. -/
theorem pay5_apply (x0 x1 : Vec Ideal S2048x256 .f32) (w0 w1 : Vec Ideal S256x256 .f32) (b : Vec Ideal S1x256 .f32)
    (p : Fin 2048) (q : Fin 256) :
    k0_pay5 x0 x1 w0 w1 b (ix2 p q)
      = (∑ k : Fin 256, x0 (ix2 p k) * w0 (ix2 k q)) + (∑ k : Fin 256, x1 (ix2 p k) * w1 (ix2 k q)) + b (ix2 (0 : Fin 1) q) := by
  unfold k0_pay5 k0_pay2 k0_pay3
  simp only [shapeCast_self]
  refine (addf_apply _ _ _).trans ?_
  refine congrArg₂ (· + ·) ((addf_apply _ _ _).trans (congrArg₂ (· + ·) (blockProduct_apply _ _ p q) (blockProduct_apply _ _ p q))) ?_
  exact rowDown_apply b p q

/-- Third result: one product, rows of x0 against w, plus the bias b. -/
theorem pay16_apply (x0 : Vec Ideal S2048x256 .f32) (w : Vec Ideal S256x256 .f32) (b : Vec Ideal S1x256 .f32)
    (p : Fin 2048) (q : Fin 256) :
    k0_pay1 (k0_pay6 x0 w) b (ix2 p q) = (∑ k : Fin 256, x0 (ix2 p k) * w (ix2 k q)) + b (ix2 (0 : Fin 1) q) := by
  unfold k0_pay1 k0_pay6 k0_pay2
  simp only [shapeCast_self]
  refine (addf_apply _ _ _).trans ?_
  exact congrArg₂ (· + ·) (blockProduct_apply _ _ p q) (rowDown_apply b p q)

/-! ## Where each window's block sits

At point t the two row-block operands and the three results are at block row t (rows 2048·t … 2048·t + 2047, all 256
columns); every weight and every bias is one block, the whole array, at the origin. Decided over the 64 points. -/

theorem hz : (![0, 0] : Fin 2 → Nat) = fun _ => 0 := funext fun a => by fin_cases a <;> rfl

theorem point_lt (t : Fin cfg0.N) : t.val < 64 := lt_of_lt_of_eq t.isLt N_0

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx10 : ∀ t : Fin cfg0.N, win0_10.index t (0 : Fin 2) = t.val ∧ win0_10.index t (1 : Fin 2) = 0 :=
  (by decide +kernel : ∀ t : Fin grid0.N, _)

theorem idx11 : ∀ t : Fin cfg0.N, win0_11.index t (0 : Fin 2) = t.val ∧ win0_11.index t (1 : Fin 2) = 0 :=
  (by decide +kernel : ∀ t : Fin grid0.N, _)

theorem idx12 : ∀ t : Fin cfg0.N, win0_12.index t (0 : Fin 2) = t.val ∧ win0_12.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

variable (V : (c : Dev nD) → (b : Ref sig .tc) → Buf (Elt Ideal) ((c : Thread nD τ).loc b)) (c : Dev nD)

/-! ## The input blocks as entries of the arrays

Entry (p, k) of a row-block operand's block at point t is entry (2048·t + p, k) of its array; a weight's or a bias's
block is the array itself. -/

theorem rowBlk0 (t : Fin cfg0.N) (p : Fin 2048) (k : Fin 256) (r : Fin 131072) (hr : r.val = 2048 * t.val + p.val) :
    iblk0 V c 0 t (ix2 p k) = V c main_arg0 (ix2 r k) := by
  show V c main_arg0 (((cfg0.win 0).blk t).view.emb (ix2 p k)) = V c main_arg0 (ix2 r k)
  obtain ⟨e0, e1⟩ := idx0 t
  refine congrArg (V c main_arg0) (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * k.val = k.val; rw [e1]; omega

theorem rowBlk1 (t : Fin cfg0.N) (p : Fin 2048) (k : Fin 256) (r : Fin 131072) (hr : r.val = 2048 * t.val + p.val) :
    iblk0 V c 1 t (ix2 p k) = V c main_arg2 (ix2 r k) := by
  show V c main_arg2 (((cfg0.win 1).blk t).view.emb (ix2 p k)) = V c main_arg2 (ix2 r k)
  obtain ⟨e0, e1⟩ := idx1 t
  refine congrArg (V c main_arg2) (funext fun a => Fin.ext ?_)
  match a with
  | ⟨0, _⟩ => show win0_1.index t (0 : Fin 2) * 2048 + 1 * p.val = r.val; rw [e0, hr]; omega
  | ⟨1, _⟩ => show win0_1.index t (1 : Fin 2) * 256 + 1 * k.val = k.val; rw [e1]; omega

theorem matBlk2 (t : Fin cfg0.N) (k : Fin 256) (q : Fin 256) : iblk0 V c 2 t (ix2 k q) = V c main_v4 (ix2 k q) := by
  show V c main_v4 (((cfg0.win 2).blk t).view.emb (ix2 k q)) = V c main_v4 (ix2 k q)
  obtain ⟨e0, e1⟩ := idx2 t
  refine congrArg (V c main_v4) (funext fun a => Fin.ext ?_)
  match a with
  | ⟨0, _⟩ => show win0_2.index t (0 : Fin 2) * 256 + 1 * k.val = k.val; rw [e0]; omega
  | ⟨1, _⟩ => show win0_2.index t (1 : Fin 2) * 256 + 1 * q.val = q.val; rw [e1]; omega

theorem matBlk3 (t : Fin cfg0.N) (k : Fin 256) (q : Fin 256) : iblk0 V c 3 t (ix2 k q) = V c main_v7 (ix2 k q) := by
  show V c main_v7 (((cfg0.win 3).blk t).view.emb (ix2 k q)) = V c main_v7 (ix2 k q)
  obtain ⟨e0, e1⟩ := idx3 t
  refine congrArg (V c main_v7) (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

theorem matBlk5 (t : Fin cfg0.N) (k : Fin 256) (q : Fin 256) : iblk0 V c 5 t (ix2 k q) = V c main_v5 (ix2 k q) := by
  show V c main_v5 (((cfg0.win 5).blk t).view.emb (ix2 k q)) = V c main_v5 (ix2 k q)
  obtain ⟨e0, e1⟩ := idx5 t
  refine congrArg (V c main_v5) (funext fun a => Fin.ext ?_)
  match a with
  | ⟨0, _⟩ => show win0_5.index t (0 : Fin 2) * 256 + 1 * k.val = k.val; rw [e0]; omega
  | ⟨1, _⟩ => show win0_5.index t (1 : Fin 2) * 256 + 1 * q.val = q.val; rw [e1]; omega

theorem matBlk6 (t : Fin cfg0.N) (k : Fin 256) (q : Fin 256) : iblk0 V c 6 t (ix2 k q) = V c main_v6 (ix2 k q) := by
  show V c main_v6 (((cfg0.win 6).blk t).view.emb (ix2 k q)) = V c main_v6 (ix2 k q)
  obtain ⟨e0, e1⟩ := idx6 t
  refine congrArg (V c main_v6) (funext fun a => Fin.ext ?_)
  match a with
  | ⟨0, _⟩ => show win0_6.index t (0 : Fin 2) * 256 + 1 * k.val = k.val; rw [e0]; omega
  | ⟨1, _⟩ => show win0_6.index t (1 : Fin 2) * 256 + 1 * q.val = q.val; rw [e1]; omega

theorem matBlk8 (t : Fin cfg0.N) (k : Fin 256) (q : Fin 256) : iblk0 V c 8 t (ix2 k q) = V c main_v9 (ix2 k q) := by
  show V c main_v9 (((cfg0.win 8).blk t).view.emb (ix2 k q)) = V c main_v9 (ix2 k q)
  obtain ⟨e0, e1⟩ := idx8 t
  refine congrArg (V c main_v9) (funext fun a => Fin.ext ?_)
  match a with
  | ⟨0, _⟩ => show win0_8.index t (0 : Fin 2) * 256 + 1 * k.val = k.val; rw [e0]; omega
  | ⟨1, _⟩ => show win0_8.index t (1 : Fin 2) * 256 + 1 * q.val = q.val; rw [e1]; omega

theorem biasBlk4 (t : Fin cfg0.N) (q : Fin 256) : iblk0 V c 4 t (ix2 (0 : Fin 1) q) = V c main_v11 (ix2 (0 : Fin 1) q) := by
  show V c main_v11 (((cfg0.win 4).blk t).view.emb (ix2 (0 : Fin 1) q)) = V c main_v11 (ix2 (0 : Fin 1) q)
  obtain ⟨e0, e1⟩ := idx4 t
  refine congrArg (V c main_v11) (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

theorem biasBlk7 (t : Fin cfg0.N) (q : Fin 256) : iblk0 V c 7 t (ix2 (0 : Fin 1) q) = V c main_v13 (ix2 (0 : Fin 1) q) := by
  show V c main_v13 (((cfg0.win 7).blk t).view.emb (ix2 (0 : Fin 1) q)) = V c main_v13 (ix2 (0 : Fin 1) q)
  obtain ⟨e0, e1⟩ := idx7 t
  refine congrArg (V c main_v13) (funext fun a => Fin.ext ?_)
  match a with
  | ⟨0, _⟩ => show win0_7.index t (0 : Fin 2) * 1 + 1 * 0 = 0; rw [e0]
  | ⟨1, _⟩ => show win0_7.index t (1 : Fin 2) * 256 + 1 * q.val = q.val; rw [e1]; omega

theorem biasBlk9 (t : Fin cfg0.N) (q : Fin 256) : iblk0 V c 9 t (ix2 (0 : Fin 1) q) = V c main_v14 (ix2 (0 : Fin 1) q) := by
  show V c main_v14 (((cfg0.win 9).blk t).view.emb (ix2 (0 : Fin 1) q)) = V c main_v14 (ix2 (0 : Fin 1) q)
  obtain ⟨e0, e1⟩ := idx9 t
  refine congrArg (V c main_v14) (funext fun a => Fin.ext ?_)
  match a with
  | ⟨0, _⟩ => show win0_9.index t (0 : Fin 2) * 1 + 1 * 0 = 0; rw [e0]
  | ⟨1, _⟩ => show win0_9.index t (1 : Fin 2) * 256 + 1 * q.val = q.val; rw [e1]; omega

/-! ## What each point writes back

Entry (p, q) of block t of a result is entry (2048·t + p, q) of its array, so the block the body leaves at point t —
the products of block t of the row operands with the weights, plus the bias row — is block t of the whole-array
function: the row operand's block row is the array's row 2048·t + p, and the weights and biases are read whole. -/

theorem outEmb10 (t : Fin cfg0.N) (p : Fin 2048) (q : Fin 256) (r : Fin 131072) (hr : r.val = 2048 * t.val + p.val) :
    ((cfg0.win 10).blk t).view.emb (ix2 p q) = ix2 r q := by
  obtain ⟨e0, e1⟩ := idx10 t
  funext a; apply Fin.ext
  match a with
  | ⟨0, _⟩ => show win0_10.index t (0 : Fin 2) * 2048 + 1 * p.val = r.val; rw [e0, hr]; omega
  | ⟨1, _⟩ => show win0_10.index t (1 : Fin 2) * 256 + 1 * q.val = q.val; rw [e1]; omega

theorem outEmb11 (t : Fin cfg0.N) (p : Fin 2048) (q : Fin 256) (r : Fin 131072) (hr : r.val = 2048 * t.val + p.val) :
    ((cfg0.win 11).blk t).view.emb (ix2 p q) = ix2 r q := by
  obtain ⟨e0, e1⟩ := idx11 t
  funext a; apply Fin.ext
  match a with
  | ⟨0, _⟩ => show win0_11.index t (0 : Fin 2) * 2048 + 1 * p.val = r.val; rw [e0, hr]; omega
  | ⟨1, _⟩ => show win0_11.index t (1 : Fin 2) * 256 + 1 * q.val = q.val; rw [e1]; omega

theorem outEmb12 (t : Fin cfg0.N) (p : Fin 2048) (q : Fin 256) (r : Fin 131072) (hr : r.val = 2048 * t.val + p.val) :
    ((cfg0.win 12).blk t).view.emb (ix2 p q) = ix2 r q := by
  obtain ⟨e0, e1⟩ := idx12 t
  funext a; apply Fin.ext
  match a with
  | ⟨0, _⟩ => show win0_12.index t (0 : Fin 2) * 2048 + 1 * p.val = r.val; rw [e0, hr]; omega
  | ⟨1, _⟩ => show win0_12.index t (1 : Fin 2) * 256 + 1 * q.val = q.val; rw [e1]; omega

theorem flushed10 (t : Fin cfg0.N) :
    (dat0 (F := Ideal) V c).flushed 10 t = ((cfg0.win 10).blk t).view.read (Elt Ideal)
      (arr2 (fun r j => mm (cur (V c main_arg0)) (cur (V c main_v4)) r j + mm (cur (V c main_arg2)) (cur (V c main_v7)) r j
        + cur (V c main_v11) 0 j)) := by
  show (cfg0.win 10).cut (grid0.coords t) ((dat0 V c).after 10 t) = _
  rw [after0_10]
  unfold out0_10
  rw [View.canon_unit_zero hz]
  simp only [View.ld_unit_zero (S := S2048x256) hz, View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  have ht := point_lt t
  have hp := p.isLt
  show k0_pay4 (iblk0 V c 0 t) (iblk0 V c 1 t) (iblk0 V c 2 t) (iblk0 V c 3 t) (iblk0 V c 4 t) (ix2 p q)
      = (arr2 (fun r j => mm (cur (V c main_arg0)) (cur (V c main_v4)) r j + mm (cur (V c main_arg2)) (cur (V c main_v7)) r j
        + cur (V c main_v11) 0 j)) (((cfg0.win 10).blk t).view.emb (ix2 p q))
  rw [outEmb10 t p q ⟨2048 * t.val + p.val, by omega⟩ rfl, arr2_apply]
  refine (pay4_apply (iblk0 V c 0 t) (iblk0 V c 1 t) (iblk0 V c 2 t) (iblk0 V c 3 t) (iblk0 V c 4 t) p q).trans ?_
  refine congrArg₂ (· + ·) (congrArg₂ (· + ·) ?_ ?_) (biasBlk4 V c t q)
  · exact Finset.sum_congr rfl fun k _ => congrArg₂ (· * ·) (rowBlk0 V c t p k _ rfl) (matBlk2 V c t k q)
  · exact Finset.sum_congr rfl fun k _ => congrArg₂ (· * ·) (rowBlk1 V c t p k _ rfl) (matBlk3 V c t k q)

theorem flushed11 (t : Fin cfg0.N) :
    (dat0 (F := Ideal) V c).flushed 11 t = ((cfg0.win 11).blk t).view.read (Elt Ideal)
      (arr2 (fun r j => mm (cur (V c main_arg0)) (cur (V c main_v5)) r j + mm (cur (V c main_arg2)) (cur (V c main_v6)) r j
        + cur (V c main_v13) 0 j)) := by
  show (cfg0.win 11).cut (grid0.coords t) ((dat0 V c).after 11 t) = _
  rw [after0_11]
  unfold out0_11
  rw [View.canon_unit_zero hz]
  simp only [View.ld_unit_zero (S := S2048x256) hz, View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  have ht := point_lt t
  have hp := p.isLt
  show k0_pay5 (iblk0 V c 0 t) (iblk0 V c 1 t) (iblk0 V c 5 t) (iblk0 V c 6 t) (iblk0 V c 7 t) (ix2 p q)
      = (arr2 (fun r j => mm (cur (V c main_arg0)) (cur (V c main_v5)) r j + mm (cur (V c main_arg2)) (cur (V c main_v6)) r j
        + cur (V c main_v13) 0 j)) (((cfg0.win 11).blk t).view.emb (ix2 p q))
  rw [outEmb11 t p q ⟨2048 * t.val + p.val, by omega⟩ rfl, arr2_apply]
  refine (pay5_apply (iblk0 V c 0 t) (iblk0 V c 1 t) (iblk0 V c 5 t) (iblk0 V c 6 t) (iblk0 V c 7 t) p q).trans ?_
  refine congrArg₂ (· + ·) (congrArg₂ (· + ·) ?_ ?_) (biasBlk7 V c t q)
  · exact Finset.sum_congr rfl fun k _ => congrArg₂ (· * ·) (rowBlk0 V c t p k _ rfl) (matBlk5 V c t k q)
  · exact Finset.sum_congr rfl fun k _ => congrArg₂ (· * ·) (rowBlk1 V c t p k _ rfl) (matBlk6 V c t k q)

theorem flushed12 (t : Fin cfg0.N) :
    (dat0 (F := Ideal) V c).flushed 12 t = ((cfg0.win 12).blk t).view.read (Elt Ideal)
      (arr2 (fun r j => mm (cur (V c main_arg0)) (cur (V c main_v9)) r j + cur (V c main_v14) 0 j)) := by
  show (cfg0.win 12).cut (grid0.coords t) ((dat0 V c).after 12 t) = _
  rw [after0_12]
  unfold out0_12
  rw [View.canon_unit_zero hz]
  simp only [View.ld_unit_zero (S := S2048x256) hz, View.ld_unit_zero (S := S256x256) hz, View.ld_unit_zero (S := S1x256) hz]
  funext y
  obtain ⟨p, q, rfl⟩ : ∃ (p : Fin 2048) (q : Fin 256), y = ix2 p q := ⟨y 0, y 1, eq_ix2 y⟩
  have ht := point_lt t
  have hp := p.isLt
  show k0_pay1 (k0_pay6 (iblk0 V c 0 t) (iblk0 V c 8 t)) (iblk0 V c 9 t) (ix2 p q)
      = (arr2 (fun r j => mm (cur (V c main_arg0)) (cur (V c main_v9)) r j + cur (V c main_v14) 0 j)) (((cfg0.win 12).blk t).view.emb (ix2 p q))
  rw [outEmb12 t p q ⟨2048 * t.val + p.val, by omega⟩ rfl, arr2_apply]
  refine (pay16_apply (iblk0 V c 0 t) (iblk0 V c 8 t) (iblk0 V c 9 t) p q).trans ?_
  refine congrArg₂ (· + ·) ?_ (biasBlk9 V c t q)
  exact Finset.sum_congr rfl fun k _ => congrArg₂ (· * ·) (rowBlk0 V c t p k _ rfl) (matBlk8 V c t k q)

/-! ## The blocks tile the array

Row r of a result lies in block r / 2048, and every point writes its block back; so every entry of the array is
written, and the array ends as the whole-array function. -/

theorem mem_blk10 (t : Fin cfg0.N) (i : S131072x256.Idx) :
    i ∈ ((cfg0.win 10).blk t).view.set ↔ ∀ a : Fin 2, win0_10.index t a * S2048x256.size a ≤ (i a).val
      ∧ (i a).val < win0_10.index t a * S2048x256.size a + S2048x256.size a := by
  show i ∈ ((View.whole main_v18_0).slice (win0_10.rect t)).set ↔ _
  rw [View.set_slice_whole, Rect.mem_set_unit]
  exact Iff.rfl

theorem cover10 (i : S131072x256.Idx) :
    ∃ t : Fin cfg0.N, (cfg0.win 10).flush t = true ∧ i ∈ ((cfg0.win 10).blk t).view.set := by
  have hi0 : (i 0).val < 131072 := (i 0).isLt
  have hi1 : (i 1).val < 256 := (i 1).isLt
  have hN : (i 0).val / 2048 < cfg0.N := lt_of_lt_of_eq (by omega : (i 0).val / 2048 < 64) N_0.symm
  refine ⟨⟨(i 0).val / 2048, hN⟩, flush0_10 _, ?_⟩
  rw [mem_blk10]
  obtain ⟨e0, e1⟩ := idx10 ⟨(i 0).val / 2048, hN⟩
  intro a
  match a with
  | ⟨0, _⟩ =>
    show win0_10.index ⟨(i 0).val / 2048, hN⟩ (0 : Fin 2) * 2048 ≤ (i 0).val
      ∧ (i 0).val < win0_10.index ⟨(i 0).val / 2048, hN⟩ (0 : Fin 2) * 2048 + 2048
    rw [e0]
    show (i 0).val / 2048 * 2048 ≤ (i 0).val ∧ (i 0).val < (i 0).val / 2048 * 2048 + 2048
    omega
  | ⟨1, _⟩ =>
    show win0_10.index ⟨(i 0).val / 2048, hN⟩ (1 : Fin 2) * 256 ≤ (i 1).val
      ∧ (i 1).val < win0_10.index ⟨(i 0).val / 2048, hN⟩ (1 : Fin 2) * 256 + 256
    rw [e1]
    omega

theorem mem_blk11 (t : Fin cfg0.N) (i : S131072x256.Idx) :
    i ∈ ((cfg0.win 11).blk t).view.set ↔ ∀ a : Fin 2, win0_11.index t a * S2048x256.size a ≤ (i a).val
      ∧ (i a).val < win0_11.index t a * S2048x256.size a + S2048x256.size a := by
  show i ∈ ((View.whole main_v18_1).slice (win0_11.rect t)).set ↔ _
  rw [View.set_slice_whole, Rect.mem_set_unit]
  exact Iff.rfl

theorem cover11 (i : S131072x256.Idx) :
    ∃ t : Fin cfg0.N, (cfg0.win 11).flush t = true ∧ i ∈ ((cfg0.win 11).blk t).view.set := by
  have hi0 : (i 0).val < 131072 := (i 0).isLt
  have hi1 : (i 1).val < 256 := (i 1).isLt
  have hN : (i 0).val / 2048 < cfg0.N := lt_of_lt_of_eq (by omega : (i 0).val / 2048 < 64) N_0.symm
  refine ⟨⟨(i 0).val / 2048, hN⟩, flush0_11 _, ?_⟩
  rw [mem_blk11]
  obtain ⟨e0, e1⟩ := idx11 ⟨(i 0).val / 2048, hN⟩
  intro a
  match a with
  | ⟨0, _⟩ =>
    show win0_11.index ⟨(i 0).val / 2048, hN⟩ (0 : Fin 2) * 2048 ≤ (i 0).val
      ∧ (i 0).val < win0_11.index ⟨(i 0).val / 2048, hN⟩ (0 : Fin 2) * 2048 + 2048
    rw [e0]
    show (i 0).val / 2048 * 2048 ≤ (i 0).val ∧ (i 0).val < (i 0).val / 2048 * 2048 + 2048
    omega
  | ⟨1, _⟩ =>
    show win0_11.index ⟨(i 0).val / 2048, hN⟩ (1 : Fin 2) * 256 ≤ (i 1).val
      ∧ (i 1).val < win0_11.index ⟨(i 0).val / 2048, hN⟩ (1 : Fin 2) * 256 + 256
    rw [e1]
    omega

theorem mem_blk12 (t : Fin cfg0.N) (i : S131072x256.Idx) :
    i ∈ ((cfg0.win 12).blk t).view.set ↔ ∀ a : Fin 2, win0_12.index t a * S2048x256.size a ≤ (i a).val
      ∧ (i a).val < win0_12.index t a * S2048x256.size a + S2048x256.size a := by
  show i ∈ ((View.whole main_v18_2).slice (win0_12.rect t)).set ↔ _
  rw [View.set_slice_whole, Rect.mem_set_unit]
  exact Iff.rfl

theorem cover12 (i : S131072x256.Idx) :
    ∃ t : Fin cfg0.N, (cfg0.win 12).flush t = true ∧ i ∈ ((cfg0.win 12).blk t).view.set := by
  have hi0 : (i 0).val < 131072 := (i 0).isLt
  have hi1 : (i 1).val < 256 := (i 1).isLt
  have hN : (i 0).val / 2048 < cfg0.N := lt_of_lt_of_eq (by omega : (i 0).val / 2048 < 64) N_0.symm
  refine ⟨⟨(i 0).val / 2048, hN⟩, flush0_12 _, ?_⟩
  rw [mem_blk12]
  obtain ⟨e0, e1⟩ := idx12 ⟨(i 0).val / 2048, hN⟩
  intro a
  match a with
  | ⟨0, _⟩ =>
    show win0_12.index ⟨(i 0).val / 2048, hN⟩ (0 : Fin 2) * 2048 ≤ (i 0).val
      ∧ (i 0).val < win0_12.index ⟨(i 0).val / 2048, hN⟩ (0 : Fin 2) * 2048 + 2048
    rw [e0]
    show (i 0).val / 2048 * 2048 ≤ (i 0).val ∧ (i 0).val < (i 0).val / 2048 * 2048 + 2048
    omega
  | ⟨1, _⟩ =>
    show win0_12.index ⟨(i 0).val / 2048, hN⟩ (1 : Fin 2) * 256 ≤ (i 1).val
      ∧ (i 1).val < win0_12.index ⟨(i 0).val / 2048, hN⟩ (1 : Fin 2) * 256 + 256
    rw [e1]
    omega

end Helpers

variable (V : (c : Dev nD) → (b : Ref sig .tc) → Buf (Elt Ideal) ((c : Thread nD τ).loc b)) (c : Dev nD)

theorem out10 : (dat0 (F := Ideal) V c).arrAt 10 cfg0.N
    = arr2 (fun r j => mm (cur (V c main_arg0)) (cur (V c main_v4)) r j + mm (cur (V c main_arg2)) (cur (V c main_v7)) r j
        + cur (V c main_v11) 0 j) := by
  exact (dat0 (F := Ideal) V c).arrAt_eq_of_cover 10 _ (fun t _ => flushed10 V c t) cover10

theorem out11 : (dat0 (F := Ideal) V c).arrAt 11 cfg0.N
    = arr2 (fun r j => mm (cur (V c main_arg0)) (cur (V c main_v5)) r j + mm (cur (V c main_arg2)) (cur (V c main_v6)) r j
        + cur (V c main_v13) 0 j) := by
  exact (dat0 (F := Ideal) V c).arrAt_eq_of_cover 11 _ (fun t _ => flushed11 V c t) cover11

theorem out12 : (dat0 (F := Ideal) V c).arrAt 12 cfg0.N
    = arr2 (fun r j => mm (cur (V c main_arg0)) (cur (V c main_v9)) r j + cur (V c main_v14) 0 j) := by
  exact (dat0 (F := Ideal) V c).arrAt_eq_of_cover 12 _ (fun t _ => flushed12 V c t) cover12

end Cert.KernelIdeal.Region0

end
-- ==== Proof.LibRead.lean ====
/-
  Reading lemmas shared by both programs: a row gather at an index, jnp's index normalisation as the host operations
  spell it, and the fill mask of `jnp.take` when every index is in range.
-/
import proofs.«407534_j31061203484850_2_alg».proof.Proof.Spec
import Idealize.ShloMosaic.Lib.ValueIdx
import Idealize.ShloMosaic.Lib.Pipeline.Value

noncomputable section

open scoped BigOperators
open Idealize.ShloMosaic Cert.Spec

namespace Cert.LibRead

/-- A row gather read at (r, j): the operand's row named by start index r, clamped into [0, 131071], at channel j. -/
theorem gather_apply {α : Type} (x : (⟨2, ![131072, 256]⟩ : Shape).Idx → α) (idx : IVec ⟨2, ![131072, 1]⟩ 32)
    (r : Fin 131072) (j : Fin 256) :
    Host.gather gathD x idx (ValueIdx.ix2 r j) = x (ValueIdx.ix2 (gix (idx (ValueIdx.ix2 r 0))) j) := by
  unfold Host.gather
  congr 1
  funext a
  refine Fin.ext ?_
  -- the start index of result row r is read at [r, 0]
  have hsi : gathD.siIdx (ValueIdx.ix2 r j) ⟨List.idxOf (0 : Fin 2) gathD.startIndexMap,
      List.idxOf_lt_length_iff.2 (List.mem_singleton.mpr rfl)⟩ = ValueIdx.ix2 r 0 := by
    funext b
    refine Fin.ext ?_
    match b with
    | ⟨0, _⟩ => rfl
    | ⟨1, _⟩ => rfl
  match a with
  | ⟨0, _⟩ =>
    -- the mapped, collapsed axis: the clamped start index alone
    show gathD.start (ValueIdx.ix2 r j) idx 0 + gathD.batchCoord (ValueIdx.ix2 r j) 0
      + gathD.offCoord (ValueIdx.ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gathD.startIndexMap from List.mem_singleton.mpr rfl), hsi]
    rfl
  | ⟨1, _⟩ =>
    -- the offset axis: the channel coordinate alone
    show gathD.start (ValueIdx.ix2 r j) idx 1 + gathD.batchCoord (ValueIdx.ix2 r j) 1
      + gathD.offCoord (ValueIdx.ix2 r j) 1 = _
    rw [GatherDims.batchCoord_eq_zero _ _ _ List.not_mem_nil]
    unfold GatherDims.start
    rw [dif_neg (show (1 : Fin 2) ∉ gathD.startIndexMap by decide)]
    simp only [Nat.add_zero, Nat.zero_add]
    rfl

/-- The host's `select (v < 0) (v + 131072) v` at one element is `nrm`. -/
theorem nrm_eq (v : BitVec 32) :
    Scalar.select (IntOp.cmpi .slt v 0#32) (v + 131072#32) v = nrm v := by
  unfold Scalar.select IntOp.cmpi nrm
  cases hs : v.slt 0#32 <;> simp

/-- In range, the two comparisons of `jnp.take`'s fill mask both answer one. -/
theorem mask_true (v : BitVec 32) (h : -131072 ≤ v.toInt ∧ v.toInt < 131072) :
    IntOp.cmpi .sge (nrm v) 0#32 = 1#1 ∧ IntOp.cmpi .sle (nrm v) 131071#32 = 1#1 := by
  obtain ⟨h0, h1⟩ := nrm_inRange v h
  unfold IntOp.cmpi
  have e0 : (0#32 : BitVec 32).sle (nrm v) = true := by simp [BitVec.sle, h0]
  have e1 : (nrm v).sle 131071#32 = true := by
    have : (131071#32 : BitVec 32).toInt = 131071 := by decide
    simp [BitVec.sle, this, h1]
  simp [e0, e1]

end Cert.LibRead

end
-- ==== Proof.KerChainA.lean ====
/-
  From the launch to the second region's entry: the transposes and bias sums of the first host stretch, the first region's three products, and the two takes and their sum. With every index in range a take is the plain gather, so the sum is the edge message in the kernel's grouping.
-/
import proofs.«407534_j31061203484850_2_alg».proof.Proof.Gen.KernelIdeal.Frame
import proofs.«407534_j31061203484850_2_alg».proof.Proof.Spec
import proofs.«407534_j31061203484850_2_alg».proof.Proof.KerArgs
import proofs.«407534_j31061203484850_2_alg».proof.Proof.Region0
import proofs.«407534_j31061203484850_2_alg».proof.Proof.LibRead
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.ChainA

open Cert.KernelIdeal.KA

variable (m : (ℓ : Loc nD τ sig) → Buf (Elt Ideal) ℓ) (ρ : Dev nD → PrngReg) (c : Dev nD)

/-- A buffer that no operation of a host stretch writes holds after the stretch what it held before. -/
local macro "carry_host" l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The first host stretch: arguments carried, weights transposed, biases summed and reshaped to a row,
    the two rows of the index array sliced out -/

theorem V1_arg0 : (V1 m ρ c main_arg0 : S131072x256.Idx → EReal) = m ((c : Thread nD τ).loc main_arg0) := by
  show StableHlo.after hostOps0 (W0 m ρ c) (Proc.devRef .tc main_arg0) = _
  after_results <;> rfl

theorem V1_arg2 : (V1 m ρ c main_arg2 : S131072x256.Idx → EReal) = m ((c : Thread nD τ).loc main_arg2) := by
  show StableHlo.after hostOps0 (W0 m ρ c) (Proc.devRef .tc main_arg2) = _
  after_results <;> rfl

theorem V1_v4 : (V1 m ρ c main_v4 : S256x256.Idx → EReal)
    = transpose S256x256 [1, 0] (m ((c : Thread nD τ).loc main_arg3)) transposes_S256x256_S256x256_1_0 := by
  show StableHlo.after hostOps0 (W0 m ρ c) (Proc.devRef .tc main_v4) = _
  after_results <;> rfl

theorem V1_v5 : (V1 m ρ c main_v5 : S256x256.Idx → EReal)
    = transpose S256x256 [1, 0] (m ((c : Thread nD τ).loc main_arg5)) transposes_S256x256_S256x256_1_0 := by
  show StableHlo.after hostOps0 (W0 m ρ c) (Proc.devRef .tc main_v5) = _
  after_results <;> rfl

theorem V1_v6 : (V1 m ρ c main_v6 : S256x256.Idx → EReal)
    = transpose S256x256 [1, 0] (m ((c : Thread nD τ).loc main_arg7)) transposes_S256x256_S256x256_1_0 := by
  show StableHlo.after hostOps0 (W0 m ρ c) (Proc.devRef .tc main_v6) = _
  after_results <;> rfl

theorem V1_v7 : (V1 m ρ c main_v7 : S256x256.Idx → EReal)
    = transpose S256x256 [1, 0] (m ((c : Thread nD τ).loc main_arg9)) transposes_S256x256_S256x256_1_0 := by
  show StableHlo.after hostOps0 (W0 m ρ c) (Proc.devRef .tc main_v7) = _
  after_results <;> rfl

theorem V1_v9 : (V1 m ρ c main_v9 : S256x256.Idx → EReal)
    = transpose S256x256 [1, 0] (m ((c : Thread nD τ).loc main_arg15)) transposes_S256x256_S256x256_1_0 := by
  show StableHlo.after hostOps0 (W0 m ρ c) (Proc.devRef .tc main_v9) = _
  after_results <;> rfl

theorem V1_v11 : (V1 m ρ c main_v11 : S1x256.Idx → EReal)
    = shapeCast S1x256 (addf (F := Ideal) (s := S256) (φ := .f32) (m ((c : Thread nD τ).loc main_arg4)) (m ((c : Thread nD τ).loc main_arg10)))
        shapeCasts_S256_S1x256 := by
  show StableHlo.after hostOps0 (W0 m ρ c) (Proc.devRef .tc main_v11) = _
  after_results <;> rfl

theorem V1_v13 : (V1 m ρ c main_v13 : S1x256.Idx → EReal)
    = shapeCast S1x256 (addf (F := Ideal) (s := S256) (φ := .f32) (m ((c : Thread nD τ).loc main_arg6)) (m ((c : Thread nD τ).loc main_arg8)))
        shapeCasts_S256_S1x256 := by
  show StableHlo.after hostOps0 (W0 m ρ c) (Proc.devRef .tc main_v13) = _
  after_results <;> rfl

theorem V1_v14 : (V1 m ρ c main_v14 : S1x256.Idx → EReal)
    = shapeCast S1x256 (m ((c : Thread nD τ).loc main_arg16)) shapeCasts_S256_S1x256 := by
  show StableHlo.after hostOps0 (W0 m ρ c) (Proc.devRef .tc main_v14) = _
  after_results <;> rfl

theorem V1_v1 : (V1 m ρ c main_v1 : S131072.Idx → BitVec 32)
    = shapeCast S131072 (extractStridedSlice S1x131072 ![0, 0] (m ((c : Thread nD τ).loc main_arg1)) slices_S2x131072_S1x131072_0_0)
        shapeCasts_S1x131072_S131072 := by
  show StableHlo.after hostOps0 (W0 m ρ c) (Proc.devRef .tc main_v1) = _
  after_results <;> rfl

theorem V1_v3 : (V1 m ρ c main_v3 : S131072.Idx → BitVec 32)
    = shapeCast S131072 (extractStridedSlice S1x131072 ![1, 0] (m ((c : Thread nD τ).loc main_arg1)) slices_S2x131072_S1x131072_1_0)
        shapeCasts_S1x131072_S131072 := by
  show StableHlo.after hostOps0 (W0 m ρ c) (Proc.devRef .tc main_v3) = _
  after_results <;> rfl

/-- A transposed square matrix read at (a, b) is the matrix at (b, a). -/
theorem tr_read (x : S256x256.Idx → EReal) (a b : Fin 256) :
    transpose S256x256 [1, 0] x transposes_S256x256_S256x256_1_0 (ValueIdx.ix2 a b) = x (ValueIdx.ix2 b a) :=
  transpose_apply [1, 0] x _ (ValueIdx.ix2 a b) (ValueIdx.ix2 b a) (fun i => by
    match i with
    | ⟨0, _⟩ => rfl
    | ⟨1, _⟩ => rfl)

/-- A vector of 256 entries laid as a single row reads, at (0, j), its entry j: both sit at row-major position j. -/
theorem row_read {α : Type} (x : S256.Idx → α) (u : Fin 1) (j : Fin 256) :
    shapeCast S1x256 x shapeCasts_S256_S1x256 (ValueIdx.ix2 u j) = x (ValueIdx.ix1 j) :=
  shapeCast_apply x _ _ _ (by
    have hu : u.val = 0 := by omega
    rw [Shape.rowMajor_val_two, Shape.rowMajor_val_one]
    show j.val = u.val * 256 + j.val
    omega)

/-- Row a of the [2, 131072] index array, sliced out and flattened, reads at r the array's entry (a, r). -/
theorem slice_read (x : S2x131072.Idx → BitVec 32) (a : Fin 2) (off : Fin 2 → Nat) (hoff : off = ![a.val, 0])
    (hs : S2x131072.Slices off S1x131072) (r : Fin 131072) :
    shapeCast S131072 (extractStridedSlice S1x131072 off x hs) shapeCasts_S1x131072_S131072 (ValueIdx.ix1 r)
      = x (ValueIdx.ix2 a r) := by
  refine (shapeCast_apply _ _ (ValueIdx.ix1 r) (ValueIdx.ix2 (0 : Fin 1) r) ?_).trans ?_
  · rw [Shape.rowMajor_val_two, Shape.rowMajor_val_one]
    show 0 * 131072 + r.val = r.val
    omega
  · refine extractStridedSlice_apply off x hs _ (ValueIdx.ix2 a r) (fun i => ?_)
    subst hoff
    match i with
    | ⟨0, _⟩ => show a.val = a.val + 0; omega
    | ⟨1, _⟩ => show r.val = 0 + r.val; omega

/-! ## The take: normalise the indices, gather, and keep the gathered row where the index is in range -/

/-- jnp's normalisation over the whole index vector (add the extent to a negative index), laid as a column. -/
def nrmCol (idx : S131072.Idx → BitVec 32) : S131072x1.Idx → BitVec 32 :=
  broadcastInDim S131072x1 ![0] bcast_S131072_S131072x1_0
    (select (cmpi .slt idx (broadcastInDim S131072 ![] bcast_S_S131072 (constantI S_ 32 0#32)))
      (addi idx (broadcastInDim S131072 ![] bcast_S_S131072 (constantI S_ 32 131072#32))) idx)

/-- The take's in-range mask: 0 ≤ index and index ≤ 131071, and-ed over the column's unit axis. -/
def takeMask (idx : S131072.Idx → BitVec 32) : S131072.Idx → BitVec 1 :=
  Host.reduce IntOp.andi
    (andi (cmpi .sge (nrmCol idx) (broadcastInDim S131072x1 ![] bcast_S_S131072x1 (constantI S_ 32 0#32)))
      (cmpi .sle (nrmCol idx) (broadcastInDim S131072x1 ![0, 1] bcast_S1x1_S131072x1_0_1
        (broadcastInDim S1x1 ![1] bcast_S1_S1x1_1 (constantI S1 32 131071#32)))))
    (constantI S_ 1 1#1) reducesTo_S131072x1_S131072_d1 h_S_

/-- The take itself: the gathered rows where the mask holds, a NaN fill elsewhere. -/
def takeT (x : S131072x256.Idx → EReal) (idx : S131072.Idx → BitVec 32) : S131072x256.Idx → EReal :=
  select (broadcastInDim S131072x256 ![0] bcast_S131072_S131072x256_0 (takeMask idx))
    (Host.gather gather_S131072x256_S131072x1_S131072x256_1_0_n_n_0_1_1256 x (nrmCol idx))
    (broadcastInDim S131072x256 ![] bcast_S_S131072x256 (constant (F := Ideal) S_ .f32 0x7FC00000#32))

/-- The first take, of region 0's first output by the first index row, whatever the buffers hold before it. -/
theorem take0_eq (Wv : Valuation τ sig (Elt Ideal)) :
    (StableHlo.after hostOps1 Wv (Proc.devRef .tc main_v19) : S131072x256.Idx → EReal)
      = takeT (Wv (Proc.devRef .tc main_v18_0)) (Wv (Proc.devRef .tc main_v1)) := by
  after_results_simp
  simp only [StableHlo.TRef.ofBuf, StableHlo.TRef.toBuf, cast_eq]
  rfl

/-- The second take, of region 0's second output by the second index row. -/
theorem take1_eq (Wv : Valuation τ sig (Elt Ideal)) :
    (StableHlo.after hostOps1_1 Wv (Proc.devRef .tc main_v20) : S131072x256.Idx → EReal)
      = takeT (Wv (Proc.devRef .tc main_v18_1)) (Wv (Proc.devRef .tc main_v3)) := by
  after_results_simp
  simp only [StableHlo.TRef.ofBuf, StableHlo.TRef.toBuf, cast_eq]
  rfl

/-- The closing sum of the two takes. -/
theorem sum_eq (Wv : Valuation τ sig (Elt Ideal)) :
    (StableHlo.after hostOps1_2 Wv (Proc.devRef .tc main_v21) : S131072x256.Idx → EReal)
      = addf (F := Ideal) (s := S131072x256) (φ := .f32) (Wv (Proc.devRef .tc main_v19)) (Wv (Proc.devRef .tc main_v20)) := by
  after_results <;> rfl

/-- The normalised index column at row r is the normalised index word r. -/
theorem nrmCol_apply (idx : S131072.Idx → BitVec 32) (r : Fin 131072) (u : Fin 1) :
    nrmCol idx (ValueIdx.ix2 r u) = nrm (idx (ValueIdx.ix1 r)) := by
  unfold nrmCol
  refine (broadcastInDim_apply ![0] _ _ (ValueIdx.ix2 r u) (ValueIdx.ix1 r) (fun a => ?_)).trans ?_
  · match a with
    | ⟨0, _⟩ => rfl
  · exact LibRead.nrm_eq (idx (ValueIdx.ix1 r))

/-- A left fold by and over words that are all one, started at one, ends at one. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    have e : IntOp.andi (1#1) (1#1) = 1#1 := by decide
    rw [List.foldl_cons, hx a, e]
    exact ih

/-- With every index word in range both compares answer one at every row of the column. -/
theorem mask_elem (idx : S131072.Idx → BitVec 32)
    (hin : ∀ r : Fin 131072, -131072 ≤ (idx (ValueIdx.ix1 r)).toInt ∧ (idx (ValueIdx.ix1 r)).toInt < 131072)
    (r : Fin 131072) (u : Fin 1) :
    andi (cmpi .sge (nrmCol idx) (broadcastInDim S131072x1 ![] bcast_S_S131072x1 (constantI S_ 32 0#32)))
      (cmpi .sle (nrmCol idx) (broadcastInDim S131072x1 ![0, 1] bcast_S1x1_S131072x1_0_1
        (broadcastInDim S1x1 ![1] bcast_S1_S1x1_1 (constantI S1 32 131071#32)))) (ValueIdx.ix2 r u) = 1#1 := by
  obtain ⟨h1, h2⟩ := LibRead.mask_true _ (hin r)
  show IntOp.andi (IntOp.cmpi .sge (nrmCol idx (ValueIdx.ix2 r u)) 0#32) (IntOp.cmpi .sle (nrmCol idx (ValueIdx.ix2 r u)) 131071#32) = 1#1
  rw [nrmCol_apply, h1, h2]
  decide

/-- With every index word in range the mask is one everywhere. -/
theorem takeMask_one (idx : S131072.Idx → BitVec 32)
    (hin : ∀ r : Fin 131072, -131072 ≤ (idx (ValueIdx.ix1 r)).toInt ∧ (idx (ValueIdx.ix1 r)).toInt < 131072)
    (i : S131072.Idx) : takeMask idx i = 1#1 := by
  unfold takeMask
  rw [Host.reduce_eq_foldl]
  refine foldl_andi_ones _ (fun i' => ?_) _
  rw [ValueIdx.eq_ix2 i']
  exact mask_elem idx hin _ _

/-- In range the take is the plain gather: row r of the result is the operand's row named by index word r. -/
theorem takeT_apply (x : S131072x256.Idx → EReal) (idx : S131072.Idx → BitVec 32)
    (hin : ∀ r : Fin 131072, -131072 ≤ (idx (ValueIdx.ix1 r)).toInt ∧ (idx (ValueIdx.ix1 r)).toInt < 131072)
    (r : Fin 131072) (j : Fin 256) :
    takeT x idx (ValueIdx.ix2 r j) = x (ValueIdx.ix2 (gix (nrm (idx (ValueIdx.ix1 r)))) j) := by
  have hb : broadcastInDim S131072x256 ![0] bcast_S131072_S131072x256_0 (takeMask idx) (ValueIdx.ix2 r j)
      = takeMask idx (ValueIdx.ix1 r) :=
    broadcastInDim_apply (s := S131072) (t := S131072x256) ![0] bcast_S131072_S131072x256_0 (takeMask idx)
      (ValueIdx.ix2 r j) (ValueIdx.ix1 r) (fun a => by
        match a with
        | ⟨0, _⟩ => rfl)
  have hm : broadcastInDim S131072x256 ![0] bcast_S131072_S131072x256_0 (takeMask idx) (ValueIdx.ix2 r j) = 1#1 :=
    hb.trans (takeMask_one idx hin (ValueIdx.ix1 r))
  unfold takeT
  show Scalar.select (broadcastInDim S131072x256 ![0] bcast_S131072_S131072x256_0 (takeMask idx) (ValueIdx.ix2 r j))
    (Host.gather gathD x (nrmCol idx) (ValueIdx.ix2 r j)) _ = _
  rw [hm, LibRead.gather_apply, nrmCol_apply]
  rfl

/-! ## What the takes read: region 0's first two outputs and the two index rows -/

theorem cur_v4 : cur (V1 m ρ c main_v4) = tr (Aw m c) := funext fun a => funext fun b => by
  show (V1 m ρ c main_v4 : S256x256.Idx → EReal) (ValueIdx.ix2 a b) = m ((c : Thread nD τ).loc main_arg3) (ValueIdx.ix2 b a)
  rw [V1_v4]; exact tr_read _ a b

theorem cur_v5 : cur (V1 m ρ c main_v5) = tr (Bw m c) := funext fun a => funext fun b => by
  show (V1 m ρ c main_v5 : S256x256.Idx → EReal) (ValueIdx.ix2 a b) = m ((c : Thread nD τ).loc main_arg5) (ValueIdx.ix2 b a)
  rw [V1_v5]; exact tr_read _ a b

theorem cur_v6 : cur (V1 m ρ c main_v6) = tr (Cw m c) := funext fun a => funext fun b => by
  show (V1 m ρ c main_v6 : S256x256.Idx → EReal) (ValueIdx.ix2 a b) = m ((c : Thread nD τ).loc main_arg7) (ValueIdx.ix2 b a)
  rw [V1_v6]; exact tr_read _ a b

theorem cur_v7 : cur (V1 m ρ c main_v7) = tr (Dw m c) := funext fun a => funext fun b => by
  show (V1 m ρ c main_v7 : S256x256.Idx → EReal) (ValueIdx.ix2 a b) = m ((c : Thread nD τ).loc main_arg9) (ValueIdx.ix2 b a)
  rw [V1_v7]; exact tr_read _ a b

theorem cur_v9 : cur (V1 m ρ c main_v9) = tr (Vw m c) := funext fun a => funext fun b => by
  show (V1 m ρ c main_v9 : S256x256.Idx → EReal) (ValueIdx.ix2 a b) = m ((c : Thread nD τ).loc main_arg15) (ValueIdx.ix2 b a)
  rw [V1_v9]; exact tr_read _ a b

theorem cur_v11 (j : Fin 256) : cur (V1 m ρ c main_v11) 0 j = Ab m c j + Db m c j := by
  show (V1 m ρ c main_v11 : S1x256.Idx → EReal) (ValueIdx.ix2 0 j) = _
  rw [V1_v11]
  refine (row_read _ 0 j).trans ?_
  rfl

theorem cur_v13 (j : Fin 256) : cur (V1 m ρ c main_v13) 0 j = Bb m c j + Cb m c j := by
  show (V1 m ρ c main_v13 : S1x256.Idx → EReal) (ValueIdx.ix2 0 j) = _
  rw [V1_v13]
  refine (row_read _ 0 j).trans ?_
  rfl

theorem cur_v14 (j : Fin 256) : cur (V1 m ρ c main_v14) 0 j = Vb m c j := by
  show (V1 m ρ c main_v14 : S1x256.Idx → EReal) (ValueIdx.ix2 0 j) = m ((c : Thread nD τ).loc main_arg16) (ValueIdx.ix1 j)
  rw [V1_v14]; exact row_read _ 0 j

/-- Region 0's first output: the row-gathered half of the message before the gather. -/
theorem out10_eq : (W2 m ρ c (Proc.devRef .tc main_v18_0) : S131072x256.Idx → EReal)
    = arr2 (fun r j => mm (H m c) (tr (Aw m c)) r j + mm (E m c) (tr (Dw m c)) r j + (Ab m c j + Db m c j)) := by
  refine (W2_arr m ρ c 10).trans ((Region0.out10 (V1 m ρ) c).trans (congrArg arr2 (funext fun r => funext fun j => ?_)))
  have e0 : cur (V1 m ρ c main_arg0) = H m c := by rw [V1_arg0]
  have e2 : cur (V1 m ρ c main_arg2) = E m c := by rw [V1_arg2]
  rw [e0, e2, cur_v4, cur_v7, cur_v11]

/-- Region 0's second output: the column-gathered half before the gather. -/
theorem out11_eq : (W2 m ρ c (Proc.devRef .tc main_v18_1) : S131072x256.Idx → EReal)
    = arr2 (fun r j => mm (H m c) (tr (Bw m c)) r j + mm (E m c) (tr (Cw m c)) r j + (Bb m c j + Cb m c j)) := by
  refine (W2_arr m ρ c 11).trans ((Region0.out11 (V1 m ρ) c).trans (congrArg arr2 (funext fun r => funext fun j => ?_)))
  have e0 : cur (V1 m ρ c main_arg0) = H m c := by rw [V1_arg0]
  have e2 : cur (V1 m ρ c main_arg2) = E m c := by rw [V1_arg2]
  rw [e0, e2, cur_v5, cur_v6, cur_v13]

/-- The first take's index vector is the first row of the index array (region 0 does not touch it). -/
theorem idx0_eq (r : Fin 131072) :
    (W2 m ρ c (Proc.devRef .tc main_v1) : S131072.Idx → BitVec 32) (ValueIdx.ix1 r) = EI m c (ValueIdx.ix2 0 r) := by
  have h : W2 m ρ c (Proc.devRef .tc main_v1) = W1 m ρ c (Proc.devRef .tc main_v1) := W2_of_ne m ρ c main_v1 (by decide)
  rw [h]
  show (V1 m ρ c main_v1 : S131072.Idx → BitVec 32) (ValueIdx.ix1 r) = _
  rw [V1_v1]
  exact slice_read _ 0 _ rfl _ r

/-- The second take's index vector is the second row. -/
theorem idx1_eq (r : Fin 131072) :
    (W2 m ρ c (Proc.devRef .tc main_v3) : S131072.Idx → BitVec 32) (ValueIdx.ix1 r) = EI m c (ValueIdx.ix2 1 r) := by
  have h : W2 m ρ c (Proc.devRef .tc main_v3) = W1 m ρ c (Proc.devRef .tc main_v3) := W2_of_ne m ρ c main_v3 (by decide)
  rw [h]
  show (V1 m ρ c main_v3 : S131072.Idx → BitVec 32) (ValueIdx.ix1 r) = _
  rw [V1_v3]
  exact slice_read _ 1 _ rfl _ r

/-- The first take as the second region's entry finds it: the second take's stretch does not write it. -/
theorem v19_eq : (W4 m ρ c (Proc.devRef .tc main_v19) : S131072x256.Idx → EReal)
    = takeT (W2 m ρ c (Proc.devRef .tc main_v18_0)) (W2 m ρ c (Proc.devRef .tc main_v1)) :=
  calc W4 m ρ c (Proc.devRef .tc main_v19)
    _ = W3 m ρ c (Proc.devRef .tc main_v19) := by carry_host hostOps1_1
    _ = _ := take0_eq (W2 m ρ c)

/-- The second take: its operand and its index row pass through the first take's stretch untouched. -/
theorem v20_eq : (W4 m ρ c (Proc.devRef .tc main_v20) : S131072x256.Idx → EReal)
    = takeT (W2 m ρ c (Proc.devRef .tc main_v18_1)) (W2 m ρ c (Proc.devRef .tc main_v3)) := by
  have a : W3 m ρ c (Proc.devRef .tc main_v18_1) = W2 m ρ c (Proc.devRef .tc main_v18_1) := by carry_host hostOps1
  have b : W3 m ρ c (Proc.devRef .tc main_v3) = W2 m ρ c (Proc.devRef .tc main_v3) := by carry_host hostOps1
  have t := take1_eq (W3 m ρ c)
  rw [a, b] at t
  exact t

/-- Region 0's third output is written once and read much later: every segment between carries it. -/
theorem v18_2_back : V8 m ρ c main_v18_2 = (dat0 (V1 m ρ) c).arrAt 12 cfg0.N :=
  calc W8 m ρ c (Proc.devRef .tc main_v18_2)
    _ = W7 m ρ c (Proc.devRef .tc main_v18_2) := W8_of_ne m ρ c main_v18_2 (by decide)
    _ = W6 m ρ c (Proc.devRef .tc main_v18_2) := by carry_host hostOps2
    _ = W5 m ρ c (Proc.devRef .tc main_v18_2) := W6_of_ne m ρ c main_v18_2 (by decide)
    _ = W4 m ρ c (Proc.devRef .tc main_v18_2) := by carry_host hostOps1_2
    _ = W3 m ρ c (Proc.devRef .tc main_v18_2) := by carry_host hostOps1_1
    _ = W2 m ρ c (Proc.devRef .tc main_v18_2) := by carry_host hostOps1
    _ = (dat0 (V1 m ρ) c).arrAt 12 cfg0.N := W2_arr m ρ c 12

/-- The edge message as the second region finds it. -/
theorem v21_eq (hr : InRange (EI m c)) : V5 m ρ c main_v21 = arr2 (xK m c) := by
  have hrow : ∀ r : Fin 131072,
      -131072 ≤ ((W2 m ρ c (Proc.devRef .tc main_v1) : S131072.Idx → BitVec 32) (ValueIdx.ix1 r)).toInt
        ∧ ((W2 m ρ c (Proc.devRef .tc main_v1) : S131072.Idx → BitVec 32) (ValueIdx.ix1 r)).toInt < 131072 :=
    fun r => by rw [idx0_eq]; exact hr 0 r
  have hcol : ∀ r : Fin 131072,
      -131072 ≤ ((W2 m ρ c (Proc.devRef .tc main_v3) : S131072.Idx → BitVec 32) (ValueIdx.ix1 r)).toInt
        ∧ ((W2 m ρ c (Proc.devRef .tc main_v3) : S131072.Idx → BitVec 32) (ValueIdx.ix1 r)).toInt < 131072 :=
    fun r => by rw [idx1_eq]; exact hr 1 r
  -- the entry contents of main_v21: the sum of the two takes
  have hsum : (V5 m ρ c main_v21 : S131072x256.Idx → EReal)
      = addf (F := Ideal) (s := S131072x256) (φ := .f32)
          (takeT (W2 m ρ c (Proc.devRef .tc main_v18_0)) (W2 m ρ c (Proc.devRef .tc main_v1)))
          (takeT (W2 m ρ c (Proc.devRef .tc main_v18_1)) (W2 m ρ c (Proc.devRef .tc main_v3))) := by
    rw [← v19_eq, ← v20_eq]
    exact sum_eq (W4 m ρ c)
  refine ext2 (x := (V5 m ρ c main_v21 : S131072x256.Idx → EReal)) (fun r j => ?_)
  rw [arr2_apply, hsum]
  show takeT _ _ (ValueIdx.ix2 r j) + takeT _ _ (ValueIdx.ix2 r j) = _
  -- in range each take is the gather; the gathered arrays are region 0's two outputs, the index rows the two rows of the index array
  rw [takeT_apply _ _ hrow r j, takeT_apply _ _ hcol r j, idx0_eq, idx1_eq, out10_eq, out11_eq, arr2_apply, arr2_apply]
  rfl

/-- The V-transformed node features the first region leaves, still there when the fourth region's host stretch gathers them
    (no later segment writes this array). -/
theorem v18_2_eq : V8 m ρ c main_v18_2
    = arr2 (fun r j => mm (H m c) (tr (Vw m c)) r j + Vb m c j) := by
  refine (v18_2_back m ρ c).trans ((Region0.out12 (V1 m ρ) c).trans (congrArg arr2 (funext fun r => funext fun j => ?_)))
  have e0 : cur (V1 m ρ c main_arg0) = H m c := by rw [V1_arg0]
  rw [e0, cur_v9, cur_v14]

end Cert.KernelIdeal.ChainA

end
-- ==== Proof.Region1.lean ====
/-
  The second region (column sums and sums of squares, split over two cores): each [1, 512] output holds per core the sum of its half of the rows.
-/
import proofs.«407534_j31061203484850_2_alg».proof.Proof.Gen.KernelIdeal.Frame
import proofs.«407534_j31061203484850_2_alg».proof.Proof.Spec
import Idealize.ShloMosaic.Lib.Pipeline.Value
import Idealize.ShloMosaic.PureOps.Ideal.Laws

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.Region1

open Idealize.ShloMosaic.ValueIdx

section pieces
variable {F : FTy → Type} [FloatOps F]

/-- The zero offset of a whole-buffer access. -/
theorem hz : (![0, 0] : Fin 2 → Nat) = fun _ => 0 := funext fun a => by fin_cases a <;> rfl

/-- At every point but the first of a core's run the body leaves, in the first accumulator, its old contents plus the block's column sums. -/
theorem pieceB1 (c : Dev nD) (i : grid1.Coords) (a2 : Memref sig .tc .vmem S8192x256 .f32) (h2 : a2.IsWhole)
    (a3 : Memref sig .tc .vmem S1x256 .f32) (h3 : a3.IsWhole) (a4 : Memref sig .tc .vmem S1x256 .f32) (h4 : a4.IsWhole)
    (hc : ¬cond1_0 i) (x : Vec F S8192x256 .f32) (xo1 xo2 : Vec F S1x256 .f32) :
    out1_B_1 c i a2 h2 a3 h3 a4 h4 hc x xo1 xo2 = k1_pay4 x xo1 := by
  unfold out1_B_1
  rw [View.read_writes_eq_canon _ _ _ (cover1_B_1 c i a2 h2 a3 h3 a4 h4 hc x xo1 xo2)]
  unfold kernelRun1_B
  dsimp only
  sl_unfold_words
  rw [View.canon_unit_zero hz]
  simp only [View.readAt_eq_ld, h2.read_unread, h3.read_unread, View.ld_unit_zero (S := S8192x256) hz, View.ld_unit_zero (S := S1x256) hz]

/-- … and in the second, its old contents plus the column sums of the squares. -/
theorem pieceB2 (c : Dev nD) (i : grid1.Coords) (a2 : Memref sig .tc .vmem S8192x256 .f32) (h2 : a2.IsWhole)
    (a3 : Memref sig .tc .vmem S1x256 .f32) (h3 : a3.IsWhole) (a4 : Memref sig .tc .vmem S1x256 .f32) (h4 : a4.IsWhole)
    (hc : ¬cond1_0 i) (x : Vec F S8192x256 .f32) (xo1 xo2 : Vec F S1x256 .f32) :
    out1_B_2 c i a2 h2 a3 h3 a4 h4 hc x xo1 xo2 = k1_pay5 x xo2 := by
  unfold out1_B_2
  rw [View.read_writes_eq_canon _ _ _ (cover1_B_2 c i a2 h2 a3 h3 a4 h4 hc x xo1 xo2)]
  unfold kernelRun1_B
  dsimp only
  sl_unfold_words
  rw [View.canon_unit_zero hz]
  simp only [View.readAt_eq_ld, h2.read_unread, h4.read_unread, View.ld_unit_zero (S := S8192x256) hz, View.ld_unit_zero (S := S1x256) hz]

/-- At the first point of a core's run the accumulator is reset to zero first, read back, and the block's column sums added. -/
theorem pieceA1 (c : Dev nD) (i : grid1.Coords) (a2 : Memref sig .tc .vmem S8192x256 .f32) (h2 : a2.IsWhole)
    (a3 : Memref sig .tc .vmem S1x256 .f32) (h3 : a3.IsWhole) (a4 : Memref sig .tc .vmem S1x256 .f32) (h4 : a4.IsWhole)
    (hc : cond1_0 i) (x : Vec F S8192x256 .f32) :
    out1_A_1 c i a2 h2 a3 h3 a4 h4 hc x = k1_pay4 x k1_pay1 := by
  unfold out1_A_1
  rw [View.read_writes_eq_canon _ _ _ (cover1_A_1 c i a2 h2 a3 h3 a4 h4 hc x)]
  unfold kernelRun1_A
  dsimp only
  sl_unfold_words
  rw [View.canon_cons_unit_zero (S := S1x256) hz, View.readCov_unit_zero (S := S1x256) _ hz]
  simp only [View.readAt_eq_ld, h2.read_unread, View.ld_unit_zero (S := S8192x256) hz, View.ld_unit_zero (S := S1x256) hz]

/-- … and likewise the second accumulator, with the squares. -/
theorem pieceA2 (c : Dev nD) (i : grid1.Coords) (a2 : Memref sig .tc .vmem S8192x256 .f32) (h2 : a2.IsWhole)
    (a3 : Memref sig .tc .vmem S1x256 .f32) (h3 : a3.IsWhole) (a4 : Memref sig .tc .vmem S1x256 .f32) (h4 : a4.IsWhole)
    (hc : cond1_0 i) (x : Vec F S8192x256 .f32) :
    out1_A_2 c i a2 h2 a3 h3 a4 h4 hc x = k1_pay5 x k1_pay2 := by
  unfold out1_A_2
  rw [View.read_writes_eq_canon _ _ _ (cover1_A_2 c i a2 h2 a3 h3 a4 h4 hc x)]
  unfold kernelRun1_A
  dsimp only
  sl_unfold_words
  rw [View.canon_cons_unit_zero (S := S1x256) hz, View.readCov_unit_zero (S := S1x256) _ hz]
  simp only [View.readAt_eq_ld, h2.read_unread, View.ld_unit_zero (S := S8192x256) hz, View.ld_unit_zero (S := S1x256) hz]
end pieces

/-- The lane reduction's source index over lane j at row k is (k, j). -/
theorem lift_eq (j : Fin 256) (k : Fin 8192) :
    reduces_S8192x256_S256.lift (ix1 j) k = ix2 k j := by
  funext a
  apply Fin.ext
  match a with
  | ⟨0, _⟩ => rfl
  | ⟨1, _⟩ => rfl

/-- A reduction over the block's rows, stored as a [1, 256] row, read at column j: the sum over the rows. -/
theorem colsum_apply (v : Vec Ideal S8192x256 .f32) (j : Fin 256) :
    shapeCast S1x256 (multiReduction (F := Ideal) .add [0] S256 v 0x00000000#32 reduces_S8192x256_S256 (.inl rfl) rfl) shapeCasts_S256_S1x256 (ix2 (0 : Fin 1) j)
      = ∑ r : Fin 8192, v (ix2 r j) := by
  refine (shapeCast_apply _ shapeCasts_S256_S1x256 (ix2 (0 : Fin 1) j) (ix1 j) ?_).trans ?_
  · rw [Shape.rowMajor_val_one, Shape.rowMajor_val_two]; show j.val = 0 * 256 + j.val; omega
  refine (Ideal.multiReduction_add_single v _ reduces_S8192x256_S256 (.inl rfl) rfl (ix1 j)).trans ?_
  exact Finset.sum_congr rfl fun k _ => congrArg v (lift_eq j k)

/-- The first accumulator's update at column j: old value plus the block's column sum. -/
theorem pay4_apply (x : Vec Ideal S8192x256 .f32) (acc : Vec Ideal S1x256 .f32) (j : Fin 256) :
    k1_pay4 x acc (ix2 (0 : Fin 1) j) = acc (ix2 (0 : Fin 1) j) + ∑ r : Fin 8192, x (ix2 r j) := by
  unfold k1_pay4 k1_pay3
  dsimp only
  show shapeCast S1x256 acc shapeCasts_S1x256_S1x256 (ix2 (0 : Fin 1) j) + _ = _
  refine congrArg₂ (· + ·) (congrFun (shapeCast_self acc _) _) ?_
  refine (colsum_apply _ j).trans ?_
  exact Finset.sum_congr rfl fun k _ => congrFun (shapeCast_self x _) _

/-- The second accumulator's update at column j: old value plus the block's column sum of squares. -/
theorem pay5_apply (x : Vec Ideal S8192x256 .f32) (acc : Vec Ideal S1x256 .f32) (j : Fin 256) :
    k1_pay5 x acc (ix2 (0 : Fin 1) j) = acc (ix2 (0 : Fin 1) j) + ∑ r : Fin 8192, x (ix2 r j) * x (ix2 r j) := by
  unfold k1_pay5 k1_pay3
  dsimp only
  show shapeCast S1x256 acc shapeCasts_S1x256_S1x256 (ix2 (0 : Fin 1) j) + _ = _
  refine congrArg₂ (· + ·) (congrFun (shapeCast_self acc _) _) ?_
  refine (colsum_apply _ j).trans ?_
  refine Finset.sum_congr rfl fun k _ => ?_
  show shapeCast S8192x256 x _ (ix2 k j) * shapeCast S8192x256 x _ (ix2 k j) = _
  rw [shapeCast_self]

/-- The reset value is zero. -/
theorem pay1_apply (j : Fin 256) : k1_pay1 (F := Ideal) (ix2 (0 : Fin 1) j) = 0 :=
  Ideal.ofBits_zero_f32
theorem pay2_apply (j : Fin 256) : k1_pay2 (F := Ideal) (ix2 (0 : Fin 1) j) = 0 :=
  Ideal.ofBits_zero_f32

/-! ## The blocks of the input, and the accumulators as partial sums -/

theorem idx_facts : ∀ t : Fin cfg1.N, win1_0.index t (0 : Fin 2) = t.val ∧ win1_0.index t (1 : Fin 2) = 0
    ∧ win1_1.index t (0 : Fin 2) = 0 ∧ win1_1.index t (1 : Fin 2) = t.val / 8
    ∧ win1_2.index t (0 : Fin 2) = 0 ∧ win1_2.index t (1 : Fin 2) = t.val / 8 :=
  (by decide +kernel : ∀ t : Fin grid1.N, _)

/-- A big array's column read at any natural row, zero past the end. -/
def extN (f : Big) (r : ℕ) (j : Fin 256) : EReal := if h : r < 131072 then f ⟨r, h⟩ j else 0

/-- The sum over the rows a core has seen after point n of its run: rows [65536·(n/8), 65536·(n/8) + 8192·(n%8 + 1)). -/
def part (f : Big) (n : ℕ) (j : Fin 256) : EReal :=
  ∑ r ∈ Finset.range ((n % 8 + 1) * 8192), extN f (n / 8 * 65536 + r) j

theorem ar1 (n : ℕ) (h0 : n % 8 = 0) : (n % 8 + 1) * 8192 = 8192 := by omega
theorem ar2 (n : ℕ) (h0 : n % 8 = 0) : n / 8 * 65536 = 8192 * n := by omega
theorem ar3 (n : ℕ) (h0 : ¬(n + 1) % 8 = 0) : ((n + 1) % 8 + 1) * 8192 = (n % 8 + 1) * 8192 + 8192 := by omega
theorem ar4 (n : ℕ) (h0 : ¬(n + 1) % 8 = 0) : (n + 1) / 8 = n / 8 := by omega
theorem ar5 (n r : ℕ) (h0 : ¬(n + 1) % 8 = 0) : n / 8 * 65536 + ((n % 8 + 1) * 8192 + r) = 8192 * (n + 1) + r := by omega

/-- At the first point of a core's run the rows seen are the point's own block. -/
theorem part_first (f : Big) (n : ℕ) (h0 : n % 8 = 0) (j : Fin 256) :
    part f n j = ∑ r ∈ Finset.range 8192, extN f (8192 * n + r) j := by
  unfold part
  rw [ar1 n h0, ar2 n h0]

/-- At every other point they are the rows seen before, then the point's own block. -/
theorem part_next (f : Big) (n : ℕ) (h0 : ¬(n + 1) % 8 = 0) (j : Fin 256) :
    part f (n + 1) j = part f n j + ∑ r ∈ Finset.range 8192, extN f (8192 * (n + 1) + r) j := by
  unfold part
  rw [ar3 n h0, ar4 n h0, Finset.sum_range_add]
  congr 1
  refine Finset.sum_congr rfl fun r _ => ?_
  rw [ar5 n r h0]

section region
variable (V : (c : Dev nD) → (b : Ref sig .tc) → Buf (Elt Ideal) ((c : Thread nD τ).loc b)) (c : Dev nD)

/-- The region's input array and its block at point t, at their literal types. -/
abbrev xarr : Vec Ideal S131072x256 .f32 := V c main_v21
abbrev xblk (t : Fin cfg1.N) : Vec Ideal S8192x256 .f32 := iblk1 V c 0 t

theorem tlt (t : Fin cfg1.N) : t.val < 16 := by have := t.isLt; have e : cfg1.N = 16 := N_1; omega

/-- Point t's block holds rows [8192·t, 8192·t + 8192). -/
theorem xblk_apply (t : Fin cfg1.N) (r : Fin 8192) (j : Fin 256) :
    xblk V c t (ix2 r j) = xarr V c (ix2 ⟨8192 * t.val + r.val, by have := tlt t; have := r.isLt; omega⟩ j) := by
  obtain ⟨e0, e1, -⟩ := idx_facts t
  show V c main_v21 (((cfg1.win 0).blk t).view.emb (ix2 r j)) = V c main_v21 _
  refine congrArg (V c main_v21) (funext fun a => Fin.ext ?_)
  match a with
  | ⟨0, _⟩ => show win1_0.index t (0 : Fin 2) * 8192 + 1 * r.val = 8192 * t.val + r.val; omega
  | ⟨1, _⟩ => show win1_0.index t (1 : Fin 2) * 256 + 1 * j.val = j.val; omega

theorem blk_sum (t : Fin cfg1.N) (j : Fin 256) :
    ∑ r : Fin 8192, xblk V c t (ix2 r j) = ∑ r ∈ Finset.range 8192, extN (cur (xarr V c)) (8192 * t.val + r) j := by
  rw [Finset.sum_range]
  refine Finset.sum_congr rfl fun r _ => ?_
  have := tlt t; have := r.isLt
  rw [xblk_apply]; unfold extN; rw [dif_pos (by omega)]

theorem blk_sumsq (t : Fin cfg1.N) (j : Fin 256) :
    ∑ r : Fin 8192, xblk V c t (ix2 r j) * xblk V c t (ix2 r j)
      = ∑ r ∈ Finset.range 8192, extN (fun r j => cur (xarr V c) r j * cur (xarr V c) r j) (8192 * t.val + r) j := by
  rw [Finset.sum_range]
  refine Finset.sum_congr rfl fun r _ => ?_
  have := tlt t; have := r.isLt
  rw [xblk_apply]; unfold extN; rw [dif_pos (by omega)]

/-- What the first point of a core's run leaves: zero plus the block's sums. -/
theorem outsA1 (t : Fin cfg1.N) (h0 : t.val % 8 = 0) (j : Fin 256) :
    (outsAt1 V c t.val t.isLt).1 (ix2 (0 : Fin 1) j) = 0 + ∑ r : Fin 8192, xblk V c t (ix2 r j) := by
  rw [outsAt1_A V c t h0]
  dsimp only
  refine (congrFun (pieceA1 (F := Ideal) c (grid1.coords t) (ms1_0 t) (hs1_0 t) (ms1_1 t) (hs1_1 t) (ms1_2 t) (hs1_2 t) ((hcond1_0 t).mpr h0) (xblk V c t)) (ix2 (0 : Fin 1) j)).trans ?_
  refine (pay4_apply (xblk V c t) (k1_pay1 (F := Ideal)) j).trans ?_
  rw [pay1_apply]

theorem outsA2 (t : Fin cfg1.N) (h0 : t.val % 8 = 0) (j : Fin 256) :
    (outsAt1 V c t.val t.isLt).2 (ix2 (0 : Fin 1) j) = 0 + ∑ r : Fin 8192, xblk V c t (ix2 r j) * xblk V c t (ix2 r j) := by
  rw [outsAt1_A V c t h0]
  dsimp only
  refine (congrFun (pieceA2 (F := Ideal) c (grid1.coords t) (ms1_0 t) (hs1_0 t) (ms1_1 t) (hs1_1 t) (ms1_2 t) (hs1_2 t) ((hcond1_0 t).mpr h0) (xblk V c t)) (ix2 (0 : Fin 1) j)).trans ?_
  refine (pay5_apply (xblk V c t) (k1_pay2 (F := Ideal)) j).trans ?_
  rw [pay2_apply]

/-- What every other point leaves: what the point before left plus the block's sums. -/
theorem outsB1 (t : Fin cfg1.N) (h0 : ¬t.val % 8 = 0) (j : Fin 256) :
    (outsAt1 V c t.val t.isLt).1 (ix2 (0 : Fin 1) j)
      = (outsAt1 V c (t.val - 1) (Nat.lt_of_le_of_lt (Nat.sub_le _ _) t.isLt)).1 (ix2 (0 : Fin 1) j) + ∑ r : Fin 8192, xblk V c t (ix2 r j) := by
  rw [outsAt1_B V c t h0]
  dsimp only
  refine (congrFun (pieceB1 (F := Ideal) c (grid1.coords t) (ms1_0 t) (hs1_0 t) (ms1_1 t) (hs1_1 t) (ms1_2 t) (hs1_2 t) (fun h => h0 ((hcond1_0 t).mp h)) (xblk V c t)
    (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) j)).trans ?_
  exact pay4_apply (xblk V c t) _ j

theorem outsB2 (t : Fin cfg1.N) (h0 : ¬t.val % 8 = 0) (j : Fin 256) :
    (outsAt1 V c t.val t.isLt).2 (ix2 (0 : Fin 1) j)
      = (outsAt1 V c (t.val - 1) (Nat.lt_of_le_of_lt (Nat.sub_le _ _) t.isLt)).2 (ix2 (0 : Fin 1) j) + ∑ r : Fin 8192, xblk V c t (ix2 r j) * xblk V c t (ix2 r j) := by
  rw [outsAt1_B V c t h0]
  dsimp only
  refine (congrFun (pieceB2 (F := Ideal) c (grid1.coords t) (ms1_0 t) (hs1_0 t) (ms1_1 t) (hs1_1 t) (ms1_2 t) (hs1_2 t) (fun h => h0 ((hcond1_0 t).mp h)) (xblk V c t)
    (outsAt1 V c (t.val - 1) (Nat.lt_of_le_of_lt (Nat.sub_le _ _) t.isLt)).1 (outsAt1 V c (t.val - 1) (Nat.lt_of_le_of_lt (Nat.sub_le _ _) t.isLt)).2) (ix2 (0 : Fin 1) j)).trans ?_
  exact pay5_apply (xblk V c t) _ j

/-- After point n each accumulator holds the partial sums of its core's rows seen so far. -/
theorem outs_eq : ∀ (n : ℕ) (h : n < cfg1.N) (j : Fin 256),
    (outsAt1 V c n h).1 (ix2 (0 : Fin 1) j) = part (cur (xarr V c)) n j
    ∧ (outsAt1 V c n h).2 (ix2 (0 : Fin 1) j) = part (fun r j => cur (xarr V c) r j * cur (xarr V c) r j) n j := by
  intro n
  induction n with
  | zero =>
    intro h j
    have h0 : (⟨0, h⟩ : Fin cfg1.N).val % 8 = 0 := rfl
    refine ⟨?_, ?_⟩
    · rw [part_first _ 0 rfl, ← blk_sum V c ⟨0, h⟩ j]
      exact (outsA1 V c ⟨0, h⟩ h0 j).trans (zero_add _)
    · rw [part_first _ 0 rfl, ← blk_sumsq V c ⟨0, h⟩ j]
      exact (outsA2 V c ⟨0, h⟩ h0 j).trans (zero_add _)
  | succ n ih =>
    intro h j
    by_cases h0 : (n + 1) % 8 = 0
    · refine ⟨?_, ?_⟩
      · rw [part_first _ (n + 1) h0, ← blk_sum V c ⟨n + 1, h⟩ j]
        exact (outsA1 V c ⟨n + 1, h⟩ h0 j).trans (zero_add _)
      · rw [part_first _ (n + 1) h0, ← blk_sumsq V c ⟨n + 1, h⟩ j]
        exact (outsA2 V c ⟨n + 1, h⟩ h0 j).trans (zero_add _)
    · obtain ⟨i1, i2⟩ := ih (Nat.lt_of_succ_lt h) j
      refine ⟨?_, ?_⟩
      · rw [part_next _ n h0, ← blk_sum V c ⟨n + 1, h⟩ j, ← i1]
        exact outsB1 V c ⟨n + 1, h⟩ h0 j
      · rw [part_next _ n h0, ← blk_sumsq V c ⟨n + 1, h⟩ j, ← i2]
        exact outsB2 V c ⟨n + 1, h⟩ h0 j

end region

/-! ## From the last point of each core's run to the whole output -/

theorem ar6 (a : ℕ) : ((8 * a + 7) % 8 + 1) * 8192 = 65536 := by omega
theorem ar7 (a : ℕ) : (8 * a + 7) / 8 = a := by omega

/-- After the last point of core a's run the rows seen are that core's whole half: the specification's half sum. -/
theorem part_last (f : Big) (a : ℕ) (ha : a < 2) (j : Fin 256) :
    part f (8 * a + 7) j = halfSum f ⟨256 * a + j.val, by have := j.isLt; omega⟩ := by
  unfold part halfSum
  rw [ar6 a, ar7 a, Finset.sum_range]
  refine Finset.sum_congr rfl fun r _ => ?_
  have := r.isLt; have := j.isLt
  unfold extN
  rw [dif_pos (by omega)]
  exact congrArg₂ f (Fin.ext (by show a * 65536 + r.val = (256 * a + j.val) / 256 * 65536 + r.val; omega))
    (Fin.ext (by show j.val = (256 * a + j.val) % 256; omega))

section final
variable (V : (c : Dev nD) → (b : Ref sig .tc) → Buf (Elt Ideal) ((c : Thread nD τ).loc b)) (c : Dev nD)

theorem part_at_flush (f : Big) (t : Fin cfg1.N) (h7 : t.val % 8 = 7) (j : Fin 256) :
    part f t.val j = halfSum f ⟨256 * (t.val / 8) + j.val, by have := tlt t; have := j.isLt; omega⟩ := by
  have := tlt t
  have h := part_last f (t.val / 8) (by omega) j
  have e : 8 * (t.val / 8) + 7 = t.val := by omega
  rw [e] at h
  exact h

/-- Where a point's [1, 256] output block sits in the [1, 512] array: columns [256·(t/8), 256·(t/8) + 256). -/
theorem emb1 (t : Fin cfg1.N) (q : Fin 256) :
    ((cfg1.win 1).blk t).view.emb (ix2 (0 : Fin 1) q)
      = ix2 (0 : Fin 1) (⟨256 * (t.val / 8) + q.val, by have := tlt t; have := q.isLt; omega⟩ : Fin 512) := by
  obtain ⟨-, -, e2, e3, -⟩ := idx_facts t
  funext a; apply Fin.ext
  match a with
  | ⟨0, _⟩ => show win1_1.index t (0 : Fin 2) * 1 + 1 * 0 = 0; omega
  | ⟨1, _⟩ => show win1_1.index t (1 : Fin 2) * 256 + 1 * q.val = 256 * (t.val / 8) + q.val; omega

theorem emb2 (t : Fin cfg1.N) (q : Fin 256) :
    ((cfg1.win 2).blk t).view.emb (ix2 (0 : Fin 1) q)
      = ix2 (0 : Fin 1) (⟨256 * (t.val / 8) + q.val, by have := tlt t; have := q.isLt; omega⟩ : Fin 512) := by
  obtain ⟨-, -, -, -, e4, e5⟩ := idx_facts t
  funext a; apply Fin.ext
  match a with
  | ⟨0, _⟩ => show win1_2.index t (0 : Fin 2) * 1 + 1 * 0 = 0; omega
  | ⟨1, _⟩ => show win1_2.index t (1 : Fin 2) * 256 + 1 * q.val = 256 * (t.val / 8) + q.val; omega

/-- A [1, 256] block that reads as columns [256·(t/8), 256·(t/8) + 256) of a row is point t's block of that row. -/
theorem blk_read1 (G : Fin 512 → EReal) (X : Vec Ideal S1x256 .f32) (t : Fin cfg1.N)
    (hX : ∀ q : Fin 256, X (ix2 (0 : Fin 1) q)
      = G ⟨256 * (t.val / 8) + q.val, by have := tlt t; have := q.isLt; omega⟩) :
    (cfg1.win 1).cut (grid1.coords t) X
      = ((cfg1.win 1).blk t).view.read (Elt Ideal) (arr2 (fun (_ : Fin 1) j' => G j')) := by
  funext y
  obtain ⟨p, q, rfl⟩ : ∃ (p : Fin 1) (q : Fin 256), y = ix2 p q := ⟨y 0, y 1, eq_ix2 y⟩
  obtain rfl : p = 0 := Subsingleton.elim _ _
  show X (ix2 (0 : Fin 1) q) = arr2 (fun (_ : Fin 1) j' => G j') (((cfg1.win 1).blk t).view.emb (ix2 (0 : Fin 1) q))
  rw [emb1 t q, arr2_apply]
  exact hX q

theorem blk_read2 (G : Fin 512 → EReal) (X : Vec Ideal S1x256 .f32) (t : Fin cfg1.N)
    (hX : ∀ q : Fin 256, X (ix2 (0 : Fin 1) q)
      = G ⟨256 * (t.val / 8) + q.val, by have := tlt t; have := q.isLt; omega⟩) :
    (cfg1.win 2).cut (grid1.coords t) X
      = ((cfg1.win 2).blk t).view.read (Elt Ideal) (arr2 (fun (_ : Fin 1) j' => G j')) := by
  funext y
  obtain ⟨p, q, rfl⟩ : ∃ (p : Fin 1) (q : Fin 256), y = ix2 p q := ⟨y 0, y 1, eq_ix2 y⟩
  obtain rfl : p = 0 := Subsingleton.elim _ _
  show X (ix2 (0 : Fin 1) q) = arr2 (fun (_ : Fin 1) j' => G j') (((cfg1.win 2).blk t).view.emb (ix2 (0 : Fin 1) q))
  rw [emb2 t q, arr2_apply]
  exact hX q

/-- What the last point of a core's run writes back is that core's block of the half sums. -/
theorem flushed1_eq (t : Fin cfg1.N) (hf : (cfg1.win 1).flush t = true) :
    (dat1 (F := Ideal) V c).flushed 1 t
      = ((cfg1.win 1).blk t).view.read (Elt Ideal) (arr2 (fun (_ : Fin 1) j' => halfSum (cur (V c main_v21)) j')) := by
  have h7 : t.val % 8 = 7 := (flush1_1 t).mp hf
  show (cfg1.win 1).cut (grid1.coords t) ((dat1 V c).after 1 t) = _
  rw [after1_1]
  exact blk_read1 (halfSum (cur (V c main_v21))) (outsAt1 V c t.val t.isLt).1 t fun q =>
    ((outs_eq V c t.val t.isLt q).1).trans (part_at_flush (cur (xarr V c)) t h7 q)

theorem flushed2_eq (t : Fin cfg1.N) (hf : (cfg1.win 2).flush t = true) :
    (dat1 (F := Ideal) V c).flushed 2 t
      = ((cfg1.win 2).blk t).view.read (Elt Ideal)
          (arr2 (fun (_ : Fin 1) j' => halfSum (fun r j => cur (V c main_v21) r j * cur (V c main_v21) r j) j')) := by
  have h7 : t.val % 8 = 7 := (flush1_2 t).mp hf
  show (cfg1.win 2).cut (grid1.coords t) ((dat1 V c).after 2 t) = _
  rw [after1_2]
  exact blk_read2 (halfSum (fun r j => cur (V c main_v21) r j * cur (V c main_v21) r j)) (outsAt1 V c t.val t.isLt).2 t fun q =>
    ((outs_eq V c t.val t.isLt q).2).trans (part_at_flush (fun r j => cur (xarr V c) r j * cur (xarr V c) r j) t h7 q)

/-- An index of the output lies in point t's block iff each coordinate lies in the block's range. -/
theorem mem_blk1 (t : Fin cfg1.N) (i : S1x512.Idx) :
    i ∈ ((cfg1.win 1).blk t).view.set ↔ ∀ a : Fin 2, win1_1.index t a * S1x256.size a ≤ (i a).val ∧ (i a).val < win1_1.index t a * S1x256.size a + S1x256.size a := by
  show i ∈ ((View.whole main_v22_0).slice (win1_1.rect t)).set ↔ _
  rw [View.set_slice_whole, Rect.mem_set_unit]
  exact Iff.rfl

theorem mem_blk2 (t : Fin cfg1.N) (i : S1x512.Idx) :
    i ∈ ((cfg1.win 2).blk t).view.set ↔ ∀ a : Fin 2, win1_2.index t a * S1x256.size a ≤ (i a).val ∧ (i a).val < win1_2.index t a * S1x256.size a + S1x256.size a := by
  show i ∈ ((View.whole main_v22_1).slice (win1_2.rect t)).set ↔ _
  rw [View.set_slice_whole, Rect.mem_set_unit]
  exact Iff.rfl

/-- The last point of the core that owns a column writes it back. -/
def lastPt (i : S1x512.Idx) : Fin cfg1.N :=
  ⟨8 * ((i 1).val / 256) + 7, by have hi1 : (i 1).val < 512 := (i 1).isLt; have hN : cfg1.N = 16 := N_1; omega⟩

theorem lastPt_val (i : S1x512.Idx) : (lastPt i).val = 8 * ((i 1).val / 256) + 7 := rfl

theorem cover1 (i : S1x512.Idx) :
    ∃ t : Fin cfg1.N, (cfg1.win 1).flush t = true ∧ i ∈ ((cfg1.win 1).blk t).view.set := by
  have hi0 : (i 0).val < 1 := (i 0).isLt
  have hi1 : (i 1).val < 512 := (i 1).isLt
  have tv := lastPt_val i
  obtain ⟨-, -, e2, e3, -⟩ := idx_facts (lastPt i)
  refine ⟨lastPt i, (flush1_1 (lastPt i)).mpr (by omega), ?_⟩
  rw [mem_blk1]
  intro a
  match a with
  | ⟨0, _⟩ => show win1_1.index (lastPt i) (0 : Fin 2) * 1 ≤ (i 0).val ∧ (i 0).val < win1_1.index (lastPt i) (0 : Fin 2) * 1 + 1; omega
  | ⟨1, _⟩ => show win1_1.index (lastPt i) (1 : Fin 2) * 256 ≤ (i 1).val ∧ (i 1).val < win1_1.index (lastPt i) (1 : Fin 2) * 256 + 256; omega

theorem cover2 (i : S1x512.Idx) :
    ∃ t : Fin cfg1.N, (cfg1.win 2).flush t = true ∧ i ∈ ((cfg1.win 2).blk t).view.set := by
  have hi0 : (i 0).val < 1 := (i 0).isLt
  have hi1 : (i 1).val < 512 := (i 1).isLt
  have tv := lastPt_val i
  obtain ⟨-, -, -, -, e4, e5⟩ := idx_facts (lastPt i)
  refine ⟨lastPt i, (flush1_2 (lastPt i)).mpr (by omega), ?_⟩
  rw [mem_blk2]
  intro a
  match a with
  | ⟨0, _⟩ => show win1_2.index (lastPt i) (0 : Fin 2) * 1 ≤ (i 0).val ∧ (i 0).val < win1_2.index (lastPt i) (0 : Fin 2) * 1 + 1; omega
  | ⟨1, _⟩ => show win1_2.index (lastPt i) (1 : Fin 2) * 256 ≤ (i 1).val ∧ (i 1).val < win1_2.index (lastPt i) (1 : Fin 2) * 256 + 256; omega

end final

variable (V : (c : Dev nD) → (b : Ref sig .tc) → Buf (Elt Ideal) ((c : Thread nD τ).loc b)) (c : Dev nD)

theorem out1 : (dat1 (F := Ideal) V c).arrAt 1 cfg1.N
    = arr2 (fun (_ : Fin 1) j' => halfSum (cur (V c main_v21)) j') :=
  (dat1 (F := Ideal) V c).arrAt_eq_of_cover 1 _ (flushed1_eq V c) cover1

theorem out2 : (dat1 (F := Ideal) V c).arrAt 2 cfg1.N
    = arr2 (fun (_ : Fin 1) j' => halfSum (fun r j => cur (V c main_v21) r j * cur (V c main_v21) r j) j') :=
  (dat1 (F := Ideal) V c).arrAt_eq_of_cover 2 _ (flushed2_eq V c) cover2

end Cert.KernelIdeal.Region1

end
-- ==== Proof.KerChainB.lean ====
/-
  From the second region's entry to the third's: the per-core sums added, mean and clamped variance, batch norm and ReLU on the host, and the scatter-add into the edge features.
-/
import proofs.«407534_j31061203484850_2_alg».proof.Proof.Gen.KernelIdeal.Frame
import proofs.«407534_j31061203484850_2_alg».proof.Proof.Spec
import proofs.«407534_j31061203484850_2_alg».proof.Proof.KerArgs
import proofs.«407534_j31061203484850_2_alg».proof.Proof.Region1
import proofs.«407534_j31061203484850_2_alg».proof.Proof.LibRead
import Idealize.ShloMosaic.Lib.Pipeline.Value
import Idealize.ShloMosaic.Lib.ValueLayout
import Idealize.ShloMosaic.Lib.StableHlo.Run
import Idealize.ShloMosaic.PureOps.Ideal.Laws

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.ChainB

open Cert.KernelIdeal.KA
open Idealize.ShloMosaic.ValueIdx

/-! ## Shape operations read at an index -/

/-- A [1, 256] row broadcast over 131072 rows reads the row's entry at the channel. -/
theorem bc_row {α : Type} (v : S1x256.Idx → α) (r : Fin 131072) (j : Fin 256) :
    broadcastInDim S131072x256 ![0, 1] bcast_S1x256_S131072x256_0_1 v (ix2 r j) = v (ix2 (0 : Fin 1) j) := by
  refine broadcastInDim_apply _ _ v _ _ fun a => ?_
  match a with
  | ⟨0, _⟩ => rfl
  | ⟨1, _⟩ => rfl

/-- A scalar broadcast to any shape reads the scalar. -/
theorem bc_scalar {α : Type} {t : Shape} (v : S_.Idx → α) (dims : Fin 0 → Fin t.rank)
    (h : S_.BroadcastsInDim t dims) (j : t.Idx) :
    broadcastInDim t dims h v j = v ix0 :=
  broadcastInDim_apply dims h v j ix0 fun a => a.elim0

/-- A vector of 131072 words broadcast to a [131072, 1] column reads the word of its row. -/
theorem bc_col {α : Type} (v : S131072.Idx → α) (r : Fin 131072) (u : Fin 1) :
    broadcastInDim S131072x1 ![0] bcast_S131072_S131072x1_0 v (ix2 r u) = v (ix1 r) := by
  refine broadcastInDim_apply _ _ v _ _ fun a => ?_
  match a with
  | ⟨0, _⟩ => rfl

/-- The low half of a [1, 512] row. -/
theorem sl_lo {α : Type} (s : S1x512.Idx → α) (j : Fin 256) :
    extractStridedSlice S1x256 ![0, 0] s slices_S1x512_S1x256_0_0 (ix2 (0 : Fin 1) j)
      = s (ix2 (0 : Fin 1) ⟨j.val, by omega⟩) := by
  refine extractStridedSlice_apply _ s _ _ _ fun a => ?_
  match a with
  | ⟨0, _⟩ => rfl
  | ⟨1, _⟩ =>
    show j.val = 0 + j.val
    omega

/-- The high half of a [1, 512] row. -/
theorem sl_hi {α : Type} (s : S1x512.Idx → α) (j : Fin 256) :
    extractStridedSlice S1x256 ![0, 256] s slices_S1x512_S1x256_0_256 (ix2 (0 : Fin 1) j)
      = s (ix2 (0 : Fin 1) ⟨j.val + 256, by omega⟩) := by
  refine extractStridedSlice_apply _ s _ _ _ fun a => ?_
  match a with
  | ⟨0, _⟩ => rfl
  | ⟨1, _⟩ =>
    show j.val + 256 = 256 + j.val
    omega

/-- Row 0 of a [2, 131072] array of words, as a [1, 131072] array. -/
theorem sl_row0 {α : Type} (s : S2x131072.Idx → α) (r : Fin 131072) :
    extractStridedSlice S1x131072 ![0, 0] s slices_S2x131072_S1x131072_0_0 (ix2 (0 : Fin 1) r)
      = s (ix2 (0 : Fin 2) r) := by
  refine extractStridedSlice_apply _ s _ _ _ fun a => ?_
  match a with
  | ⟨0, _⟩ => rfl
  | ⟨1, _⟩ =>
    show r.val = 0 + r.val
    omega

/-- The host's quotient at an index is the quotient of the elements. -/
theorem hdivf_apply {s : Shape} {φ : FTy} (a b : FVec Ideal s φ) (i : s.Idx) :
    Host.divf a b i = Ideal.div (a i) (b i) := rfl
/-- The host's reciprocal square root at an index is that of the element. -/
theorem hrsqrt_apply {s : Shape} {φ : FTy} (a : FVec Ideal s φ) (i : s.Idx) :
    Host.rsqrt a i = Ideal.rsqrt (a i) := rfl
/-- A signed comparison of words at an index compares the elements. -/
theorem cmpi_apply {s : Shape} {w : ℕ} (p : CmpIPredicate) (a b : IVec s w) (i : s.Idx) :
    cmpi p a b i = IntOp.cmpi p (a i) (b i) := rfl
/-- A sum of words at an index is the sum of the elements. -/
theorem addi_apply {s : Shape} {w : ℕ} (a b : IVec s w) (i : s.Idx) : addi a b i = a i + b i := rfl

/-! ## The stretch's two computed operands, over arrays of literal shapes -/

/-- A negative index word has the extent added; broadcast to a column, the words are the scatter's index operand. -/
theorem idx_eq (v : IVec S131072 32) (ei : IVec S2x131072 32)
    (hv : ∀ r : Fin 131072, v (ix1 r) = ei (ix2 (0 : Fin 2) r)) :
    broadcastInDim S131072x1 ![0] bcast_S131072_S131072x1_0
      (select
        (cmpi CmpIPredicate.slt v (broadcastInDim S131072 ![] bcast_S_S131072 (constantI S_ 32 0#32)))
        (addi v (broadcastInDim S131072 ![] bcast_S_S131072 (constantI S_ 32 131072#32)))
        v)
    = scatIdx ei := by
  refine ext2 fun r u => ?_
  rw [bc_col]
  refine (LibRead.nrm_eq (v (ix1 r))).trans ?_
  rw [hv r]
  rfl

/-- A [1, 512] row of half sums, its two halves added and divided by the row count: as the stretch writes it. -/
def rowMean (f : Big) : Vec Ideal S1x256 .f32 :=
  Host.divf
    (addf (extractStridedSlice S1x256 ![0, 0] (arr2 fun (_ : Fin 1) j' => halfSum f j') slices_S1x512_S1x256_0_0)
      (extractStridedSlice S1x256 ![0, 256] (arr2 fun (_ : Fin 1) j' => halfSum f j') slices_S1x512_S1x256_0_256))
    (broadcastInDim S1x256 ![] bcast_S_S1x256 (constant (F := Ideal) S_ FTy.f32 0x48000000#32))

/-- The two half sums of a column add up to its sum, so the row is the column sums over the row count. -/
theorem rowMean_apply (f : Big) (j : Fin 256) :
    rowMean f (ix2 (0 : Fin 1) j) = Ideal.div (colsum f j) cN := by
  unfold rowMean
  rw [hdivf_apply, addf_apply, sl_lo, sl_hi, arr2_apply, arr2_apply, halfSum_add, bc_scalar, constant_apply]
  rfl

/-- The mean and the clamped variance from the half sums, then batch norm and ReLU as written: at every entry this is
    `bn` with the kernel's statistics. -/
theorem upd_eq (x : Big) (g b : Vec Ideal S1x256 .f32) (gm be : Row)
    (hg : ∀ j : Fin 256, g (ix2 (0 : Fin 1) j) = gm j) (hb : ∀ j : Fin 256, b (ix2 (0 : Fin 1) j) = be j) :
    maximumf
      (addf
        (mulf
          (mulf (broadcastInDim S131072x256 ![0, 1] bcast_S1x256_S131072x256_0_1 g)
            (subf (arr2 x) (broadcastInDim S131072x256 ![0, 1] bcast_S1x256_S131072x256_0_1 (rowMean x))))
          (broadcastInDim S131072x256 ![0, 1] bcast_S1x256_S131072x256_0_1
            (Host.rsqrt
              (addf
                (maximumf
                  (subf (rowMean fun r j => x r j * x r j) (mulf (rowMean x) (rowMean x)))
                  (broadcastInDim S1x256 ![] bcast_S_S1x256 (constant (F := Ideal) S_ FTy.f32 0x00000000#32)))
                (broadcastInDim S1x256 ![] bcast_S_S1x256 (constant (F := Ideal) S_ FTy.f32 0x3727C5AC#32))))))
        (broadcastInDim S131072x256 ![0, 1] bcast_S1x256_S131072x256_0_1 b))
      (broadcastInDim S131072x256 ![] bcast_S_S131072x256 (constant (F := Ideal) S_ FTy.f32 0x00000000#32))
    = arr2 (bn x (mean x) (varKer x) gm be) := by
  refine ext2 fun r j => ?_
  simp only [maximumf_apply, addf_apply, mulf_apply, subf_apply, arr2_apply, bc_scalar, constant_apply,
    Ideal.ofBits_zero_f32]
  rw [bc_row, bc_row, bc_row, bc_row]
  simp only [hrsqrt_apply, maximumf_apply, addf_apply, mulf_apply, subf_apply, bc_scalar, constant_apply,
    Ideal.ofBits_zero_f32, rowMean_apply, hg, hb]
  rfl

/-! ## The buffers the stretch reads, as the second region leaves them -/

variable (m : (ℓ : Loc nD τ sig) → Buf (Elt Ideal) ℓ) (ρ : Dev nD → PrngReg) (c : Dev nD)

/-- The first per-core output of the second region: the half sums of the message. -/
theorem w6_v22_0 (x : Big) (h21 : V5 m ρ c main_v21 = arr2 x) :
    W6 m ρ c (Proc.devRef .tc main_v22_0) = arr2 (fun (_ : Fin 1) j' => halfSum x j') :=
  (W6_arr m ρ c 1).trans ((Region1.out1 (V5 m ρ) c).trans (by rw [h21]; rfl))

/-- The second: the half sums of its squares. -/
theorem w6_v22_1 (x : Big) (h21 : V5 m ρ c main_v21 = arr2 x) :
    W6 m ρ c (Proc.devRef .tc main_v22_1) = arr2 (fun (_ : Fin 1) j' => halfSum (fun r j => x r j * x r j) j') :=
  (W6_arr m ρ c 2).trans ((Region1.out2 (V5 m ρ) c).trans (by rw [h21]; rfl))

/-- The message itself is an input of the second region, so it leaves as it entered. -/
theorem w6_v21 (x : Big) (h21 : V5 m ρ c main_v21 = arr2 x) :
    W6 m ρ c (Proc.devRef .tc main_v21) = arr2 x :=
  ((W6_arr m ρ c 0).trans (((dat1 (V5 m ρ) c).arrAt_in 0 rfl _).trans (A_eq1 (V5 m ρ) c 0))).trans h21

/-! Buffers written by the first host stretch (or never written) and carried to the second region's exit: no later
    host operation writes them and no region has them as an output. -/

theorem w6_main_arg2_w1 : W6 m ρ c (Proc.devRef .tc main_arg2) = W1 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))

theorem w6_main_v1_w1 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem w6_main_v16_w1 : W6 m ρ c (Proc.devRef .tc main_v16) = W1 m ρ c (Proc.devRef .tc main_v16) :=
  calc W6 m ρ c (Proc.devRef .tc main_v16)
    _ = W5 m ρ c (Proc.devRef .tc main_v16) := W6_of_ne m ρ c main_v16 (by decide)
    _ = W4 m ρ c (Proc.devRef .tc main_v16) := StableHlo.after_of_forall_not_mem (b := Proc.devRef .tc main_v16) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v16) := StableHlo.after_of_forall_not_mem (b := Proc.devRef .tc main_v16) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v16) := W2_of_ne m ρ c main_v16 (by decide)

theorem w6_main_v17_w1 : W6 m ρ c (Proc.devRef .tc main_v17) = W1 m ρ c (Proc.devRef .tc main_v17) :=
  calc W6 m ρ c (Proc.devRef .tc main_v17)
    _ = W5 m ρ c (Proc.devRef .tc main_v17) := W6_of_ne m ρ c main_v17 (by decide)
    _ = W4 m ρ c (Proc.devRef .tc main_v17) := StableHlo.after_of_forall_not_mem (b := Proc.devRef .tc main_v17) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v17) := StableHlo.after_of_forall_not_mem (b := Proc.devRef .tc main_v17) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v17) := W2_of_ne m ρ c main_v17 (by decide)

/-- The edge features are an argument: the first host stretch does not write them. -/
theorem w1_arg2 : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- gamma as a [1, 256] row. -/
theorem w1_v16 (j : Fin 256) :
    W1 m ρ c (Proc.devRef .tc main_v16) (ix2 (0 : Fin 1) j) = Gm m c j := by
  show StableHlo.after hostOps0 (W0 m ρ c) (Proc.devRef .tc main_v16) _ = _
  dsimp only [hostOps0]
  after_results
  exact shapeCast_a_1a_apply _ _ 0 j

/-- beta as a [1, 256] row. -/
theorem w1_v17 (j : Fin 256) :
    W1 m ρ c (Proc.devRef .tc main_v17) (ix2 (0 : Fin 1) j) = Be m c j := by
  show StableHlo.after hostOps0 (W0 m ρ c) (Proc.devRef .tc main_v17) _ = _
  dsimp only [hostOps0]
  after_results
  exact shapeCast_a_1a_apply _ _ 0 j

/-- The first row of the edge index as a vector of 131072 words. -/
theorem w1_v1 (r : Fin 131072) :
    W1 m ρ c (Proc.devRef .tc main_v1) (ix1 r) = EI m c (ix2 (0 : Fin 2) r) := by
  show StableHlo.after hostOps0 (W0 m ρ c) (Proc.devRef .tc main_v1) _ = _
  dsimp only [hostOps0]
  after_results
  exact (shapeCast_1a_a_apply _ _ r).trans (sl_row0 _ r)

/-- Whatever the edge message x is, the third region finds the scattered edge features at `eNew` of its batch norm. -/
theorem v56_eq (x : Big) (h21 : V5 m ρ c main_v21 = arr2 x) :
    V7 m ρ c main_v56 = arr2 (eNew (E m c) (EI m c) (bn x (mean x) (varKer x) (Gm m c) (Be m c))) := by
  show StableHlo.after hostOps2 (W6 m ρ c) (Proc.devRef .tc main_v56) = _
  dsimp only [hostOps2]
  after_results_simp
  rw [w6_main_arg2_w1, w1_arg2, w6_v22_0 m ρ c x h21, w6_v22_1 m ρ c x h21, w6_v21 m ρ c x h21,
    w6_main_v1_w1, w6_main_v16_w1, w6_main_v17_w1]
  unfold eNew
  rw [arr2_cur, arr2_cur]
  show Ideal.hostScatterAdd scatD _ _ _ = _
  exact congr (congrArg _ (idx_eq _ _ (w1_v1 m ρ c))) (upd_eq x _ _ _ _ (w1_v16 m ρ c) (w1_v17 m ρ c))

end Cert.KernelIdeal.ChainB

end
-- ==== Proof.Region2.lean ====
/-
  The third region (column sums of the sigmoid, split over two cores).

  The grid is (2, 8), run as points t = 8 a + k (a the core, k the step). Point t stages rows
  8192 t … 8192 t + 8191 of the [131072, 256] input; the [1, 512] result is staged through the block of
  columns 256 a … 256 a + 255. At the first step of a core the block is reset to zero and the column sums of
  the logistic function over the staged rows are added to it; at every other step they are added to what the
  step before left. So after step k of core a the block holds, in column j, the sum over rows
  65536 a … 65536 a + 8192 (k + 1) − 1 of the logistic function of the input's column j, and after the last
  step (k = 7), when the block is written back, that is the sum over the core's whole half of the rows:
  `halfSum` at column 256 a + j. Addition on the extended reals is commutative and associative, so regrouping
  the eight blocks of 8192 rows into one range of 65536 rows needs no finiteness.
-/
import proofs.«407534_j31061203484850_2_alg».proof.Proof.Gen.KernelIdeal.Frame
import proofs.«407534_j31061203484850_2_alg».proof.Proof.Spec
import Idealize.ShloMosaic.Lib.Pipeline.Value
import Idealize.ShloMosaic.PureOps.Ideal.Laws
import Idealize.ShloMosaic.Lib.IdealHost
import Idealize.ShloMosaic.Lib.ValueLayout

noncomputable section

open scoped BigOperators
open Idealize.ShloMosaic Idealize.ShloMosaic.TcCoe Idealize.SL.Sem Idealize.ShloMosaic.Tactic
open Idealize.ShloMosaic.ValueIdx
open Idealize.ShloMosaic.Pipeline (Dat Cfg Window)
open Cert.KernelIdeal Cert.KernelIdeal.Gen Cert.Spec

namespace Cert.KernelIdeal.Region2

/-! ## What each of the two control cases leaves in the accumulator's block -/

section Pieces
variable {F : FTy → Type} [FloatOps F]

/-- The zero offsets of a store or load of a whole block. -/
theorem hz : (![0, 0] : Fin 2 → Nat) = fun _ => 0 := funext fun a => by fin_cases a <;> rfl

/-- A step that is not a core's first: the block holding `xo` is overwritten by one store of the whole block, the
    update's payload of the staged rows `x` and of `xo` itself. -/
theorem out_B (c : Dev nD) (i : grid2.Coords) (a2 : Memref sig .tc .vmem S8192x256 .f32) (h2 : a2.IsWhole)
    (a3 : Memref sig .tc .vmem S1x256 .f32) (h3 : a3.IsWhole) (hc : ¬cond2_0 i) (x : Vec F S8192x256 .f32)
    (xo : Vec F S1x256 .f32) :
    out2_B_1 c i a2 h2 a3 h3 hc x xo = k2_pay2 x xo := by
  unfold out2_B_1
  rw [View.read_writes_eq_canon _ _ _ (cover2_B_1 c i a2 h2 a3 h3 hc x xo)]
  unfold kernelRun2_B
  dsimp only
  sl_unfold_words
  rw [View.canon_unit_zero hz]
  simp only [View.readAt_eq_ld, h2.read_unread, h3.read_unread, View.ld_unit_zero (S := S8192x256) hz,
    View.ld_unit_zero (S := S1x256) hz]

/-- A core's first step: the block is first overwritten by the reset's payload (zero everywhere), that is read
    back, and the block is overwritten again by the update's payload of the staged rows `x` and of the zero block. -/
theorem out_A (c : Dev nD) (i : grid2.Coords) (a2 : Memref sig .tc .vmem S8192x256 .f32) (h2 : a2.IsWhole)
    (a3 : Memref sig .tc .vmem S1x256 .f32) (h3 : a3.IsWhole) (hc : cond2_0 i) (x : Vec F S8192x256 .f32) :
    out2_A_1 c i a2 h2 a3 h3 hc x = k2_pay2 x (k2_pay1 (F := F)) := by
  unfold out2_A_1
  rw [View.read_writes_eq_canon _ _ _ (cover2_A_1 c i a2 h2 a3 h3 hc x)]
  unfold kernelRun2_A
  dsimp only
  sl_unfold_words
  rw [View.canon_cons_unit_zero (S := S1x256) hz, View.readCov_unit_zero (S := S1x256) _ hz]
  simp only [View.readAt_eq_ld, h2.read_unread, View.ld_unit_zero (S := S8192x256) hz]

end Pieces

/-! ## The two payloads at an index, over the extended reals -/

/-- The reduced axis put back: column `j` of the reduced block at row `r` is entry (r, j) of the block. -/
theorem lift_eq (j : Fin 256) (r : Fin 8192) :
    reduces_S8192x256_S256.lift (ix1 j) r = ix2 r j := by
  funext a
  match a with
  | ⟨0, _⟩ => rfl
  | ⟨1, _⟩ => rfl

/-- The update's payload at column `j`: what the accumulator held there plus the sum, over the block's 8192 rows,
    of the logistic function of the block's entries in that column. -/
theorem pay2_apply (x : FVec Ideal S8192x256 .f32) (xo : FVec Ideal S1x256 .f32) (u : Fin 1) (j : Fin 256) :
    k2_pay2 x xo (ix2 u j) = xo (ix2 u j) + ∑ r : Fin 8192, Ideal.logistic (x (ix2 r j)) := by
  unfold k2_pay2
  dsimp only
  rw [shapeCast_self, shapeCast_self]
  refine (addf_apply _ _ _).trans ?_
  congr 1
  refine (shapeCast_a_1a_apply _ shapeCasts_S256_S1x256 u j).trans ?_
  refine (Ideal.multiReduction_add_single _ _ reduces_S8192x256_S256 _ _ (ix1 j)).trans ?_
  exact Finset.sum_congr rfl fun r _ => congrArg (fun i => Ideal.logistic (x i)) (lift_eq j r)

/-- The reset's payload is zero everywhere. -/
theorem pay1_apply (i : S1x256.Idx) : (k2_pay1 (F := Ideal)) i = 0 := by
  unfold k2_pay1
  exact Ideal.ofBits_zero_f32

/-! ## The blocks' places in their arrays -/

/-- The block indices over the grid: at point `t` the input's block is row block `t` (all 256 columns), the
    accumulator's block is column block `t / 8` of the one row. -/
theorem idx_facts : ∀ t : Fin cfg2.N, win2_0.index t (0 : Fin 2) = t.val ∧ win2_0.index t (1 : Fin 2) = 0
    ∧ win2_1.index t (0 : Fin 2) = 0 ∧ win2_1.index t (1 : Fin 2) = t.val / 8 :=
  (by decide +kernel : ∀ t : Fin grid2.N, _)

/-- The logistic function as the specification spells it, 1 / (1 + e^(−x)) with the literal of 1.0, is the
    operation's own value. -/
theorem sgm_eq (x : EReal) : sgm x = Ideal.logistic x := by
  unfold sgm cOne Ideal.logistic
  rw [Ideal.ofBits_one_f32]

variable (V : (c : Dev nD) → (b : Ref sig .tc) → Buf (Elt Ideal) ((c : Thread nD τ).loc b)) (c : Dev nD)

/-- The input array as the region finds it, and its block at a point, each at its literal type. -/
abbrev xarr : FVec Ideal S131072x256 .f32 := V c main_v56
abbrev xblk (t : Fin cfg2.N) : FVec Ideal S8192x256 .f32 := iblk2 V c 0 t

/-- Row `r` of the block at point `t` is row `8192 t + r` of the array. -/
theorem xblk_apply (t : Fin cfg2.N) (r : Fin 8192) (j : Fin 256) :
    xblk V c t (ix2 r j) = xarr V c (ix2 ⟨8192 * t.val + r.val, by
      have hN : t.val < 16 := lt_of_lt_of_eq t.isLt (show cfg2.N = 16 from N_2)
      have := r.isLt; omega⟩ j) := by
  obtain ⟨e0, e1, -, -⟩ := idx_facts t
  show iblk2 V c 0 t (ix2 r j) = _
  unfold iblk2
  rw [View.read_apply]
  show V c main_v56 _ = V c main_v56 _
  congr 1
  funext a
  apply Fin.ext
  match a with
  | ⟨0, _⟩ => show win2_0.index t 0 * 8192 + 1 * r.val = 8192 * t.val + r.val; rw [e0]; omega
  | ⟨1, _⟩ => show win2_0.index t 1 * 256 + 1 * j.val = j.val; rw [e1]; omega

/-! ## The running sum -/

/-- The logistic function of the array's entry at row `r`, column `j`, for any natural `r` (zero past the last
    row): the summand of every sum below, so that sums over stretches of rows split and join as sums over ranges
    of natural numbers. -/
def rowTerm (r : ℕ) (j : Fin 256) : EReal :=
  if h : r < 131072 then Ideal.logistic (xarr V c (ix2 ⟨r, h⟩ j)) else 0

/-- The column sum over the block of point `t` is the sum of the summand over rows `8192 t … 8192 t + 8191`. -/
theorem blockSum (t : Fin cfg2.N) (j : Fin 256) :
    ∑ r : Fin 8192, Ideal.logistic (xblk V c t (ix2 r j))
      = ∑ r ∈ Finset.range 8192, rowTerm V c (8192 * t.val + r) j := by
  have hN : t.val < 16 := lt_of_lt_of_eq t.isLt (show cfg2.N = 16 from N_2)
  rw [Finset.sum_range]
  refine Finset.sum_congr rfl fun r _ => ?_
  have hr := r.isLt
  rw [xblk_apply]
  unfold rowTerm
  rw [dif_pos (by omega)]

/-- The first point of a core's run leaves the column sums of its own block: zero plus them. -/
theorem stepA (t : Fin cfg2.N) (h0 : t.val % 8 = 0) (u : Fin 1) (j : Fin 256) :
    outsAt2 V c t.val t.isLt (ix2 u j) = ∑ r ∈ Finset.range 8192, rowTerm V c (8192 * t.val + r) j := by
  rw [outsAt2_A V c t h0]
  refine (congrFun (out_A (F := Ideal) c (grid2.coords t) (ms2_0 t) (hs2_0 t) (ms2_1 t) (hs2_1 t)
    ((hcond2_0 t).mpr h0) (xblk V c t)) (ix2 u j)).trans ?_
  refine (pay2_apply (xblk V c t) (k2_pay1 (F := Ideal)) u j).trans ?_
  rw [pay1_apply, zero_add]
  exact blockSum V c t j

/-- Every other point adds the column sums of its block to what the point before left. -/
theorem stepB (t : Fin cfg2.N) (h0 : ¬t.val % 8 = 0) (u : Fin 1) (j : Fin 256) :
    outsAt2 V c t.val t.isLt (ix2 u j)
      = outsAt2 V c (t.val - 1) (Nat.lt_of_le_of_lt (Nat.sub_le _ _) t.isLt) (ix2 u j)
        + ∑ r ∈ Finset.range 8192, rowTerm V c (8192 * t.val + r) j := by
  rw [outsAt2_B V c t h0]
  refine (congrFun (out_B (F := Ideal) c (grid2.coords t) (ms2_0 t) (hs2_0 t) (ms2_1 t) (hs2_1 t)
    (fun h => h0 ((hcond2_0 t).mp h)) (xblk V c t)
    (outsAt2 V c (t.val - 1) (Nat.lt_of_le_of_lt (Nat.sub_le _ _) t.isLt))) (ix2 u j)).trans ?_
  refine (pay2_apply (xblk V c t)
    (outsAt2 V c (t.val - 1) (Nat.lt_of_le_of_lt (Nat.sub_le _ _) t.isLt)) u j).trans ?_
  rw [blockSum V c t j]

/-- The running sum after point `n`: with `n = 8 a + k`, the sum over rows `65536 a … 65536 a + 8192 (k + 1) − 1`,
    the first `k + 1` blocks of core `a`'s half. -/
def runSum (n : ℕ) (j : Fin 256) : EReal :=
  ∑ r ∈ Finset.range ((n % 8 + 1) * 8192), rowTerm V c (n / 8 * 65536 + r) j

/-- What the accumulator's block holds after point `n` is that running sum: by induction on the point, the first
    point of a core starting the sum afresh (its range is the one block) and every other point appending its
    block's rows to the range of the point before. -/
theorem outsAt_eq (u : Fin 1) (j : Fin 256) :
    ∀ (n : ℕ) (h : n < cfg2.N), outsAt2 V c n h (ix2 u j) = runSum V c n j := by
  intro n
  induction n with
  | zero =>
    intro h
    rw [stepA V c ⟨0, h⟩ rfl u j]
    rfl
  | succ m ih =>
    intro h
    by_cases h0 : (m + 1) % 8 = 0
    · rw [stepA V c ⟨m + 1, h⟩ h0 u j]
      unfold runSum
      rw [show ((m + 1) % 8 + 1) * 8192 = 8192 by omega, show (m + 1) / 8 * 65536 = 8192 * (m + 1) by omega]
    · rw [stepB V c ⟨m + 1, h⟩ h0 u j]
      show outsAt2 V c m _ (ix2 u j) + _ = _
      rw [ih]
      unfold runSum
      rw [show ((m + 1) % 8 + 1) * 8192 = (m % 8 + 1) * 8192 + 8192 by omega, Finset.sum_range_add,
        show (m + 1) / 8 * 65536 = m / 8 * 65536 by omega]
      congr 1
      refine Finset.sum_congr rfl fun r _ => ?_
      congr 1
      show 8192 * (m + 1) + r = m / 8 * 65536 + ((m % 8 + 1) * 8192 + r)
      omega

/-! ## The result array -/

/-- One half's column sum in the specification's spelling, at column `256 a + j` of the result, is the sum of the
    summand over the rows `65536 a … 65536 a + 65535` of core `a`'s half. -/
theorem halfSum_eq (a : ℕ) (ha : a < 2) (j : Fin 256) (j' : Fin 512) (hj' : j'.val = 256 * a + j.val) :
    halfSum (fun r j => sgm (cur (V c main_v56) r j)) j'
      = ∑ r ∈ Finset.range 65536, rowTerm V c (a * 65536 + r) j := by
  unfold halfSum
  rw [Finset.sum_range]
  refine Finset.sum_congr rfl fun r _ => ?_
  have hr := r.isLt
  have hj := j.isLt
  have hd : j'.val / 256 = a := by omega
  have hm : j'.val % 256 = j.val := by omega
  unfold rowTerm
  rw [dif_pos (by omega)]
  refine (sgm_eq _).trans ?_
  exact congrArg₂ (fun (p : Fin 131072) (q : Fin 256) => Ideal.logistic (V c main_v56 (ix2 p q)))
    (Fin.ext (by show j'.val / 256 * 65536 + r.val = a * 65536 + r.val; omega)) (Fin.ext hm)

/-- The accumulator is written back after the last point of each core (`t = 8 a + 7`): there the running sum is the
    whole half's column sum, and the block written is columns `256 a … 256 a + 255` of the result. -/
theorem flushed_eq (t : Fin cfg2.N) (hf : (cfg2.win 1).flush t = true) :
    (dat2 V c).flushed 1 t = ((cfg2.win 1).blk t).view.read (Elt Ideal)
      (arr2 (fun (_ : Fin 1) j' => halfSum (fun r j => sgm (cur (V c main_v56) r j)) j')) := by
  have hN : t.val < 16 := lt_of_lt_of_eq t.isLt (show cfg2.N = 16 from N_2)
  have h7 : t.val % 8 = 7 := (flush2_1 t).mp hf
  obtain ⟨-, -, e0, e1⟩ := idx_facts t
  show (cfg2.win 1).cut (grid2.coords t) ((dat2 V c).after 1 t) = _
  rw [after2_1]
  funext y
  rw [View.read_apply]
  obtain ⟨u, j, rfl⟩ : ∃ (u : Fin 1) (j : Fin 256), y = ix2 u j := ⟨y 0, y 1, eq_ix2 y⟩
  show outsAt2 V c t.val t.isLt (ix2 u j) = _
  rw [outsAt_eq V c u j t.val t.isLt]
  have hj := j.isLt
  have hj' : ((((cfg2.win 1).blk t).view.emb (ix2 u j)) 1).val = 256 * (t.val / 8) + j.val := by
    show win2_1.index t 1 * 256 + 1 * j.val = _
    rw [e1]; omega
  refine Eq.trans ?_ (cast_eq _ _).symm
  refine Eq.trans ?_ (halfSum_eq V c (t.val / 8) (by omega) j ⟨_, idx2_lt1 _⟩ hj').symm
  unfold runSum
  rw [show (t.val % 8 + 1) * 8192 = 65536 by omega]

/-- The result array after the region: the two written blocks cover its 512 columns (column `j'` lies in the block
    written at point `8 (j' / 256) + 7`), so every entry is its half's column sum of the logistic function of
    the input. -/
theorem out1 : (dat2 (F := Ideal) V c).arrAt 1 cfg2.N
    = arr2 (fun (_ : Fin 1) j' => halfSum (fun r j => sgm (cur (V c main_v56) r j)) j') :=
  (dat2 V c).arrAt_eq_of_cover 1 _ (flushed_eq V c) fun i => by
    have h1 : (i 1).val < 512 := idx2_lt1 i
    have h0 : (i 0).val < 1 := idx2_lt0 i
    obtain ⟨t, ht⟩ : ∃ t : Fin cfg2.N, t.val = 8 * ((i 1).val / 256) + 7 :=
      ⟨⟨8 * ((i 1).val / 256) + 7, by rw [show cfg2.N = 16 from N_2]; omega⟩, rfl⟩
    obtain ⟨-, -, e0, e1⟩ := idx_facts t
    refine ⟨t, (flush2_1 t).mpr (by omega), ?_⟩
    show i ∈ ((View.whole main_v57).slice (win2_1.rect t)).set
    rw [View.set_slice_whole, Rect.mem_set_unit]
    intro a
    match a with
    | ⟨0, _⟩ =>
      show win2_1.index t 0 * 1 ≤ (i 0).val ∧ (i 0).val < win2_1.index t 0 * 1 + 1
      rw [e0]; omega
    | ⟨1, _⟩ =>
      show win2_1.index t 1 * 256 ≤ (i 1).val ∧ (i 1).val < win2_1.index t 1 * 256 + 256
      rw [e1]; omega

end Cert.KernelIdeal.Region2

end
-- ==== Proof.KerChainC1.lean ====
/-
  From the third region's entry to the fourth's: the sigmoid's column sums added over the two cores plus epsilon, and the take of the V-features by column index; the scattered edge features are carried through unchanged.
-/
import proofs.«407534_j31061203484850_2_alg».proof.Proof.Gen.KernelIdeal.Frame
import proofs.«407534_j31061203484850_2_alg».proof.Proof.Spec
import proofs.«407534_j31061203484850_2_alg».proof.Proof.KerArgs
import proofs.«407534_j31061203484850_2_alg».proof.Proof.Region2
import proofs.«407534_j31061203484850_2_alg».proof.Proof.KerChainA
import proofs.«407534_j31061203484850_2_alg».proof.Proof.LibRead
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.ChainC1

open Cert.KernelIdeal.KA

variable (m : (ℓ : Loc nD τ sig) → Buf (Elt Ideal) ℓ) (ρ : Dev nD → PrngReg) (c : Dev nD)

/-- A left fold by `and` from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 of an array whose every word is 1 is 1 everywhere. -/
private theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_one x _ fun n _ => hx n

/-- The column index words as the take reads them: row 1 of the index argument, carried unchanged from the first host
    stretch (nothing after it writes that array). -/
private theorem v3_eq (r : Fin 131072) :
    (W9 m ρ c (Proc.devRef .tc main_v3) : S131072.Idx → BitVec 32) (ValueIdx.ix1 r) = EI m c (ValueIdx.ix2 1 r) := by
  have e : W9 m ρ c (Proc.devRef .tc main_v3) = W1 m ρ c (Proc.devRef .tc main_v3) :=
    calc W9 m ρ c (Proc.devRef .tc main_v3)
      _ = W8 m ρ c (Proc.devRef .tc main_v3) := StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W7 m ρ c (Proc.devRef .tc main_v3) := W8_of_ne m ρ c main_v3 (by decide)
      _ = W6 m ρ c (Proc.devRef .tc main_v3) := StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W5 m ρ c (Proc.devRef .tc main_v3) := W6_of_ne m ρ c main_v3 (by decide)
      _ = W4 m ρ c (Proc.devRef .tc main_v3) := StableHlo.after_of_forall_not_mem (b := Proc.devRef .tc main_v3) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W3 m ρ c (Proc.devRef .tc main_v3) := StableHlo.after_of_forall_not_mem (b := Proc.devRef .tc main_v3) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W2 m ρ c (Proc.devRef .tc main_v3) := StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W1 m ρ c (Proc.devRef .tc main_v3) := W2_of_ne m ρ c main_v3 (by decide)
  rw [e]
  show StableHlo.after hostOps0 (W0 m ρ c) (Proc.devRef .tc main_v3) (ValueIdx.ix1 r) = _
  dsimp only [hostOps0]
  after_results
  -- the reshape drops the unit axis of the slice [1:2, 0:131072]
  show shapeCast S131072 (extractStridedSlice S1x131072 ![1, 0] (W0 m ρ c (Proc.devRef .tc main_arg1))
      slices_S2x131072_S1x131072_1_0) shapeCasts_S1x131072_S131072 (ValueIdx.ix1 r) = _
  rw [shapeCast_apply _ shapeCasts_S1x131072_S131072 (ValueIdx.ix1 r) (ValueIdx.ix2 (0 : Fin 1) r) (by
        rw [Shape.rowMajor_val_two, Shape.rowMajor_val_one]
        show 0 * 131072 + r.val = r.val
        rw [Nat.zero_mul, Nat.zero_add]),
    extractStridedSlice_apply ![1, 0] _ slices_S2x131072_S1x131072_1_0 (ValueIdx.ix2 (0 : Fin 1) r)
      (ValueIdx.ix2 (1 : Fin 2) r)
      (fun a => match a with
        | ⟨0, _⟩ => rfl
        | ⟨1, _⟩ => by show r.val = 0 + r.val; omega)]

/-- The normaliser row the fourth region finds. -/
theorem v62_eq (X : Big) (h56 : V7 m ρ c main_v56 = arr2 X) :
    V10 m ρ c main_v62 = arr2 (fun (_ : Fin 1) j => colsum (fun r j => sgm (X r j)) j + cEps) := by
  -- the third region's output row: the two cores' partial column sums of the sigmoid, side by side
  have e57 : W8 m ρ c (Proc.devRef .tc main_v57)
      = arr2 (fun (_ : Fin 1) j' => halfSum (fun r j => sgm (X r j)) j') := by
    refine (W8_arr m ρ c 1).trans ((Region2.out1 (V7 m ρ) c).trans ?_)
    rw [h56, cur_arr2]
  -- the take's operations do not write the normaliser row
  have e10 : W10 m ρ c (Proc.devRef .tc main_v62) = W9 m ρ c (Proc.devRef .tc main_v62) :=
    StableHlo.after_of_forall_not_mem (b := Proc.devRef .tc main_v62) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  refine e10.trans ?_
  show StableHlo.after hostOps3 (W8 m ρ c) (Proc.devRef .tc main_v62) = _
  generalize W8 m ρ c = W at e57 ⊢
  dsimp only [hostOps3]
  after_results
  rw [e57]
  refine ext2 fun r j => ?_
  have hr := r.isLt
  have hj := j.isLt
  rw [arr2_apply, ValueIdx.addf_apply, ValueIdx.addf_apply]
  -- column j of the left half and column j of the right half
  rw [extractStridedSlice_apply ![0, 0] _ slices_S1x512_S1x256_0_0 (ValueIdx.ix2 r j)
        (ValueIdx.ix2 (0 : Fin 1) (⟨j.val, by omega⟩ : Fin 512))
        (fun a => match a with
          | ⟨0, _⟩ => by show (0 : ℕ) = 0 + r.val; omega
          | ⟨1, _⟩ => by show j.val = 0 + j.val; omega),
      extractStridedSlice_apply ![0, 256] _ slices_S1x512_S1x256_0_256 (ValueIdx.ix2 r j)
        (ValueIdx.ix2 (0 : Fin 1) (⟨j.val + 256, by omega⟩ : Fin 512))
        (fun a => match a with
          | ⟨0, _⟩ => by show (0 : ℕ) = 0 + r.val; omega
          | ⟨1, _⟩ => by show j.val + 256 = 256 + j.val; omega),
      arr2_apply, arr2_apply, halfSum_add,
      broadcastInDim_apply ![] bcast_S_S1x256 _ (ValueIdx.ix2 r j) ValueIdx.ix0 (fun a => a.elim0)]
  rfl

set_option maxHeartbeats 1000000 in  -- the take's whole host stretch is read in one pass
/-- The gathered V-features the fourth region finds: with every index in range the take is the plain gather. -/
theorem v63_eq (hr : InRange (EI m c)) :
    V10 m ρ c main_v63 = arr2 (hV (H m c) (tr (Vw m c)) (Vb m c) (eIx (EI m c) 1)) := by
  -- the operand of the take: the V-features, untouched by the stretch before the take
  have e18 : W9 m ρ c (Proc.devRef .tc main_v18_2)
      = arr2 (fun r j => mm (H m c) (tr (Vw m c)) r j + Vb m c j) :=
    (StableHlo.after_of_forall_not_mem (b := Proc.devRef .tc main_v18_2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (ChainA.v18_2_eq m ρ c)
  have e3 := v3_eq m ρ c
  show StableHlo.after hostOps3_1 (W9 m ρ c) (Proc.devRef .tc main_v63) = _
  generalize W9 m ρ c = W at e18 e3 ⊢
  dsimp only [hostOps3_1]
  after_results_simp
  simp only [StableHlo.TRef.ofBuf, StableHlo.TRef.toBuf, cast_cast, cast_eq]
  obtain ⟨v3, hv3⟩ : ∃ v : S131072.Idx → BitVec 32, v = W (Proc.devRef .tc main_v3) := ⟨_, rfl⟩
  rw [← hv3] at e3 ⊢
  -- the normalised column index, as the column vector the gather and the fill mask both read
  generalize hidx : broadcastInDim S131072x1 ![0] bcast_S131072_S131072x1_0
      (select (cmpi CmpIPredicate.slt v3 (broadcastInDim S131072 ![] bcast_S_S131072 (constantI S_ 32 0#32)))
        (addi v3 (broadcastInDim S131072 ![] bcast_S_S131072 (constantI S_ 32 131072#32))) v3) = idx
  have hidx' : ∀ (r : Fin 131072) (u : Fin 1), idx (ValueIdx.ix2 r u) = nrm (EI m c (ValueIdx.ix2 1 r)) := by
    intro r u
    rw [← hidx, broadcastInDim_apply ![0] bcast_S131072_S131072x1_0 _ (ValueIdx.ix2 r u) (ValueIdx.ix1 r)
      (fun a => match a with | ⟨0, _⟩ => rfl)]
    show Scalar.select (IntOp.cmpi .slt (v3 (ValueIdx.ix1 r)) 0#32) (v3 (ValueIdx.ix1 r) + 131072#32)
      (v3 (ValueIdx.ix1 r)) = _
    rw [e3, LibRead.nrm_eq]
  -- in range both comparisons of the fill mask answer one at every row
  generalize hM : andi (cmpi CmpIPredicate.sge idx (broadcastInDim S131072x1 ![] bcast_S_S131072x1 (constantI S_ 32 0#32)))
      (cmpi CmpIPredicate.sle idx (broadcastInDim S131072x1 ![0, 1] bcast_S1x1_S131072x1_0_1
        (broadcastInDim S1x1 ![1] bcast_S1_S1x1_1 (constantI S1 32 131071#32)))) = M
  have hmask2 : ∀ (a : Fin 131072) (b : Fin 1), M (ValueIdx.ix2 a b) = 1#1 := by
    intro a b
    rw [← hM]
    show IntOp.andi (IntOp.cmpi .sge (idx (ValueIdx.ix2 a b)) 0#32)
      (IntOp.cmpi .sle (idx (ValueIdx.ix2 a b)) 131071#32) = 1#1
    rw [hidx', (LibRead.mask_true _ (hr 1 a)).1, (LibRead.mask_true _ (hr 1 a)).2]
    decide
  have hmask : ∀ i, M i = 1#1 := fun i => by rw [ValueIdx.eq_ix2 i]; exact hmask2 _ _
  refine ext2 fun r j => ?_
  rw [ValueIdx.select_apply,
    broadcastInDim_apply ![0] bcast_S131072_S131072x256_0 _ (ValueIdx.ix2 r j) (ValueIdx.ix1 r)
      (fun a => match a with | ⟨0, _⟩ => rfl),
    reduce_andi_one _ _ _ _ _ rfl hmask, ValueIdx.select_one,
    show gather_S131072x256_S131072x1_S131072x256_1_0_n_n_0_1_1256 = gathD from rfl,
    LibRead.gather_apply, hidx', e18, arr2_apply, arr2_apply]
  rfl

/-- The third region and the stretch after it leave the scattered edge features alone. -/
theorem v56_keep : V10 m ρ c main_v56 = V7 m ρ c main_v56 :=
  calc W10 m ρ c (Proc.devRef .tc main_v56)
    _ = W9 m ρ c (Proc.devRef .tc main_v56) := StableHlo.after_of_forall_not_mem (b := Proc.devRef .tc main_v56) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W8 m ρ c (Proc.devRef .tc main_v56) := StableHlo.after_of_forall_not_mem (b := Proc.devRef .tc main_v56) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v56) := (W8_arr m ρ c 0).trans (((dat2 (V7 m ρ) c).arrAt_in 0 rfl _).trans (A_eq2 (V7 m ρ) c 0))

end Cert.KernelIdeal.ChainC1

end
-- ==== Proof.Region3.lean ====
/-
  The fourth region (the normalised sigmoid, and its product with the gathered V-features summed per core).
-/
import proofs.«407534_j31061203484850_2_alg».proof.Proof.Gen.KernelIdeal.Frame
import proofs.«407534_j31061203484850_2_alg».proof.Proof.Spec
import Idealize.ShloMosaic.Lib.Pipeline.Value
import Idealize.ShloMosaic.PureOps.Ideal.Laws
import Idealize.ShloMosaic.Lib.IdealHost

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.Region3

section Pieces
variable {F : FTy → Type} [FloatOps F]

theorem hz : (![0, 0] : Fin 2 → Nat) = fun _ => 0 := funext fun a => by fin_cases a <;> rfl

/-- At a first point the row-block output holds the normalised sigmoid of the staged rows. -/
theorem piece_A_3 (c : Dev nD) (i : grid3.Coords) (a2 : Memref sig .tc .vmem S4096x256 .f32) (h2 : a2.IsWhole)
    (a3 : Memref sig .tc .vmem S1x256 .f32) (h3 : a3.IsWhole) (a4 : Memref sig .tc .vmem S4096x256 .f32) (h4 : a4.IsWhole)
    (a5 : Memref sig .tc .vmem S4096x256 .f32) (h5 : a5.IsWhole) (a6 : Memref sig .tc .vmem S1x256 .f32) (h6 : a6.IsWhole)
    (hc : cond3_0 i) (x0 : Vec F S4096x256 .f32) (x1 : Vec F S1x256 .f32) (x2 : Vec F S4096x256 .f32) :
    out3_A_3 c i a2 h2 a3 h3 a4 h4 a5 h5 a6 h6 hc x0 x1 x2 = k3_pay2 x0 x1 := by
  unfold out3_A_3
  rw [View.read_writes_eq_canon _ _ _ (cover3_A_3 c i a2 h2 a3 h3 a4 h4 a5 h5 a6 h6 hc x0 x1 x2)]
  unfold kernelRun3_A
  dsimp only
  sl_unfold_words
  rw [View.canon_unit_zero hz]
  simp only [View.readAt_eq_ld, h2.read_unread, h3.read_unread, View.ld_unit_zero (S := S4096x256) hz,
    View.ld_unit_zero (S := S1x256) hz]

/-- At every other point too. -/
theorem piece_B_3 (c : Dev nD) (i : grid3.Coords) (a2 : Memref sig .tc .vmem S4096x256 .f32) (h2 : a2.IsWhole)
    (a3 : Memref sig .tc .vmem S1x256 .f32) (h3 : a3.IsWhole) (a4 : Memref sig .tc .vmem S4096x256 .f32) (h4 : a4.IsWhole)
    (a5 : Memref sig .tc .vmem S4096x256 .f32) (h5 : a5.IsWhole) (a6 : Memref sig .tc .vmem S1x256 .f32) (h6 : a6.IsWhole)
    (hc : ¬cond3_0 i) (x0 : Vec F S4096x256 .f32) (x1 : Vec F S1x256 .f32) (x2 : Vec F S4096x256 .f32)
    (xo : Vec F S1x256 .f32) :
    out3_B_3 c i a2 h2 a3 h3 a4 h4 a5 h5 a6 h6 hc x0 x1 x2 xo = k3_pay2 x0 x1 := by
  unfold out3_B_3
  rw [View.read_writes_eq_canon _ _ _ (cover3_B_3 c i a2 h2 a3 h3 a4 h4 a5 h5 a6 h6 hc x0 x1 x2 xo)]
  unfold kernelRun3_B
  dsimp only
  sl_unfold_words
  rw [View.canon_unit_zero hz]
  simp only [View.readAt_eq_ld, h2.read_unread, h3.read_unread, View.ld_unit_zero (S := S4096x256) hz,
    View.ld_unit_zero (S := S1x256) hz]

/-- At a first point the accumulator is reset to the zero row and the block's column sums are added to it. -/
theorem piece_A_4 (c : Dev nD) (i : grid3.Coords) (a2 : Memref sig .tc .vmem S4096x256 .f32) (h2 : a2.IsWhole)
    (a3 : Memref sig .tc .vmem S1x256 .f32) (h3 : a3.IsWhole) (a4 : Memref sig .tc .vmem S4096x256 .f32) (h4 : a4.IsWhole)
    (a5 : Memref sig .tc .vmem S4096x256 .f32) (h5 : a5.IsWhole) (a6 : Memref sig .tc .vmem S1x256 .f32) (h6 : a6.IsWhole)
    (hc : cond3_0 i) (x0 : Vec F S4096x256 .f32) (x1 : Vec F S1x256 .f32) (x2 : Vec F S4096x256 .f32) :
    out3_A_4 c i a2 h2 a3 h3 a4 h4 a5 h5 a6 h6 hc x0 x1 x2 = k3_pay3 x0 x1 (k3_pay1 (F := F)) x2 := by
  unfold out3_A_4
  rw [View.read_writes_eq_canon _ _ _ (cover3_A_4 c i a2 h2 a3 h3 a4 h4 a5 h5 a6 h6 hc x0 x1 x2)]
  unfold kernelRun3_A
  dsimp only
  sl_unfold_words
  rw [View.canon_cons_unit_zero (S := S1x256) hz, View.readCov_unit_zero (S := S1x256) _ hz]
  simp only [View.readAt_eq_ld, h2.read_unread, h3.read_unread, h4.read_unread, View.ld_unit_zero (S := S4096x256) hz,
    View.ld_unit_zero (S := S1x256) hz]

/-- At every other point the block's column sums are added to what the point before left. -/
theorem piece_B_4 (c : Dev nD) (i : grid3.Coords) (a2 : Memref sig .tc .vmem S4096x256 .f32) (h2 : a2.IsWhole)
    (a3 : Memref sig .tc .vmem S1x256 .f32) (h3 : a3.IsWhole) (a4 : Memref sig .tc .vmem S4096x256 .f32) (h4 : a4.IsWhole)
    (a5 : Memref sig .tc .vmem S4096x256 .f32) (h5 : a5.IsWhole) (a6 : Memref sig .tc .vmem S1x256 .f32) (h6 : a6.IsWhole)
    (hc : ¬cond3_0 i) (x0 : Vec F S4096x256 .f32) (x1 : Vec F S1x256 .f32) (x2 : Vec F S4096x256 .f32)
    (xo : Vec F S1x256 .f32) :
    out3_B_4 c i a2 h2 a3 h3 a4 h4 a5 h5 a6 h6 hc x0 x1 x2 xo = k3_pay3 x0 x1 xo x2 := by
  unfold out3_B_4
  rw [View.read_writes_eq_canon _ _ _ (cover3_B_4 c i a2 h2 a3 h3 a4 h4 a5 h5 a6 h6 hc x0 x1 x2 xo)]
  unfold kernelRun3_B
  dsimp only
  sl_unfold_words
  rw [View.canon_unit_zero hz]
  simp only [View.readAt_eq_ld, h2.read_unread, h3.read_unread, h4.read_unread, h6.read_unread,
    View.ld_unit_zero (S := S4096x256) hz, View.ld_unit_zero (S := S1x256) hz]

end Pieces

section Payloads
open ValueIdx

/-- The logistic function of the extended reals, its one written as the bit pattern of 1.0. -/
theorem logistic_eq_sgm (x : EReal) : Ideal.logistic x = sgm x := by
  unfold Ideal.logistic sgm cOne
  rw [Ideal.ofBits_one_f32]

/-- The zero row the reset stores. -/
theorem pay1_apply (j : Fin 256) : (k3_pay1 (F := Ideal)) (ix2 0 j) = 0 := by
  unfold k3_pay1
  exact Ideal.ofBits_zero_f32

/-- Entry (r, j) of the first payload: the sigmoid of the staged entry over the normaliser of its column. -/
theorem pay2_apply (x0 : Vec Ideal S4096x256 .f32) (x1 : Vec Ideal S1x256 .f32) (r : Fin 4096) (j : Fin 256) :
    k3_pay2 x0 x1 (ix2 r j) = Ideal.div (sgm (x0 (ix2 r j))) (x1 (ix2 0 j)) := by
  unfold k3_pay2
  have e1 : shapeCast S4096x256 x0 shapeCasts_S4096x256_S4096x256 = x0 := shapeCast_self _ _
  have e2 : shapeCast S1x256 x1 shapeCasts_S1x256_S1x256 = x1 := shapeCast_self _ _
  have e3 : broadcastTo S4096x256 x1 broadcasts_S1x256_S4096x256 (ix2 r j) = x1 (ix2 0 j) :=
    broadcastTo_apply x1 broadcasts_S1x256_S4096x256 (ix2 r j) (ix2 0 j)
      (fun a => by match a with | ⟨0, _⟩ => rfl | ⟨1, _⟩ => rfl)
  show Ideal.div (Ideal.logistic (shapeCast S4096x256 x0 shapeCasts_S4096x256_S4096x256 (ix2 r j)))
      (broadcastTo S4096x256 (shapeCast S1x256 x1 shapeCasts_S1x256_S1x256) broadcasts_S1x256_S4096x256 (ix2 r j)) = _
  rw [e1, e2, e3, logistic_eq_sgm]

/-- A lane reduction over the 4096 rows of a block, read at a column: the sum over the rows. -/
theorem colred_apply (v : FVec Ideal S4096x256 .f32) (hacc : (0x00000000#32 : BitVec 32) = 0x00000000#32) (j : Fin 256) :
    multiReduction .add [0] S256 v 0x00000000#32 reduces_S4096x256_S256 (.inl rfl) hacc (ix1 j)
      = ∑ r : Fin 4096, v (ix2 r j) := by
  refine (Ideal.multiReduction_add_single v 0x00000000#32 reduces_S4096x256_S256 (.inl rfl) hacc (ix1 j)).trans ?_
  refine Finset.sum_congr rfl fun r _ => congrArg v ?_
  funext a
  apply Fin.ext
  match a with
  | ⟨0, _⟩ => rfl
  | ⟨1, _⟩ => rfl

/-- Column j of the second payload: the accumulator's entry plus the block's column sum of payload · V-features. -/
theorem pay3_apply (x0 : Vec Ideal S4096x256 .f32) (x1 acc : Vec Ideal S1x256 .f32) (x2 : Vec Ideal S4096x256 .f32)
    (j : Fin 256) :
    k3_pay3 x0 x1 acc x2 (ix2 0 j)
      = acc (ix2 0 j) + ∑ r : Fin 4096, Ideal.div (sgm (x0 (ix2 r j))) (x1 (ix2 0 j)) * x2 (ix2 r j) := by
  unfold k3_pay3
  have e1 : shapeCast S1x256 acc shapeCasts_S1x256_S1x256 = acc := shapeCast_self _ _
  have e2 : shapeCast S4096x256 x2 shapeCasts_S4096x256_S4096x256 = x2 := shapeCast_self _ _
  show shapeCast S1x256 acc shapeCasts_S1x256_S1x256 (ix2 0 j)
      + shapeCast S1x256 (multiReduction .add [0] S256 (mulf (k3_pay2 x0 x1) (shapeCast S4096x256 x2 shapeCasts_S4096x256_S4096x256))
          0x00000000#32 reduces_S4096x256_S256 (.inl rfl) rfl) shapeCasts_S256_S1x256 (ix2 0 j) = _
  rw [e1, e2]
  refine congrArg (acc (ix2 0 j) + ·) ?_
  refine (shapeCast_apply _ shapeCasts_S256_S1x256 (ix2 0 j) (ix1 j) ?_).trans ?_
  · rw [Shape.rowMajor_val_one, Shape.rowMajor_val_two]; show j.val = 0 * 256 + j.val; omega
  refine (colred_apply _ rfl j).trans ?_
  refine Finset.sum_congr rfl fun r _ => ?_
  show k3_pay2 x0 x1 (ix2 r j) * x2 (ix2 r j) = _
  rw [pay2_apply]

end Payloads

section Blocks
open ValueIdx
variable (V : (c : Dev nD) → (b : Ref sig .tc) → Buf (Elt Ideal) ((c : Thread nD τ).loc b)) (c : Dev nD)

/-- Point t stages row block t of the two big inputs and of the row-block output, the whole normaliser row,
    and columns [256·(t / 16), 256·(t / 16) + 256) of the accumulator row. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = t.val / 16 :=
  (by decide +kernel : ∀ t : Fin grid3.N, _)

/-- The staged blocks, at their literal shapes. -/
abbrev xblk (t : Fin cfg3.N) : Vec Ideal S4096x256 .f32 := iblk3 V c 0 t
abbrev nblk (t : Fin cfg3.N) : Vec Ideal S1x256 .f32 := iblk3 V c 1 t
abbrev vblk (t : Fin cfg3.N) : Vec Ideal S4096x256 .f32 := iblk3 V c 2 t

theorem xblk_apply (t : Fin cfg3.N) (r : Fin 4096) (j : Fin 256) (R : Fin 131072) (hR : R.val = 4096 * t.val + r.val) :
    xblk V c t (ix2 r j) = V c main_v56 (ix2 R j) := by
  show V c main_v56 (((cfg3.win 0).blk t).view.emb (ix2 r j)) = V c main_v56 (ix2 R j)
  refine congrArg (V c main_v56) (funext fun a => Fin.ext ?_)
  match a with
  | ⟨0, _⟩ => show win3_0.index t (0 : Fin 2) * 4096 + 1 * r.val = R.val; rw [(idx_facts t).1, hR]; omega
  | ⟨1, _⟩ => show win3_0.index t (1 : Fin 2) * 256 + 1 * j.val = j.val; rw [(idx_facts t).2.1]; omega

theorem nblk_apply (t : Fin cfg3.N) (j : Fin 256) :
    nblk V c t (ix2 0 j) = V c main_v62 (ix2 0 j) := by
  show V c main_v62 (((cfg3.win 1).blk t).view.emb (ix2 0 j)) = V c main_v62 (ix2 0 j)
  refine congrArg (V c main_v62) (funext fun a => Fin.ext ?_)
  match a with
  | ⟨0, _⟩ => show win3_1.index t (0 : Fin 2) * 1 + 1 * 0 = 0; rw [(idx_facts t).2.2.1]
  | ⟨1, _⟩ => show win3_1.index t (1 : Fin 2) * 256 + 1 * j.val = j.val; rw [(idx_facts t).2.2.2.1]; omega

theorem vblk_apply (t : Fin cfg3.N) (r : Fin 4096) (j : Fin 256) (R : Fin 131072) (hR : R.val = 4096 * t.val + r.val) :
    vblk V c t (ix2 r j) = V c main_v63 (ix2 R j) := by
  show V c main_v63 (((cfg3.win 2).blk t).view.emb (ix2 r j)) = V c main_v63 (ix2 R j)
  refine congrArg (V c main_v63) (funext fun a => Fin.ext ?_)
  match a with
  | ⟨0, _⟩ => show win3_2.index t (0 : Fin 2) * 4096 + 1 * r.val = R.val; rw [(idx_facts t).2.2.2.2.1, hR]; omega
  | ⟨1, _⟩ => show win3_2.index t (1 : Fin 2) * 256 + 1 * j.val = j.val; rw [(idx_facts t).2.2.2.2.2.1]; omega

end Blocks

section Outs
open ValueIdx
variable (V : (c : Dev nD) → (b : Ref sig .tc) → Buf (Elt Ideal) ((c : Thread nD τ).loc b)) (c : Dev nD)

/-- After every point the row-block output's buffer holds the first payload of the point's blocks. -/
theorem outs_fst (t : Fin cfg3.N) : (outsAt3 V c t.val t.isLt).1 = k3_pay2 (xblk V c t) (nblk V c t) := by
  by_cases h0 : t.val % 16 = 0
  · rw [outsAt3_A V c t h0]
    dsimp only
    exact piece_A_3 (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)
  · rw [outsAt3_B V c t h0]
    dsimp only
    exact piece_B_3 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t)
      (outsAt3 V c (t.val - 1) (Nat.lt_of_le_of_lt (Nat.sub_le _ _) t.isLt)).2

/-- At the first point of a core's run the accumulator's buffer holds the zero row plus the block's column sums. -/
theorem outs_snd_A (t : Fin cfg3.N) (h0 : t.val % 16 = 0) :
    (outsAt3 V c t.val t.isLt).2 = k3_pay3 (xblk V c t) (nblk V c t) (k3_pay1 (F := Ideal)) (vblk V c t) := by
  rw [outsAt3_A V c t h0]
  dsimp only
  exact piece_A_4 (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)

/-- At every other point it holds what the point before left plus the block's column sums. -/
theorem outs_snd_B (t : Fin cfg3.N) (h0 : ¬t.val % 16 = 0) :
    (outsAt3 V c t.val t.isLt).2 = k3_pay3 (xblk V c t) (nblk V c t)
      (outsAt3 V c (t.val - 1) (Nat.lt_of_le_of_lt (Nat.sub_le _ _) t.isLt)).2 (vblk V c t) := by
  rw [outsAt3_B V c t h0]
  dsimp only
  exact piece_B_4 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t)
    (outsAt3 V c (t.val - 1) (Nat.lt_of_le_of_lt (Nat.sub_le _ _) t.isLt)).2

end Outs

section RowBlocks
open ValueIdx
variable (V : (c : Dev nD) → (b : Ref sig .tc) → Buf (Elt Ideal) ((c : Thread nD τ).loc b)) (c : Dev nD)

/-- The normalised sigmoid of the whole input, index by index. -/
abbrev efin : S131072x256.Idx → EReal :=
  arr2 (fun r j => Ideal.div (sgm (cur (V c main_v56) r j)) (cur (V c main_v62) 0 j))

/-- What point t writes back to the row-block output is block t of the normalised sigmoid. -/
theorem flushed3_eq (t : Fin cfg3.N) :
    (dat3 (F := Ideal) V c).flushed 3 t = ((cfg3.win 3).blk t).view.read (Elt Ideal) (efin V c) := by
  show (cfg3.win 3).cut (grid3.coords t) ((dat3 (F := Ideal) V c).after 3 t) = _
  rw [after3_3, outs_fst]
  funext y
  obtain ⟨r, j, rfl⟩ : ∃ (r : Fin 4096) (j : Fin 256), y = ix2 r j := ⟨y 0, y 1, eq_ix2 y⟩
  have ht : t.val < 32 := lt_of_lt_of_eq t.isLt N_3
  have hr : r.val < 4096 := r.isLt
  have hlt : 4096 * t.val + r.val < 131072 := by omega
  refine (pay2_apply (xblk V c t) (nblk V c t) r j).trans ?_
  rw [xblk_apply V c t r j ⟨4096 * t.val + r.val, hlt⟩ rfl, nblk_apply V c t j]
  show efin V c (ix2 ⟨4096 * t.val + r.val, hlt⟩ j) = efin V c (((cfg3.win 3).blk t).view.emb (ix2 r j))
  refine congrArg (efin V c) (funext fun a => Fin.ext ?_)
  match a with
  | ⟨0, _⟩ => show 4096 * t.val + r.val = win3_3.index t (0 : Fin 2) * 4096 + 1 * r.val; rw [(idx_facts t).2.2.2.2.2.2.1]; omega
  | ⟨1, _⟩ => show j.val = win3_3.index t (1 : Fin 2) * 256 + 1 * j.val; rw [(idx_facts t).2.2.2.2.2.2.2.1]; omega

/-- An index of the row-block output is in point t's block iff each coordinate is in the block's range. -/
theorem mem_blk3 (t : Fin cfg3.N) (i : S131072x256.Idx) :
    i ∈ ((cfg3.win 3).blk t).view.set ↔ ∀ a : Fin 2, win3_3.index t a * S4096x256.size a ≤ (i a).val
      ∧ (i a).val < win3_3.index t a * S4096x256.size a + S4096x256.size a := by
  show i ∈ ((View.whole main_v64_0).slice (win3_3.rect t)).set ↔ _
  rw [View.set_slice_whole, Rect.mem_set_unit]
  exact Iff.rfl

/-- Every row lies in the block of the point r / 4096, so the output ends at the normalised sigmoid. -/
theorem rowBlocks_array : (dat3 (F := Ideal) V c).arrAt 3 cfg3.N
    = arr2 (fun r j => Ideal.div (sgm (cur (V c main_v56) r j)) (cur (V c main_v62) 0 j)) := by
  refine (dat3 (F := Ideal) V c).arrAt_eq_of_cover 3 (efin V c) (fun t _ => flushed3_eq V c t) fun i => ?_
  have hi0 : (i 0).val < 131072 := (i 0).isLt
  have hi1 : (i 1).val < 256 := (i 1).isLt
  have hN : cfg3.N = 32 := N_3
  refine ⟨⟨(i 0).val / 4096, by rw [hN]; omega⟩, flush3_3 _, ?_⟩
  rw [mem_blk3]
  intro a
  obtain ⟨-, -, -, -, -, -, e0, e1, -, -⟩ := idx_facts ⟨(i 0).val / 4096, by rw [hN]; omega⟩
  match a with
  | ⟨0, _⟩ =>
    show win3_3.index _ (0 : Fin 2) * 4096 ≤ (i 0).val ∧ (i 0).val < win3_3.index _ (0 : Fin 2) * 4096 + 4096
    rw [e0]; dsimp only; omega
  | ⟨1, _⟩ =>
    show win3_3.index _ (1 : Fin 2) * 256 ≤ (i 1).val ∧ (i 1).val < win3_3.index _ (1 : Fin 2) * 256 + 256
    rw [e1]; omega

end RowBlocks

section Accumulator
open ValueIdx
variable (V : (c : Dev nD) → (b : Ref sig .tc) → Buf (Elt Ideal) ((c : Thread nD τ).loc b)) (c : Dev nD)

/-- Entry (r, j) of the normalised sigmoid times the gathered V-features. -/
abbrev prodAt : Big := fun r j =>
  Ideal.div (sgm (cur (V c main_v56) r j)) (cur (V c main_v62) 0 j) * cur (V c main_v63) r j

theorem prodAt_congr {r r' : Fin 131072} {j j' : Fin 256} (hr : r.val = r'.val) (hj : j.val = j'.val) :
    prodAt V c r j = prodAt V c r' j' := by
  obtain rfl := Fin.ext hr
  obtain rfl := Fin.ext hj
  rfl

/-- The same with the row a natural number, zero past the array. -/
def term (n : ℕ) (j : Fin 256) : EReal := if h : n < 131072 then prodAt V c ⟨n, h⟩ j else 0

/-- The column sums of point t's block are the sums over rows [4096·t, 4096·t + 4096) of the arrays. -/
theorem blocksum (t : Fin cfg3.N) (j : Fin 256) :
    ∑ r : Fin 4096, Ideal.div (sgm (xblk V c t (ix2 r j))) (nblk V c t (ix2 0 j)) * vblk V c t (ix2 r j)
      = ∑ x ∈ Finset.range 4096, term V c (4096 * t.val + x) j := by
  rw [Finset.sum_range]
  refine Finset.sum_congr rfl fun r _ => ?_
  have ht : t.val < 32 := lt_of_lt_of_eq t.isLt N_3
  have hr : r.val < 4096 := r.isLt
  have hlt : 4096 * t.val + r.val < 131072 := by omega
  rw [term, dif_pos hlt]
  show _ = Ideal.div (sgm (V c main_v56 (ix2 ⟨4096 * t.val + r.val, hlt⟩ j))) (V c main_v62 (ix2 0 j))
      * V c main_v63 (ix2 ⟨4096 * t.val + r.val, hlt⟩ j)
  rw [xblk_apply V c t r j ⟨4096 * t.val + r.val, hlt⟩ rfl, nblk_apply V c t j,
    vblk_apply V c t r j ⟨4096 * t.val + r.val, hlt⟩ rfl]

/-- THE RUNNING SUM. After the k-th point of core q's run the accumulator's column j holds the sum over the first
    4096·(k + 1) rows of that core's half. -/
theorem acc_eq (j : Fin 256) (q : ℕ) : ∀ (k : ℕ) (_ : k < 16) (h : 16 * q + k < cfg3.N),
    (outsAt3 V c (16 * q + k) h).2 (ix2 0 j) = ∑ x ∈ Finset.range (4096 * (k + 1)), term V c (65536 * q + x) j
  | 0, _, h => by
    have e := outs_snd_A V c ⟨16 * q + 0, h⟩ (by show (16 * q + 0) % 16 = 0; omega)
    refine (congrFun e (ix2 0 j)).trans ?_
    rw [pay3_apply, pay1_apply, zero_add, blocksum]
    refine Finset.sum_congr rfl fun x _ => congrArg (term V c · j) ?_
    show 4096 * (16 * q + 0) + x = 65536 * q + x
    omega
  | k + 1, hk, h => by
    have hB : ¬(16 * q + (k + 1)) % 16 = 0 := by omega
    have e := outs_snd_B V c ⟨16 * q + (k + 1), h⟩ hB
    refine (congrFun e (ix2 0 j)).trans ?_
    rw [pay3_apply, blocksum]
    have ih := acc_eq j q k (by omega) (Nat.lt_of_succ_lt h)
    show (outsAt3 V c (16 * q + k) _).2 (ix2 0 j) + _ = _
    rw [ih, show 4096 * (k + 1 + 1) = 4096 * (k + 1) + 4096 by omega, Finset.sum_range_add]
    refine congrArg (_ + ·) (Finset.sum_congr rfl fun x _ => congrArg (term V c · j) ?_)
    show 4096 * (16 * q + (k + 1)) + x = 65536 * q + (4096 * (k + 1) + x)
    omega

/-- A half sum, its rows counted by a natural number. -/
theorem halfSum_eq (q : ℕ) (hq : q < 2) (j : Fin 256) (j' : Fin 512) (hj' : j'.val = 256 * q + j.val) :
    halfSum (prodAt V c) j' = ∑ x ∈ Finset.range 65536, term V c (65536 * q + x) j := by
  unfold halfSum
  rw [Finset.sum_range]
  refine Finset.sum_congr rfl fun r _ => ?_
  have hr : r.val < 65536 := r.isLt
  have hj : j.val < 256 := j.isLt
  have hlt : 65536 * q + r.val < 131072 := by omega
  have e1 : j'.val / 256 = q := by omega
  have e2 : j'.val % 256 = j.val := by omega
  rw [term, dif_pos hlt]
  exact prodAt_congr V c (by show j'.val / 256 * 65536 + r.val = 65536 * q + r.val; rw [e1]; omega) e2

/-- The per-core column sums as an array of shape [1, 512]. -/
def accfin : S1x512.Idx → EReal := arr2 (fun (_ : Fin 1) j' => halfSum (prodAt V c) j')

/-- After the last point of a core's run the accumulator's block holds that core's half sums. -/
theorem acc_block (t : Fin cfg3.N) (h15 : t.val % 16 = 15) (j : Fin 256) (j' : Fin 512)
    (hj' : j'.val = 256 * (t.val / 16) + j.val) :
    (outsAt3 V c t.val t.isLt).2 (ix2 0 j) = accfin V c (ix2 0 j') := by
  have ht : t.val < 32 := lt_of_lt_of_eq t.isLt N_3
  have e : ∀ (n : ℕ) (hn : n < cfg3.N), n = t.val → (outsAt3 V c n hn).2 = (outsAt3 V c t.val t.isLt).2 :=
    fun n hn e => by subst e; rfl
  have hlt : 16 * (t.val / 16) + 15 < cfg3.N := lt_of_lt_of_eq (by omega : 16 * (t.val / 16) + 15 < 32) N_3.symm
  rw [← e (16 * (t.val / 16) + 15) hlt (by omega)]
  exact (acc_eq V c j (t.val / 16) 15 (by omega) hlt).trans (halfSum_eq V c (t.val / 16) (by omega) j j' hj').symm

/-- Point t's block of an accumulator-row array reads columns [256·(t / 16), 256·(t / 16) + 256) of it. -/
theorem read_blk4 (G : S1x512.Idx → EReal) (t : Fin cfg3.N) (j : Fin 256) (j' : Fin 512)
    (hj' : j'.val = 256 * (t.val / 16) + j.val) :
    ((cfg3.win 4).blk t).view.read (Elt Ideal) G (ix2 0 j) = G (ix2 0 j') := by
  show G (((cfg3.win 4).blk t).view.emb (ix2 0 j)) = G (ix2 0 j')
  refine congrArg G (funext fun a => Fin.ext ?_)
  match a with
  | ⟨0, _⟩ => show win3_4.index t (0 : Fin 2) * 1 + 1 * 0 = 0; rw [(idx_facts t).2.2.2.2.2.2.2.2.1]
  | ⟨1, _⟩ =>
    show win3_4.index t (1 : Fin 2) * 256 + 1 * j.val = j'.val
    rw [(idx_facts t).2.2.2.2.2.2.2.2.2, hj']; omega

/-- What a core's last point writes back to the accumulator row is its block of the half sums. -/
theorem flushed4_eq (t : Fin cfg3.N) (hf : (cfg3.win 4).flush t = true) :
    (dat3 (F := Ideal) V c).flushed 4 t = ((cfg3.win 4).blk t).view.read (Elt Ideal) (accfin V c) := by
  have h15 : t.val % 16 = 15 := (flush3_4 t).mp hf
  have ht : t.val < 32 := lt_of_lt_of_eq t.isLt N_3
  show (cfg3.win 4).cut (grid3.coords t) ((dat3 (F := Ideal) V c).after 4 t) = _
  rw [after3_4]
  funext y
  obtain ⟨p, j, rfl⟩ : ∃ (p : Fin 1) (j : Fin 256), y = ix2 p j := ⟨y 0, y 1, eq_ix2 y⟩
  obtain rfl : p = 0 := Subsingleton.elim _ _
  have hj : j.val < 256 := j.isLt
  have hlt : 256 * (t.val / 16) + j.val < 512 := by omega
  exact (acc_block V c t h15 j ⟨256 * (t.val / 16) + j.val, hlt⟩ rfl).trans
    (read_blk4 (accfin V c) t j ⟨256 * (t.val / 16) + j.val, hlt⟩ rfl).symm

/-- An index of the accumulator row is in point t's block iff each coordinate is in the block's range. -/
theorem mem_blk4 (t : Fin cfg3.N) (i : S1x512.Idx) :
    i ∈ ((cfg3.win 4).blk t).view.set ↔ ∀ a : Fin 2, win3_4.index t a * S1x256.size a ≤ (i a).val
      ∧ (i a).val < win3_4.index t a * S1x256.size a + S1x256.size a := by
  show i ∈ ((View.whole main_v64_1).slice (win3_4.rect t)).set ↔ _
  rw [View.set_slice_whole, Rect.mem_set_unit]
  exact Iff.rfl

/-- Every column j' lies in the block the last point of core j' / 256 writes back, so the row ends at the half sums. -/
theorem accumulator_array : (dat3 (F := Ideal) V c).arrAt 4 cfg3.N
    = arr2 (fun (_ : Fin 1) j' => halfSum (fun r j =>
        Ideal.div (sgm (cur (V c main_v56) r j)) (cur (V c main_v62) 0 j) * cur (V c main_v63) r j) j') := by
  refine (dat3 (F := Ideal) V c).arrAt_eq_of_cover 4 (accfin V c) (fun t hf => flushed4_eq V c t hf) fun i => ?_
  have hi0 : (i 0).val < 1 := (i 0).isLt
  have hi1 : (i 1).val < 512 := (i 1).isLt
  have hlt : 16 * ((i 1).val / 256) + 15 < cfg3.N :=
    lt_of_lt_of_eq (by omega : 16 * ((i 1).val / 256) + 15 < 32) N_3.symm
  refine ⟨⟨16 * ((i 1).val / 256) + 15, hlt⟩,
    (flush3_4 _).mpr (by show (16 * ((i 1).val / 256) + 15) % 16 = 15; omega), ?_⟩
  rw [mem_blk4]
  intro a
  obtain ⟨-, -, -, -, -, -, -, -, e0, e1⟩ := idx_facts ⟨16 * ((i 1).val / 256) + 15, hlt⟩
  match a with
  | ⟨0, _⟩ =>
    show win3_4.index _ (0 : Fin 2) * 1 ≤ (i 0).val ∧ (i 0).val < win3_4.index _ (0 : Fin 2) * 1 + 1
    rw [e0]; omega
  | ⟨1, _⟩ =>
    show win3_4.index _ (1 : Fin 2) * 256 ≤ (i 1).val ∧ (i 1).val < win3_4.index _ (1 : Fin 2) * 256 + 256
    rw [e1]; dsimp only; omega

end Accumulator

variable (V : (c : Dev nD) → (b : Ref sig .tc) → Buf (Elt Ideal) ((c : Thread nD τ).loc b)) (c : Dev nD)

theorem out3 : (dat3 (F := Ideal) V c).arrAt 3 cfg3.N
    = arr2 (fun r j => Ideal.div (sgm (cur (V c main_v56) r j)) (cur (V c main_v62) 0 j)) :=
  rowBlocks_array V c

theorem out4 : (dat3 (F := Ideal) V c).arrAt 4 cfg3.N
    = arr2 (fun (_ : Fin 1) j' => halfSum (fun r j =>
        Ideal.div (sgm (cur (V c main_v56) r j)) (cur (V c main_v62) 0 j) * cur (V c main_v63) r j) j') :=
  accumulator_array V c

end Cert.KernelIdeal.Region3

end
-- ==== Proof.Region4.lean ====
/-
  The fifth region (the final linear, plus bias, plus the reduced row, then ReLU).
-/
import proofs.«407534_j31061203484850_2_alg».proof.Proof.Gen.KernelIdeal.Frame
import proofs.«407534_j31061203484850_2_alg».proof.Proof.Spec
import Idealize.ShloMosaic.Lib.Pipeline.Value
import Idealize.ShloMosaic.PureOps.Ideal.Laws

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.Region4

/-! ## The product's operand indices, axis by axis

  The product contracts the left operand's second axis with the right operand's first: at output index (p, q) and
  contraction position k the left operand is read at (p, k) and the right one at (k, q). -/

private theorem zero_off : (![0, 0] : Fin 2 → Nat) = fun _ => 0 := funext fun a => by fin_cases a <;> rfl

private theorem lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

private theorem lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q

private theorem rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q

private theorem rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The product into the zero accumulator, read at (p, q): the sum over k of a[p,k] · b[k,q]. -/
private theorem prod_apply (a : FVec Ideal S4096x256 .bf16) (b : FVec Ideal S256x256 .bf16) (p : Fin 4096) (q : Fin 256) :
    matmul dot_S4096x256_S256x256_S4096x256_1_0_0_1_n_n none a b (constant (F := Ideal) S4096x256 .f32 0x00000000#32) (ValueIdx.ix2 p q)
      = ∑ k : Fin 256, a (ValueIdx.ix2 p k) * b (ValueIdx.ix2 k q) := by
  show FloatOps.matmul dot_S4096x256_S256x256_S4096x256_1_0_0_1_n_n none a b (constant (F := Ideal) S4096x256 .f32 0x00000000#32) (ValueIdx.ix2 p q) = _
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ValueIdx.ix2 p q) ((ValueIdx.contrEquiv1 dot_S4096x256_S256x256_S4096x256_1_0_0_1_n_n 256 rfl rfl).symm k) = ValueIdx.ix2 p k :=
    funext fun a => Fin.ext (by
      match a with
      | ⟨0, _⟩ => exact lhs_0 _ _
      | ⟨1, _⟩ => exact (lhs_1 _ _).trans hk)
  have er : dot_S4096x256_S256x256_S4096x256_1_0_0_1_n_n.rhsIdx (ValueIdx.ix2 p q) ((ValueIdx.contrEquiv1 dot_S4096x256_S256x256_S4096x256_1_0_0_1_n_n 256 rfl rfl).symm k) = ValueIdx.ix2 k q :=
    funext fun a => Fin.ext (by
      match a with
      | ⟨0, _⟩ => exact (rhs_0 _ _).trans hk
      | ⟨1, _⟩ => exact rhs_1 _ _)
  rw [el, er]

/-- The body's payload at (p, q): the product row plus the two broadcast rows, clamped below at zero. -/
private theorem pay_apply (x0 : Vec Ideal S4096x256 .f32) (x1 : Vec Ideal S256x256 .f32) (x2 x3 : Vec Ideal S1x256 .f32)
    (p : Fin 4096) (q : Fin 256) :
    k4_pay1 x0 x1 x2 x3 (ValueIdx.ix2 p q)
      = max ((∑ k : Fin 256, x0 (ValueIdx.ix2 p k) * x1 (ValueIdx.ix2 k q)) + x2 (ValueIdx.ix2 0 q) + x3 (ValueIdx.ix2 0 q)) 0 := by
  unfold k4_pay1
  simp only [shapeCast_self]
  rw [ValueIdx.maximumf_apply, ValueIdx.addf_apply, ValueIdx.addf_apply, prod_apply,
    broadcastTo_apply x2 broadcasts_S1x256_S4096x256 (ValueIdx.ix2 p q) (ValueIdx.ix2 0 q)
      (fun a => by match a with | ⟨0, _⟩ => rfl | ⟨1, _⟩ => rfl),
    broadcastTo_apply x3 broadcasts_S1x256_S4096x256 (ValueIdx.ix2 p q) (ValueIdx.ix2 0 q)
      (fun a => by match a with | ⟨0, _⟩ => rfl | ⟨1, _⟩ => rfl),
    ValueIdx.broadcast_apply, Ideal.ofBits_def, Ideal.ofBits_zero_f32]
  rfl

variable (V : (c : Dev nD) → (b : Ref sig .tc) → Buf (Elt Ideal) ((c : Thread nD τ).loc b)) (c : Dev nD)

/-! ## From blocks to the array

  Point t of the 32 reads rows 4096·t … 4096·t + 4095 of the first operand and the whole of the other three, and
  writes the same rows of the result. -/

/-- The printed index maps over the grid: windows 0 and 4 move with the point along the rows, the others stay. -/
private theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of point t's block is row 4096·t + p of the array. -/
private def row (t : Fin cfg4.N) (p : Fin 4096) : Fin 131072 :=
  ⟨t.val * 4096 + p.val, by have := lt_of_lt_of_eq t.isLt N_4; have := p.isLt; omega⟩

/-- The first operand's block at point t, read at (p, k). -/
private theorem blk0_apply (t : Fin cfg4.N) (p : Fin 4096) (k : Fin 256) :
    iblk4 V c 0 t (ValueIdx.ix2 p k) = V c main_arg0 (ValueIdx.ix2 (row t p) k) := by
  obtain ⟨e0, e1, -⟩ := idx_facts t
  show V c main_arg0 (((cfg4.win 0).blk t).view.emb (ValueIdx.ix2 p k)) = V c main_arg0 (ValueIdx.ix2 (row t p) k)
  refine congrArg _ (funext fun a => Fin.ext ?_)
  match a with
  | ⟨0, _⟩ => show win4_0.index t (0 : Fin 2) * 4096 + 1 * p.val = t.val * 4096 + p.val; rw [e0]; omega
  | ⟨1, _⟩ => show win4_0.index t (1 : Fin 2) * 256 + 1 * k.val = k.val; rw [e1]; omega

/-- The weight's block is the whole matrix. -/
private theorem blk1_apply (t : Fin cfg4.N) (k q : Fin 256) :
    iblk4 V c 1 t (ValueIdx.ix2 k q) = V c main_v8 (ValueIdx.ix2 k q) := by
  obtain ⟨-, -, e0, e1, -⟩ := idx_facts t
  show V c main_v8 (((cfg4.win 1).blk t).view.emb (ValueIdx.ix2 k q)) = V c main_v8 (ValueIdx.ix2 k q)
  refine congrArg _ (funext fun a => Fin.ext ?_)
  match a with
  | ⟨0, _⟩ => show win4_1.index t (0 : Fin 2) * 256 + 1 * k.val = k.val; rw [e0]; omega
  | ⟨1, _⟩ => show win4_1.index t (1 : Fin 2) * 256 + 1 * q.val = q.val; rw [e1]; omega

/-- The bias row's block is the whole row. -/
private theorem blk2_apply (t : Fin cfg4.N) (q : Fin 256) :
    iblk4 V c 2 t (ValueIdx.ix2 0 q) = V c main_v15 (ValueIdx.ix2 0 q) := by
  obtain ⟨-, -, -, -, e0, e1, -⟩ := idx_facts t
  show V c main_v15 (((cfg4.win 2).blk t).view.emb (ValueIdx.ix2 0 q)) = V c main_v15 (ValueIdx.ix2 0 q)
  refine congrArg _ (funext fun a => Fin.ext ?_)
  match a with
  | ⟨0, _⟩ => show win4_2.index t (0 : Fin 2) * 1 + 1 * 0 = 0; rw [e0]
  | ⟨1, _⟩ => show win4_2.index t (1 : Fin 2) * 256 + 1 * q.val = q.val; rw [e1]; omega

/-- The reduced row's block is the whole row. -/
private theorem blk3_apply (t : Fin cfg4.N) (q : Fin 256) :
    iblk4 V c 3 t (ValueIdx.ix2 0 q) = V c main_v67 (ValueIdx.ix2 0 q) := by
  obtain ⟨-, -, -, -, -, -, e0, e1, -⟩ := idx_facts t
  show V c main_v67 (((cfg4.win 3).blk t).view.emb (ValueIdx.ix2 0 q)) = V c main_v67 (ValueIdx.ix2 0 q)
  refine congrArg _ (funext fun a => Fin.ext ?_)
  match a with
  | ⟨0, _⟩ => show win4_3.index t (0 : Fin 2) * 1 + 1 * 0 = 0; rw [e0]
  | ⟨1, _⟩ => show win4_3.index t (1 : Fin 2) * 256 + 1 * q.val = q.val; rw [e1]; omega

/-- The result as one function of the region's entry contents. -/
private abbrev res : (⟨2, ![131072, 256]⟩ : Shape).Idx → EReal :=
  arr2 (fun r j => max (mm (cur (V c main_arg0)) (cur (V c main_v8)) r j + cur (V c main_v15) 0 j + cur (V c main_v67) 0 j) 0)

/-- What point t writes back is block t of the result function of the region's entry contents. -/
private theorem flushed_eq (t : Fin cfg4.N) :
    (dat4 (F := Ideal) V c).flushed 4 t
      = ((cfg4.win 4).blk t).view.read (Elt Ideal) (res V c) := by
  show (cfg4.win 4).cut (grid4.coords t) ((dat4 (F := Ideal) V c).after 4 t) = _
  rw [after4_4]
  unfold out4_4
  rw [View.canon_unit_zero zero_off]
  simp only [View.ld_unit_zero (S := S4096x256) zero_off, View.ld_unit_zero (S := S256x256) zero_off,
    View.ld_unit_zero (S := S1x256) zero_off]
  obtain ⟨-, -, -, -, -, -, -, -, e0, e1⟩ := idx_facts t
  funext j
  obtain ⟨p, q, rfl⟩ : ∃ (p : Fin 4096) (q : Fin 256), j = ValueIdx.ix2 p q := ⟨j 0, j 1, ValueIdx.eq_ix2 j⟩
  have hemb : ((cfg4.win 4).blk t).view.emb (ValueIdx.ix2 p q) = ValueIdx.ix2 (row t p) q :=
    funext fun a => Fin.ext (by
      match a with
      | ⟨0, _⟩ => show win4_4.index t (0 : Fin 2) * 4096 + 1 * p.val = t.val * 4096 + p.val; rw [e0]; omega
      | ⟨1, _⟩ => show win4_4.index t (1 : Fin 2) * 256 + 1 * q.val = q.val; rw [e1]; omega)
  refine (pay_apply (iblk4 V c 0 t) (iblk4 V c 1 t) (iblk4 V c 2 t) (iblk4 V c 3 t) p q).trans ?_
  show _ = res V c (((cfg4.win 4).blk t).view.emb (ValueIdx.ix2 p q))
  rw [hemb]
  show _ = max (mm (cur (V c main_arg0)) (cur (V c main_v8)) (row t p) q + cur (V c main_v15) 0 q + cur (V c main_v67) 0 q) 0
  rw [blk2_apply, blk3_apply]
  simp only [blk0_apply, blk1_apply]
  rfl

/-- An index of the array is in point t's block iff each coordinate is in the block's range on its axis. -/
private theorem mem_blk (t : Fin cfg4.N) (i : S131072x256.Idx) :
    i ∈ ((cfg4.win 4).blk t).view.set ↔ ∀ a : Fin 2, win4_4.index t a * S4096x256.size a ≤ (i a).val ∧ (i a).val < win4_4.index t a * S4096x256.size a + S4096x256.size a := by
  show i ∈ ((View.whole main_v68).slice (win4_4.rect t)).set ↔ _
  rw [View.set_slice_whole, Rect.mem_set_unit]
  exact Iff.rfl

/-- Every index lies in the block of the point its row names: row r is in block r / 4096. -/
private theorem cover (i : S131072x256.Idx) :
    ∃ t : Fin cfg4.N, (cfg4.win 4).flush t = true ∧ i ∈ ((cfg4.win 4).blk t).view.set := by
  have hi0 : (i 0).val < 131072 := (i 0).isLt
  have hi1 : (i 1).val < 256 := (i 1).isLt
  let t : Fin cfg4.N := ⟨(i 0).val / 4096, by rw [show cfg4.N = 32 from N_4]; omega⟩
  obtain ⟨-, -, -, -, -, -, -, -, e0, e1⟩ := idx_facts t
  have ht : t.val = (i 0).val / 4096 := rfl
  refine ⟨t, flush4_4 t, ?_⟩
  rw [mem_blk]
  intro a
  match a with
  | ⟨0, _⟩ => show win4_4.index t (0 : Fin 2) * 4096 ≤ (i 0).val ∧ (i 0).val < win4_4.index t (0 : Fin 2) * 4096 + 4096; rw [e0, ht]; omega
  | ⟨1, _⟩ => show win4_4.index t (1 : Fin 2) * 256 ≤ (i 1).val ∧ (i 1).val < win4_4.index t (1 : Fin 2) * 256 + 256; rw [e1]; omega

theorem out4 : (dat4 (F := Ideal) V c).arrAt 4 cfg4.N
    = arr2 (fun r j => max (mm (cur (V c main_arg0)) (cur (V c main_v8)) r j + cur (V c main_v15) 0 j + cur (V c main_v67) 0 j) 0) :=
  (dat4 (F := Ideal) V c).arrAt_eq_of_cover 4 (res V c) (fun t _ => flushed_eq V c t) cover

end Cert.KernelIdeal.Region4

end
-- ==== Proof.KerChainC2.lean ====
/-
  From the fourth region's entry to the return: the normalised sigmoid (the second result), its product with the V-features summed over the two cores, and the final linear with ReLU (the first result).
-/
import proofs.«407534_j31061203484850_2_alg».proof.Proof.Gen.KernelIdeal.Frame
import proofs.«407534_j31061203484850_2_alg».proof.Proof.Spec
import proofs.«407534_j31061203484850_2_alg».proof.Proof.KerArgs
import proofs.«407534_j31061203484850_2_alg».proof.Proof.Region3
import proofs.«407534_j31061203484850_2_alg».proof.Proof.Region4
import Idealize.ShloMosaic.Lib.Pipeline.Value
import Idealize.ShloMosaic.Lib.ValueLayout
import Idealize.ShloMosaic.Lib.StableHlo.Run
import Idealize.ShloMosaic.PureOps.Ideal.Laws

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.ChainC2

open Cert.KernelIdeal.KA
open Idealize.ShloMosaic.ValueIdx

variable (m : (ℓ : Loc nD τ sig) → Buf (Elt Ideal) ℓ) (ρ : Dev nD → PrngReg) (c : Dev nD)

/-- A buffer that no operation of a host stretch writes holds after the stretch what it held before it. -/
local macro "host_carry " b:term : tactic =>
  `(tactic| (refine StableHlo.after_of_forall_not_mem (b := Proc.devRef .tc $b) _ _ (List.forall_iff_forall_mem.mp ?_)
             simp only [hostOps0, hostOps1, hostOps1_1, hostOps1_2, hostOps2, hostOps3, hostOps3_1, hostOps4,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The second result: the fourth region's fourth array, untouched afterwards -/

/-- Neither the last host stretch nor the last region writes the fourth region's normalised output. -/
theorem v64_0_carry : W13 m ρ c (Proc.devRef .tc main_v64_0) = W11 m ρ c (Proc.devRef .tc main_v64_0) :=
  calc W13 m ρ c (Proc.devRef .tc main_v64_0)
    _ = W12 m ρ c (Proc.devRef .tc main_v64_0) := W13_of_ne m ρ c main_v64_0 (by decide)
    _ = W11 m ρ c (Proc.devRef .tc main_v64_0) := by host_carry main_v64_0

/-- The second result, from what the fourth region finds. -/
theorem v64_0_eq (X : Big) (D : Row) (HV : Big)
    (h56 : V10 m ρ c main_v56 = arr2 X) (h62 : V10 m ρ c main_v62 = arr2 (fun (_ : Fin 1) j => D j))
    (h63 : V10 m ρ c main_v63 = arr2 HV) :
    W13 m ρ c (Proc.devRef .tc main_v64_0) = arr2 (fun r j => Ideal.div (sgm (X r j)) (D j)) := by
  rw [v64_0_carry, show W11 m ρ c (Proc.devRef .tc main_v64_0) = _ from W11_arr m ρ c 3, Region3.out3, h56, h62]
  rfl

/-! ## What the last region finds in its four inputs -/

/-- The node features are as launched: the last region's entry is the return's contents at an input array. -/
theorem arg0_V12 : V12 m ρ c main_arg0 = m ((c : Thread nD τ).loc main_arg0) :=
  ((W13_arr m ρ c 0).trans (((dat4 (V12 m ρ) c).arrAt_in 0 rfl _).trans (A_eq4 (V12 m ρ) c 0))).symm.trans
    (W13_main_arg0 m ρ c)

/-- The transposed weight is written once, by the first host stretch, and carried to the last region. -/
theorem v8_carry : V12 m ρ c main_v8 = W1 m ρ c (Proc.devRef .tc main_v8) :=
  calc W12 m ρ c (Proc.devRef .tc main_v8)
    _ = W11 m ρ c (Proc.devRef .tc main_v8) := by host_carry main_v8
    _ = W10 m ρ c (Proc.devRef .tc main_v8) := W11_of_ne m ρ c main_v8 (by decide)
    _ = W9 m ρ c (Proc.devRef .tc main_v8) := by host_carry main_v8
    _ = W8 m ρ c (Proc.devRef .tc main_v8) := by host_carry main_v8
    _ = W7 m ρ c (Proc.devRef .tc main_v8) := W8_of_ne m ρ c main_v8 (by decide)
    _ = W6 m ρ c (Proc.devRef .tc main_v8) := by host_carry main_v8
    _ = W5 m ρ c (Proc.devRef .tc main_v8) := W6_of_ne m ρ c main_v8 (by decide)
    _ = W4 m ρ c (Proc.devRef .tc main_v8) := by host_carry main_v8
    _ = W3 m ρ c (Proc.devRef .tc main_v8) := by host_carry main_v8
    _ = W2 m ρ c (Proc.devRef .tc main_v8) := by host_carry main_v8
    _ = W1 m ρ c (Proc.devRef .tc main_v8) := W2_of_ne m ρ c main_v8 (by decide)

/-- The reshaped bias, likewise. -/
theorem v15_carry : V12 m ρ c main_v15 = W1 m ρ c (Proc.devRef .tc main_v15) :=
  calc W12 m ρ c (Proc.devRef .tc main_v15)
    _ = W11 m ρ c (Proc.devRef .tc main_v15) := by host_carry main_v15
    _ = W10 m ρ c (Proc.devRef .tc main_v15) := W11_of_ne m ρ c main_v15 (by decide)
    _ = W9 m ρ c (Proc.devRef .tc main_v15) := by host_carry main_v15
    _ = W8 m ρ c (Proc.devRef .tc main_v15) := by host_carry main_v15
    _ = W7 m ρ c (Proc.devRef .tc main_v15) := W8_of_ne m ρ c main_v15 (by decide)
    _ = W6 m ρ c (Proc.devRef .tc main_v15) := by host_carry main_v15
    _ = W5 m ρ c (Proc.devRef .tc main_v15) := W6_of_ne m ρ c main_v15 (by decide)
    _ = W4 m ρ c (Proc.devRef .tc main_v15) := by host_carry main_v15
    _ = W3 m ρ c (Proc.devRef .tc main_v15) := by host_carry main_v15
    _ = W2 m ρ c (Proc.devRef .tc main_v15) := by host_carry main_v15
    _ = W1 m ρ c (Proc.devRef .tc main_v15) := W2_of_ne m ρ c main_v15 (by decide)

/-- The first host stretch transposes the weight: entry (k, j) of the result is entry (j, k) of the argument. -/
theorem v8_V12 : V12 m ρ c main_v8 = arr2 (tr (Uw m c)) := by
  rw [v8_carry]
  show StableHlo.after hostOps0 (W0 m ρ c) (Proc.devRef .tc main_v8) = _
  after_results
  refine ext2 fun k j => ?_
  rw [transpose_ix2_apply]
  rfl

/-- The first host stretch reshapes the bias [256] to [1, 256]: entry (0, j) is entry j. -/
theorem v15_V12 : V12 m ρ c main_v15 = arr2 (fun (_ : Fin 1) j => Ub m c j) := by
  rw [v15_carry]
  show StableHlo.after hostOps0 (W0 m ρ c) (Proc.devRef .tc main_v15) = _
  after_results
  refine ext2 fun u j => ?_
  show shapeCast S1x256 (W0 m ρ c (Proc.devRef .tc main_arg14)) shapeCasts_S256_S1x256 (ix2 u j) = _
  rw [shapeCast_a_1a_apply]
  rfl

/-- The last host stretch adds the two halves [0:256] and [256:512] of the fourth region's reduction: at channel j
    the two cores' half sums of column j, together the whole column sum. -/
theorem v67_at (G : Big) (j : Fin 256)
    (h : W11 m ρ c (Proc.devRef .tc main_v64_1) = arr2 (fun (_ : Fin 1) j' => halfSum G j')) :
    V12 m ρ c main_v67 (ix2 0 j) = colsum G j := by
  show StableHlo.after hostOps4 (W11 m ρ c) (Proc.devRef .tc main_v67) (ix2 0 j) = _
  after_results
  rw [h, addf_apply,
    slice2_axis1_apply 0 _ slices_S1x512_S1x256_0_0 0 j ⟨j.val, by omega⟩ (by simp),
    slice2_axis1_apply 256 _ slices_S1x512_S1x256_0_256 0 j ⟨j.val + 256, by omega⟩ (Nat.add_comm _ _)]
  exact halfSum_add G j

/-- The first result. -/
theorem v68_eq (X : Big) (D : Row) (HV : Big)
    (h56 : V10 m ρ c main_v56 = arr2 X) (h62 : V10 m ρ c main_v62 = arr2 (fun (_ : Fin 1) j => D j))
    (h63 : V10 m ρ c main_v63 = arr2 HV) :
    W13 m ρ c (Proc.devRef .tc main_v68)
      = arr2 (hOut (H m c) (tr (Uw m c)) (Ub m c) (accV (fun r j => Ideal.div (sgm (X r j)) (D j)) HV)) := by
  have hW : W11 m ρ c (Proc.devRef .tc main_v64_1)
      = arr2 (fun (_ : Fin 1) j' => halfSum (fun r j => Ideal.div (sgm (X r j)) (D j) * HV r j) j') := by
    rw [show W11 m ρ c (Proc.devRef .tc main_v64_1) = _ from W11_arr m ρ c 4, Region3.out4, h56, h62, h63]
    rfl
  rw [show W13 m ρ c (Proc.devRef .tc main_v68) = _ from W13_arr m ρ c 4, Region4.out4]
  refine congrArg arr2 (funext fun r => funext fun j => ?_)
  show max (mm (cur (V12 m ρ c main_arg0)) (cur (V12 m ρ c main_v8)) r j + V12 m ρ c main_v15 (ix2 0 j)
      + V12 m ρ c main_v67 (ix2 0 j)) 0 = _
  rw [arg0_V12, v8_V12, v15_V12, v67_at m ρ c _ j hW]
  rfl

end Cert.KernelIdeal.ChainC2

end
-- ==== Proof.KerValue.lean ====
/-
  The kernel program's two results as functions of its arguments: the chain of segment boundaries from the launch to
  the return, with every index word in range. The second result is the sigmoid of the scattered edge features
  normalised by its column sums; the first is the last linear plus the reduced product row, under ReLU.
-/
import proofs.«407534_j31061203484850_2_alg».proof.Proof.Gen.KernelIdeal.Frame
import proofs.«407534_j31061203484850_2_alg».proof.Proof.Spec
import proofs.«407534_j31061203484850_2_alg».proof.Proof.KerArgs
import proofs.«407534_j31061203484850_2_alg».proof.Proof.KerChainA
import proofs.«407534_j31061203484850_2_alg».proof.Proof.KerChainB
import proofs.«407534_j31061203484850_2_alg».proof.Proof.KerChainC1
import proofs.«407534_j31061203484850_2_alg».proof.Proof.KerChainC2

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.KerValue

open Cert.KernelIdeal.KA

variable (m : (ℓ : Loc nD τ sig) → Buf (Elt Ideal) ℓ) (ρ : Dev nD → PrngReg) (c : Dev nD)

/-- The scattered edge features, from the kernel's edge message and its clamped variance. -/
abbrev XK : Big := eNew (E m c) (EI m c) (bn (xK m c) (mean (xK m c)) (varKer (xK m c)) (Gm m c) (Be m c))

theorem at56 (hr : InRange (EI m c)) : V10 m ρ c main_v56 = arr2 (XK m c) :=
  (ChainC1.v56_keep m ρ c).trans (ChainB.v56_eq m ρ c (xK m c) (ChainA.v21_eq m ρ c hr))

theorem kout1 (hr : InRange (EI m c)) :
    W13 m ρ c (Proc.devRef .tc main_v64_0)
      = arr2 (out1 (xK m c) (varKer (xK m c)) (E m c) (EI m c) (Gm m c) (Be m c)) :=
  ChainC2.v64_0_eq m ρ c (XK m c) (fun j => colsum (fun r j => sgm (XK m c r j)) j + cEps)
    (hV (H m c) (tr (Vw m c)) (Vb m c) (eIx (EI m c) 1))
    (at56 m ρ c hr)
    (ChainC1.v62_eq m ρ c (XK m c) (ChainB.v56_eq m ρ c (xK m c) (ChainA.v21_eq m ρ c hr)))
    (ChainC1.v63_eq m ρ c hr)

theorem kout0 (hr : InRange (EI m c)) :
    W13 m ρ c (Proc.devRef .tc main_v68)
      = arr2 (out0 (xK m c) (varKer (xK m c)) (E m c) (EI m c) (Gm m c) (Be m c)
          (H m c) (tr (Uw m c)) (Ub m c) (tr (Vw m c)) (Vb m c)) :=
  ChainC2.v68_eq m ρ c (XK m c) (fun j => colsum (fun r j => sgm (XK m c r j)) j + cEps)
    (hV (H m c) (tr (Vw m c)) (Vb m c) (eIx (EI m c) 1))
    (at56 m ρ c hr)
    (ChainC1.v62_eq m ρ c (XK m c) (ChainB.v56_eq m ρ c (xK m c) (ChainA.v21_eq m ρ c hr)))
    (ChainC1.v63_eq m ρ c hr)

end Cert.KernelIdeal.KerValue

end
-- ==== Proof.PreDecode.lean ====
/-
  What the precondition says, decoded: every float argument's entries are real numbers, and every index word of
  `edge_index` lies in [-131072, 131072).
-/
import proofs.«407534_j31061203484850_2_alg».proof.Defs
import proofs.«407534_j31061203484850_2_alg».proof.Proof.Gen.KernelIdeal.Frame
import proofs.«407534_j31061203484850_2_alg».proof.Proof.Gen.Pre_finite_inputs
import proofs.«407534_j31061203484850_2_alg».proof.Proof.Spec
import proofs.«407534_j31061203484850_2_alg».proof.Proof.KerArgs
import Idealize.ShloMosaic.Lib.ReduceAll
import Idealize.ShloMosaic.Lib.StableHlo.Predicate

noncomputable section

open scoped BigOperators
open Idealize.ShloMosaic Idealize.ShloMosaic.TcCoe Idealize.SL.Sem
open Idealize.ShloMosaic.Pipeline (Dat Cfg Window)
open Cert.KernelIdeal Cert.KernelIdeal.Gen Cert.Spec

namespace Cert.KernelIdeal.PreDecode

open Cert.KernelIdeal.KA

/-- The scalar shape has exactly one index. -/
local instance subsingleton_scalar_idx : Subsingleton (⟨0, ![]⟩ : Shape).Idx := ⟨fun a b => funext fun d => d.elim0⟩

/-- The pattern 0x7F800000 denotes +∞. -/
private theorem inf_pattern : Ideal.ofBits .f32 0x7F800000#32 = (⊤ : EReal) := by
  simp [Ideal.ofBits, Ideal.ieee]

/-- An extended real whose absolute value max x (-x) lies strictly below +∞ is a real number. -/
private theorem real_of_abs_lt_top (x : EReal) (h : max x (-x) < (⊤ : EReal)) : ∃ v : ℝ, x = (v : EReal) := by
  induction x using EReal.rec with
  | bot => simp at h
  | coe v => exact ⟨v, rfl⟩
  | top => simp at h

/-- One conjunct of the predicate, at any shape: if the AND over all entries of |x| < +∞ is one, every entry of x is
    a real number. -/
private theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr h0 ValueIdx.ix0 = 1#1) (i : s.Idx) : ∃ v : ℝ, x i = (v : EReal) := by
  have hi := Host.reduce_andi_all _ _ hr h0 ValueIdx.ix0 e i
  have hlt : max (x i) (-(x i)) < (⊤ : EReal) := by
    have h2 : Ideal.cmp .olt (max (x i) (-(x i))) (Ideal.ofBits .f32 0x7F800000#32) = 1#1 := hi
    rw [inf_pattern] at h2
    simpa only [Ideal.cmp, StableHlo.Predicate.ofBool_eq_one_iff, decide_eq_true_eq] using h2
  exact real_of_abs_lt_top _ hlt

theorem good_of_pre (m : (ℓ : Loc nD τ sig) → Buf (Elt Ideal) ℓ) (hpre : Cert.Pre_KernelIdeal m) (c : Dev nD) :
    Good m c := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  simp only [andi, IntOp.andi_eq_one] at h
  obtain ⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, hge⟩, hlt⟩ := h
  refine ⟨?_, ?_, ?_, ?_, ?_, ?_, ?_, ?_, ?_, ?_, ?_⟩
  · intro a b; exact real_of_all _ _ _ _ h0 (ValueIdx.ix2 a b)
  · intro a b; exact real_of_all _ _ _ _ h2 (ValueIdx.ix2 a b)
  · intro a b; exact real_of_all _ _ _ _ h3 (ValueIdx.ix2 a b)
  · intro a; exact real_of_all _ _ _ _ h4 (ValueIdx.ix1 a)
  · intro a b; exact real_of_all _ _ _ _ h5 (ValueIdx.ix2 a b)
  · intro a; exact real_of_all _ _ _ _ h6 (ValueIdx.ix1 a)
  · intro a b; exact real_of_all _ _ _ _ h7 (ValueIdx.ix2 a b)
  · intro a; exact real_of_all _ _ _ _ h8 (ValueIdx.ix1 a)
  · intro a b; exact real_of_all _ _ _ _ h9 (ValueIdx.ix2 a b)
  · intro a; exact real_of_all _ _ _ _ h10 (ValueIdx.ix1 a)
  · intro a r
    have e1 : IntOp.cmpi .sge (EI m c (ValueIdx.ix2 a r)) 4294836224#32 = 1#1 :=
      Host.reduce_andi_all _ _ _ _ ValueIdx.ix0 hge (ValueIdx.ix2 a r)
    have e2 : IntOp.cmpi .slt (EI m c (ValueIdx.ix2 a r)) 131072#32 = 1#1 :=
      Host.reduce_andi_all _ _ _ _ ValueIdx.ix0 hlt (ValueIdx.ix2 a r)
    rw [IntOp.cmpi_sge] at e1
    rw [IntOp.cmpi_slt] at e2
    have c1 : (4294836224#32 : BitVec 32).toInt = -131072 := by decide
    have c2 : (131072#32 : BitVec 32).toInt = 131072 := by decide
    rw [c1] at e1
    rw [c2] at e2
    exact ⟨e1, e2⟩

-- The remaining float arguments (batch norm's scale and shift, the last two linears) are not needed real: the two
-- programs apply the same operations to them.
end Cert.KernelIdeal.PreDecode

end
-- ==== Proof.RefTerms.lean ====
/-
  The reference program's staged results as terms of its argument arrays at launch.
  Each definition below is one stage of the program, written from the EARLIER stages and the argument arrays by exactly
  the program's operations in the program's order, so that a reader unfolds one stage at a time:

    rowN, colN   the row / column index vector edge_index[0] / edge_index[1], a negative word moved up by the extent,
                 broadcast to [131072, 1] (every gather's and the scatter's index operand; the program recomputes the
                 same chain before each use, from the same inputs, so each recomputation has this one value);
    res54        the edge message: four gathered products and four biases, added left to right;
    res57        its column mean;   res58  its column variance (the outlined variance function, whose guard on the
                 degrees of freedom selects the quotient or the constant);
    res74        batch norm with those statistics, then the maximum with zero;
    res81        the messages scattered into the edge features by row index (a sum);
    res87        the logistic function of that;   res93  the same divided by its column sum plus epsilon (second result);
    res110       the V-transform of the node features gathered by column index;
    res116       the first result: the U-transform plus the column sums of res93 ⊙ res110, then the maximum with zero.
-/
import proofs.«407534_j31061203484850_2_alg».proof.Proof.Gen.ReferenceIdeal
import Idealize.ShloMosaic.PureOps.Ideal

noncomputable section

namespace Cert.ReferenceIdeal.RT

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- An index row of edge_index as a vector of 131072 words (a slice of one row, reshaped). -/
def idxRow (start : Fin 2 → Nat) (h : S2x131072.Slices start S1x131072) : IVec S131072 32 :=
  shapeCast S131072 (extractStridedSlice S1x131072 start (m ((c.tc : Thread nD τ).loc main_arg1)) h) shapeCasts_S1x131072_S131072

/-- The normalisation of an index vector: a word below zero has the extent 131072 added; then the broadcast to [131072, 1]. -/
def normIdx (v : IVec S131072 32) : IVec S131072x1 32 :=
  broadcastInDim S131072x1 ![0] bcast_S131072_S131072x1_0
    (select (cmpi .slt v (broadcastInDim S131072 ![] bcast_S_S131072 (constantI S_ 32 0#32)))
      (addi v (broadcastInDim S131072 ![] bcast_S_S131072 (constantI S_ 32 131072#32))) v)

/-- The normalised row index (edge_index[0]), [131072, 1]. -/
def rowN : IVec S131072x1 32 := normIdx (idxRow m c ![0, 0] slices_S2x131072_S1x131072_0_0)
/-- The normalised column index (edge_index[1]), [131072, 1]. -/
def colN : IVec S131072x1 32 := normIdx (idxRow m c ![1, 0] slices_S2x131072_S1x131072_1_0)

/-- A bias vector [256] broadcast over the rows: to [1, 256], then to [131072, 256]. -/
def rows (b : FVec Ideal S256 .f32) : FVec Ideal S131072x256 .f32 :=
  broadcastInDim S131072x256 ![0, 1] bcast_S1x256_S131072x256_0_1 (broadcastInDim S1x256 ![1] bcast_S256_S1x256_1 b)

/-- The rows of x named by an index vector, times the transposed weight matrix. -/
def gmm (x : FVec Ideal S131072x256 .f32) (i : IVec S131072x1 32) (w : FVec Ideal S256x256 .f32) : FVec Ideal S131072x256 .f32 :=
  Host.dotGeneral (F := Ideal) (φ₁ := .f32) (φ₂ := .f32) dot_S131072x256_S256x256_S131072x256_1_0_0_1_n_n none
    (Host.gather gather_S131072x256_S131072x1_S131072x256_1_0_n_n_0_1_1256 x i)
    (transpose S256x256 [1, 0] w transposes_S256x256_S256x256_1_0)

/-- The column sums of an array, from the initial value zero. -/
def csum (x : FVec Ideal S131072x256 .f32) : FVec Ideal S256 .f32 :=
  Host.reduceAdd (F := Ideal) x (constant (F := Ideal) S_ .f32 0x00000000#32) reducesTo_S131072x256_S256_d0 h_S_

/-- %54, the edge message: A h[row] + B h[col] + C e[col] + D e[row] with their biases, added left to right. -/
def res54 : FVec Ideal S131072x256 .f32 :=
  addf (F := Ideal) (addf (F := Ideal) (addf (F := Ideal) (addf (F := Ideal) (addf (F := Ideal) (addf (F := Ideal) (addf (F := Ideal)
    (gmm (m ((c.tc : Thread nD τ).loc main_arg0)) (rowN m c) (m ((c.tc : Thread nD τ).loc main_arg3)))
    (rows (m ((c.tc : Thread nD τ).loc main_arg4))))
    (gmm (m ((c.tc : Thread nD τ).loc main_arg0)) (colN m c) (m ((c.tc : Thread nD τ).loc main_arg5))))
    (rows (m ((c.tc : Thread nD τ).loc main_arg6))))
    (gmm (m ((c.tc : Thread nD τ).loc main_arg2)) (colN m c) (m ((c.tc : Thread nD τ).loc main_arg7))))
    (rows (m ((c.tc : Thread nD τ).loc main_arg8))))
    (gmm (m ((c.tc : Thread nD τ).loc main_arg2)) (rowN m c) (m ((c.tc : Thread nD τ).loc main_arg9))))
    (rows (m ((c.tc : Thread nD τ).loc main_arg10)))

/-- %57, the column mean of the edge message: its column sums over 131072.0. -/
def res57 : FVec Ideal S256 .f32 :=
  Host.divf (F := Ideal) (csum (res54 m c)) (broadcastInDim S256 ![] bcast_S_S256 (constant (F := Ideal) S_ .f32 0x48000000#32))

/-- The degrees of freedom of the variance: 131072.0 minus the correction 0 converted to a float. -/
def dof : FVec Ideal S_ .f32 :=
  subf (F := Ideal) (constant (F := Ideal) S_ .f32 0x48000000#32) (sitofp (F := Ideal) .f32 (constantI S_ 32 0#32))

/-- The squared deviations of the edge message from its column mean (the mean recomputed over [1, 256]). -/
def sqdev : FVec Ideal S131072x256 .f32 :=
  mulf (F := Ideal)
    (subf (F := Ideal) (res54 m c) (broadcastInDim S131072x256 ![0, 1] bcast_S1x256_S131072x256_0_1
      (Host.divf (F := Ideal) (broadcastInDim S1x256 ![1] bcast_S256_S1x256_1 (csum (res54 m c)))
        (broadcastInDim S1x256 ![] bcast_S_S1x256 (constant (F := Ideal) S_ .f32 0x48000000#32)))))
    (subf (F := Ideal) (res54 m c) (broadcastInDim S131072x256 ![0, 1] bcast_S1x256_S131072x256_0_1
      (Host.divf (F := Ideal) (broadcastInDim S1x256 ![1] bcast_S256_S1x256_1 (csum (res54 m c)))
        (broadcastInDim S1x256 ![] bcast_S_S1x256 (constant (F := Ideal) S_ .f32 0x48000000#32)))))

/-- %58, the column variance: where the degrees of freedom are positive the sum of squared deviations over them,
    elsewhere the constant of the last line
    (the function's conversion of that constant to its own format is the identity and is not written). -/
def res58 : FVec Ideal S256 .f32 :=
  select (broadcastInDim S256 ![] bcast_S_S256 (cmpf (F := Ideal) .ogt dof (constant (F := Ideal) S_ .f32 0x00000000#32)))
    (Host.divf (F := Ideal) (csum (sqdev m c)) (broadcastInDim S256 ![] bcast_S_S256 dof))
    (broadcastInDim S256 ![] bcast_S_S256 (constant (F := Ideal) S_ .f32 0x7FC00000#32))

/-- %74, batch norm then the maximum with zero: gamma · (x − mean) · rsqrt(var + eps) + beta. -/
def res74 : FVec Ideal S131072x256 .f32 :=
  maximumf (F := Ideal)
    (addf (F := Ideal)
      (mulf (F := Ideal)
        (mulf (F := Ideal) (rows (m ((c.tc : Thread nD τ).loc main_arg11))) (subf (F := Ideal) (res54 m c) (rows (res57 m c))))
        (rows (Host.rsqrt (F := Ideal) (addf (F := Ideal) (res58 m c) (broadcastInDim S256 ![] bcast_S_S256 (constant (F := Ideal) S_ .f32 0x3727C5AC#32))))))
      (rows (m ((c.tc : Thread nD τ).loc main_arg12))))
    (broadcastInDim S131072x256 ![] bcast_S_S131072x256 (constant (F := Ideal) S_ .f32 0x00000000#32))

/-- %81, the normalised messages added into the edge features at the rows the row index names. -/
def res81 : FVec Ideal S131072x256 .f32 :=
  Host.scatterAdd (F := Ideal) scatter_S131072x256_S131072x1_S131072x256_1_0_0_1 (m ((c.tc : Thread nD τ).loc main_arg2)) (rowN m c) (res74 m c)

/-- %87, the logistic function: 1 / (1 + e^(−x)). -/
def res87 : FVec Ideal S131072x256 .f32 :=
  Host.divf (F := Ideal) (broadcastInDim S131072x256 ![] bcast_S_S131072x256 (constant (F := Ideal) S_ .f32 0x3F800000#32))
    (addf (F := Ideal) (broadcastInDim S131072x256 ![] bcast_S_S131072x256 (constant (F := Ideal) S_ .f32 0x3F800000#32))
      (Host.exp (F := Ideal) (Host.negf (F := Ideal) (res81 m c))))

/-- %93, the second result: the logistic values over their column sums plus epsilon. -/
def res93 : FVec Ideal S131072x256 .f32 :=
  Host.divf (F := Ideal) (res87 m c)
    (broadcastInDim S131072x256 ![0, 1] bcast_S1x256_S131072x256_0_1
      (addf (F := Ideal) (broadcastInDim S1x256 ![1] bcast_S256_S1x256_1 (csum (res87 m c)))
        (broadcastInDim S1x256 ![] bcast_S_S1x256 (constant (F := Ideal) S_ .f32 0x3727C5AC#32))))

/-- %110, V of the node features gathered by column index, with its bias. -/
def res110 : FVec Ideal S131072x256 .f32 :=
  addf (F := Ideal) (gmm (m ((c.tc : Thread nD τ).loc main_arg0)) (colN m c) (m ((c.tc : Thread nD τ).loc main_arg15)))
    (rows (m ((c.tc : Thread nD τ).loc main_arg16)))

/-- %116, the first result: U of the node features with its bias, plus the column sums of %93 ⊙ %110, then the maximum with zero. -/
def res116 : FVec Ideal S131072x256 .f32 :=
  maximumf (F := Ideal)
    (addf (F := Ideal)
      (addf (F := Ideal)
        (Host.dotGeneral (F := Ideal) (φ₁ := .f32) (φ₂ := .f32) dot_S131072x256_S256x256_S131072x256_1_0_0_1_n_n none (m ((c.tc : Thread nD τ).loc main_arg0))
          (transpose S256x256 [1, 0] (m ((c.tc : Thread nD τ).loc main_arg13)) transposes_S256x256_S256x256_1_0))
        (rows (m ((c.tc : Thread nD τ).loc main_arg14))))
      (rows (csum (mulf (F := Ideal) (res93 m c) (res110 m c)))))
    (broadcastInDim S131072x256 ![] bcast_S_S131072x256 (constant (F := Ideal) S_ .f32 0x00000000#32))

end Cert.ReferenceIdeal.RT

end
-- ==== Proof.RefReadA.lean ====
/-
  The reference's staged terms read at an index, first half: the edge message before batch norm, its column mean and
  its biased variance. Each reading lemma is stated over abstract arrays of the reference's shapes: a product against a
  transposed weight matrix is the matrix product of the two-coordinate readings, a row gather moves the row, a bias
  broadcast twice reads its channel, the normalised index column reads the normalisation of a possibly negative index word, and a
  reduction over the rows is the column sum.
-/
import proofs.«407534_j31061203484850_2_alg».proof.Proof.Gen.ReferenceIdeal
import proofs.«407534_j31061203484850_2_alg».proof.Proof.Spec
import proofs.«407534_j31061203484850_2_alg».proof.Proof.RefArgs
import proofs.«407534_j31061203484850_2_alg».proof.Proof.LibRead
import proofs.«407534_j31061203484850_2_alg».proof.Proof.RefTerms
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.SL.Sem
open Cert.ReferenceIdeal Cert.ReferenceIdeal.Gen Cert.Spec

namespace Cert.ReferenceIdeal.ReadA

/-! ## A product against a transposed weight matrix -/

/-- The left operand's row coordinate is the result's row. -/
theorem lhs_0 (i : S131072x256.Idx) (q : dot_S131072x256_S256x256_S131072x256_1_0_0_1_n_n.contr.Idx) :
    (dot_S131072x256_S256x256_S131072x256_1_0_0_1_n_n.lhsIdx i q 0).val = (i 0).val := by
  unfold DotDims.lhsIdx
  rw [dif_neg (show ¬(0 : Fin S131072x256.rank) ∈ dot_S131072x256_S256x256_S131072x256_1_0_0_1_n_n.lhsBatch by decide),
    dif_pos (show (0 : Fin S131072x256.rank) ∈ dot_S131072x256_S256x256_S131072x256_1_0_0_1_n_n.lhsNonContracting by decide)]
  rfl
/-- The left operand's column coordinate is the contraction position. -/
theorem lhs_1 (i : S131072x256.Idx) (q : dot_S131072x256_S256x256_S131072x256_1_0_0_1_n_n.contr.Idx) :
    (dot_S131072x256_S256x256_S131072x256_1_0_0_1_n_n.lhsIdx i q 1).val = (q ⟨0, by decide⟩).val :=
  dot_S131072x256_S256x256_S131072x256_1_0_0_1_n_n.lhsIdx_val_of_single rfl i q
/-- The right operand's row coordinate is the contraction position. -/
theorem rhs_0 (i : S131072x256.Idx) (q : dot_S131072x256_S256x256_S131072x256_1_0_0_1_n_n.contr.Idx) :
    (dot_S131072x256_S256x256_S131072x256_1_0_0_1_n_n.rhsIdx i q 0).val = (q ⟨0, by decide⟩).val :=
  dot_S131072x256_S256x256_S131072x256_1_0_0_1_n_n.rhsIdx_val_of_single rfl i q
/-- The right operand's column coordinate is the result's channel. -/
theorem rhs_1 (i : S131072x256.Idx) (q : dot_S131072x256_S256x256_S131072x256_1_0_0_1_n_n.contr.Idx) :
    (dot_S131072x256_S256x256_S131072x256_1_0_0_1_n_n.rhsIdx i q 1).val = (i 1).val := by
  unfold DotDims.rhsIdx
  rw [dif_neg (show ¬(1 : Fin S256x256.rank) ∈ dot_S131072x256_S256x256_S131072x256_1_0_0_1_n_n.rhsBatch by decide),
    dif_pos (show (1 : Fin S256x256.rank) ∈ dot_S131072x256_S256x256_S131072x256_1_0_0_1_n_n.rhsNonContracting by decide)]
  rfl

/-- The host's product at (r, j): the sum over the contracted axis of x[r, k] · y[k, j]. -/
theorem dot_apply (x : FVec Ideal S131072x256 .f32) (y : FVec Ideal S256x256 .f32) (r : Fin 131072) (j : Fin 256) :
    Host.dotGeneral (F := Ideal) dot_S131072x256_S256x256_S131072x256_1_0_0_1_n_n none x y (ValueIdx.ix2 r j)
      = ∑ k : Fin 256, x (ValueIdx.ix2 r k) * y (ValueIdx.ix2 k j) := by
  simp only [Host.dotGeneral]
  rw [Ideal.dotGeneral_apply,
    ← Equiv.sum_comp (ValueIdx.contrEquiv1 dot_S131072x256_S256x256_S131072x256_1_0_0_1_n_n 256 rfl rfl).symm]
  refine Finset.sum_congr rfl fun k _ => ?_
  have hk := ValueIdx.contrEquiv1_symm_val dot_S131072x256_S256x256_S131072x256_1_0_0_1_n_n 256 rfl rfl k
  have el : dot_S131072x256_S256x256_S131072x256_1_0_0_1_n_n.lhsIdx (ValueIdx.ix2 r j)
      ((ValueIdx.contrEquiv1 dot_S131072x256_S256x256_S131072x256_1_0_0_1_n_n 256 rfl rfl).symm k) = ValueIdx.ix2 r k :=
    funext fun a => Fin.ext (by
      match a with
      | ⟨0, _⟩ => exact lhs_0 _ _
      | ⟨1, _⟩ => exact (lhs_1 _ _).trans hk)
  have er : dot_S131072x256_S256x256_S131072x256_1_0_0_1_n_n.rhsIdx (ValueIdx.ix2 r j)
      ((ValueIdx.contrEquiv1 dot_S131072x256_S256x256_S131072x256_1_0_0_1_n_n 256 rfl rfl).symm k) = ValueIdx.ix2 k j :=
    funext fun a => Fin.ext (by
      match a with
      | ⟨0, _⟩ => exact (rhs_0 _ _).trans hk
      | ⟨1, _⟩ => exact rhs_1 _ _)
  rw [el, er]

/-- A transposed weight matrix at (k, j) is the matrix at (j, k). -/
theorem transpose_w_apply (w : FVec Ideal S256x256 .f32) (k j : Fin 256) :
    transpose S256x256 [1, 0] w Facts₀.transposes_S256x256_S256x256_1_0 (ValueIdx.ix2 k j) = w (ValueIdx.ix2 j k) :=
  transpose_apply _ _ _ _ _ (fun b => by
    match b with
    | ⟨0, _⟩ => rfl
    | ⟨1, _⟩ => rfl)

/-- (1) The product against the transposed weight matrix is the matrix product of the readings. -/
theorem dot_tr_apply (x : FVec Ideal S131072x256 .f32) (w : FVec Ideal S256x256 .f32) (r : Fin 131072) (j : Fin 256) :
    Host.dotGeneral (F := Ideal) dot_S131072x256_S256x256_S131072x256_1_0_0_1_n_n none x
        (transpose S256x256 [1, 0] w Facts₀.transposes_S256x256_S256x256_1_0) (ValueIdx.ix2 r j)
      = mm (cur x) (tr (cur w)) r j := by
  rw [dot_apply]
  exact Finset.sum_congr rfl fun k _ => by rw [transpose_w_apply]; rfl

/-! ## A row gather -/

/-- The program's gather record is the row gather's. -/
theorem gather_rec : gather_S131072x256_S131072x1_S131072x256_1_0_n_n_0_1_1256 = gathD := rfl

/-- (2) The product of a gathered operand is the product read at the gathered row. -/
theorem dot_gather_apply (x : FVec Ideal S131072x256 .f32) (idx : IVec S131072x1 32) (w : FVec Ideal S256x256 .f32)
    (r : Fin 131072) (j : Fin 256) :
    Host.dotGeneral (F := Ideal) dot_S131072x256_S256x256_S131072x256_1_0_0_1_n_n none
        (Host.gather gather_S131072x256_S131072x1_S131072x256_1_0_n_n_0_1_1256 x idx)
        (transpose S256x256 [1, 0] w Facts₀.transposes_S256x256_S256x256_1_0) (ValueIdx.ix2 r j)
      = mm (cur x) (tr (cur w)) (gix (idx (ValueIdx.ix2 r 0))) j := by
  rw [dot_tr_apply]
  refine Finset.sum_congr rfl fun k _ => ?_
  show Host.gather gather_S131072x256_S131072x1_S131072x256_1_0_n_n_0_1_1256 x idx (ValueIdx.ix2 r k) * _ = _
  rw [gather_rec, Cert.LibRead.gather_apply]

/-! ## A bias -/

/-- A row [1, 256] broadcast to every row reads its channel. -/
theorem bcast_rows_apply (y : FVec Ideal S1x256 .f32) (r : Fin 131072) (j : Fin 256) :
    broadcastInDim S131072x256 ![0, 1] Facts₀.bcast_S1x256_S131072x256_0_1 y (ValueIdx.ix2 r j)
      = y (ValueIdx.ix2 (0 : Fin 1) j) :=
  broadcastInDim_apply _ _ _ _ (ValueIdx.ix2 (0 : Fin 1) j) (fun a => by
    match a with
    | ⟨0, _⟩ => rfl
    | ⟨1, _⟩ => rfl)
/-- A vector [256] broadcast to a row [1, 256] reads its channel. -/
theorem bcast_row_apply (b : FVec Ideal S256 .f32) (j : Fin 256) :
    broadcastInDim S1x256 ![1] Facts₀.bcast_S256_S1x256_1 b (ValueIdx.ix2 (0 : Fin 1) j) = b (ValueIdx.ix1 j) :=
  broadcastInDim_apply _ _ _ _ (ValueIdx.ix1 j) (fun a => by
    match a with
    | ⟨0, _⟩ => rfl)
/-- (3) A bias broadcast to a row and then to every row reads its channel. -/
theorem bias_apply (b : FVec Ideal S256 .f32) (r : Fin 131072) (j : Fin 256) :
    broadcastInDim S131072x256 ![0, 1] Facts₀.bcast_S1x256_S131072x256_0_1
        (broadcastInDim S1x256 ![1] Facts₀.bcast_S256_S1x256_1 b) (ValueIdx.ix2 r j) = cur1 b j := by
  rw [bcast_rows_apply, bcast_row_apply]

/-! ## The index words -/

/-- A row of the index array, sliced out and flattened, reads the array's word. -/
theorem slice0_apply (ei : IVec S2x131072 32) (r : Fin 131072) :
    shapeCast S131072 (extractStridedSlice S1x131072 ![0, 0] ei Facts₀.slices_S2x131072_S1x131072_0_0)
        Facts₀.shapeCasts_S1x131072_S131072 (ValueIdx.ix1 r) = ei (ValueIdx.ix2 0 r) := by
  rw [shapeCast_apply _ _ _ (ValueIdx.ix2 (0 : Fin 1) r) (by
    rw [Shape.rowMajor_val_two, Shape.rowMajor_val_one]; show 0 * 131072 + r.val = r.val; omega)]
  exact ValueIdx.slice2_axis0_apply 0 ei _ 0 r 0 rfl
theorem slice1_apply (ei : IVec S2x131072 32) (r : Fin 131072) :
    shapeCast S131072 (extractStridedSlice S1x131072 ![1, 0] ei Facts₀.slices_S2x131072_S1x131072_1_0)
        Facts₀.shapeCasts_S1x131072_S131072 (ValueIdx.ix1 r) = ei (ValueIdx.ix2 1 r) := by
  rw [shapeCast_apply _ _ _ (ValueIdx.ix2 (0 : Fin 1) r) (by
    rw [Shape.rowMajor_val_two, Shape.rowMajor_val_one]; show 0 * 131072 + r.val = r.val; omega)]
  exact ValueIdx.slice2_axis0_apply 1 ei _ 0 r 1 rfl

/-- The normalisation of a possibly negative index vector (add the extent to a negative word), element by element. -/
theorem nrm_vec_apply (v : IVec S131072 32) (r : Fin 131072) :
    select (cmpi .slt v (broadcastInDim S131072 ![] Facts₀.bcast_S_S131072 (constantI S_ 32 0#32)))
        (addi v (broadcastInDim S131072 ![] Facts₀.bcast_S_S131072 (constantI S_ 32 131072#32))) v (ValueIdx.ix1 r)
      = nrm (v (ValueIdx.ix1 r)) :=
  Cert.LibRead.nrm_eq _

/-- An index vector broadcast to a column reads its word. -/
theorem col_apply (v : IVec S131072 32) (r : Fin 131072) :
    broadcastInDim S131072x1 ![0] Facts₀.bcast_S131072_S131072x1_0 v (ValueIdx.ix2 r 0) = v (ValueIdx.ix1 r) :=
  broadcastInDim_apply _ _ _ _ (ValueIdx.ix1 r) (fun a => by
    match a with
    | ⟨0, _⟩ => rfl)

/-! ## A column reduction -/

/-- (5) The sum over the rows from the zero constant is the column sum. -/
theorem colsum_apply (x : FVec Ideal S131072x256 .f32) (j : Fin 256) :
    Host.reduceAdd (F := Ideal) x (constant (F := Ideal) S_ .f32 0x00000000#32) Facts₀.reducesTo_S131072x256_S256_d0 Facts₀.h_S_ (ValueIdx.ix1 j)
      = colsum (cur x) j := by
  simp only [Host.reduceAdd, Ideal.hostReduceAdd_def]
  rw [Ideal.hostReduceAdd_single Facts₀.reducesTo_S131072x256_S256_d0 (by decide)]
  rw [ValueIdx.constant_apply, Ideal.ofBits_zero_f32, zero_add]
  refine Finset.sum_congr rfl fun k _ => ?_
  exact congrArg x (funext fun a => Fin.ext (by match a with | ⟨0, _⟩ => rfl | ⟨1, _⟩ => rfl))

/-! ## The staged terms at an index -/

section Staged

variable (m : (ℓ : Loc nD τ sig) → Buf (Elt Ideal) ℓ) (c : Dev nD)

/-- A gathered product of the staged terms at (r, j): the product read at the gathered row. -/
theorem gmm_apply (x : FVec Ideal S131072x256 .f32) (i : IVec S131072x1 32) (w : FVec Ideal S256x256 .f32)
    (r : Fin 131072) (j : Fin 256) :
    RT.gmm x i w (ValueIdx.ix2 r j) = mm (cur x) (tr (cur w)) (gix (i (ValueIdx.ix2 r 0))) j :=
  dot_gather_apply x i w r j

/-- A bias over the rows at (r, j) is the bias at j. -/
theorem rows_apply (b : FVec Ideal S256 .f32) (r : Fin 131072) (j : Fin 256) :
    RT.rows b (ValueIdx.ix2 r j) = cur1 b j :=
  bias_apply b r j

/-- The column sums of the staged terms are the column sums of the reading. -/
theorem csum_apply (x : FVec Ideal S131072x256 .f32) (j : Fin 256) :
    RT.csum x (ValueIdx.ix1 j) = colsum (cur x) j :=
  colsum_apply x j

/-- (4) The normalised row index at (r, 0) is the normalisation of edge_index[0, r]. -/
theorem rowN_apply (r : Fin 131072) :
    RT.rowN m c (ValueIdx.ix2 r 0) = nrm (RA.EI m c (ValueIdx.ix2 0 r)) := by
  unfold RT.rowN RT.normIdx
  rw [col_apply, nrm_vec_apply]
  unfold RT.idxRow
  rw [slice0_apply]
/-- The normalised column index at (r, 0) is the normalisation of edge_index[1, r]. -/
theorem colN_apply (r : Fin 131072) :
    RT.colN m c (ValueIdx.ix2 r 0) = nrm (RA.EI m c (ValueIdx.ix2 1 r)) := by
  unfold RT.colN RT.normIdx
  rw [col_apply, nrm_vec_apply]
  unfold RT.idxRow
  rw [slice1_apply]

/-- %54 is the edge message of the specification, summand by summand in the program's order. -/
theorem res54_eq : RT.res54 m c = arr2 (RA.xR m c) := by
  refine ext2 fun r j => ?_
  rw [arr2_apply]
  unfold RT.res54
  simp only [ValueIdx.addf_apply, gmm_apply, rows_apply, rowN_apply, colN_apply]
  rfl

/-- %57 is the column mean of the edge message. -/
theorem res57_eq (j : Fin 256) : RT.res57 m c (ValueIdx.ix1 j) = mean (RA.xR m c) j := by
  unfold RT.res57
  show Ideal.div (RT.csum (RT.res54 m c) (ValueIdx.ix1 j)) (Ideal.ofBits .f32 0x48000000#32) = _
  rw [csum_apply, res54_eq, cur_arr2]
  rfl

/-- The number of rows is the real 131072. -/
theorem cN_eq : cN = ((131072 : ℝ) : EReal) := by
  unfold cN
  simp [Ideal.ofBits, Ideal.ieee, -EReal.coe_mul]; norm_num

/-- The variance's normaliser, 131072.0 minus the correction zero, is 131072.0. -/
theorem dof_eq (k : S_.Idx) : RT.dof k = cN := by
  show Ideal.ofBits .f32 0x48000000#32 - (((0#32 : BitVec 32).toInt : ℝ) : EReal) = cN
  simp [cN]

/-- The normaliser is positive, so the guard answers one. -/
theorem dof_pos (k : S_.Idx) :
    FloatOps.cmpf (F := Ideal) .ogt (RT.dof k) (Ideal.ofBits .f32 0x00000000#32) = 1#1 := by
  rw [dof_eq, Ideal.cmpf_def, Ideal.ofBits_zero_f32, cN_eq]
  unfold Ideal.cmp
  simp

/-- The column mean recomputed over [1, 256] and broadcast to every row reads the mean. -/
theorem meanRow_apply (x : FVec Ideal S131072x256 .f32) (r : Fin 131072) (j : Fin 256) :
    broadcastInDim S131072x256 ![0, 1] Facts₀.bcast_S1x256_S131072x256_0_1
        (Host.divf (F := Ideal) (broadcastInDim S1x256 ![1] Facts₀.bcast_S256_S1x256_1 (RT.csum x))
          (broadcastInDim S1x256 ![] Facts₀.bcast_S_S1x256 (constant (F := Ideal) S_ .f32 0x48000000#32)))
        (ValueIdx.ix2 r j)
      = mean (cur x) j := by
  rw [bcast_rows_apply]
  show Ideal.div (broadcastInDim S1x256 ![1] Facts₀.bcast_S256_S1x256_1 (RT.csum x) (ValueIdx.ix2 (0 : Fin 1) j))
    (Ideal.ofBits .f32 0x48000000#32) = _
  rw [bcast_row_apply, csum_apply]
  rfl

/-- The squared deviation at (r, j). -/
theorem sqdev_apply (r : Fin 131072) (j : Fin 256) :
    RT.sqdev m c (ValueIdx.ix2 r j)
      = (RA.xR m c r j - mean (RA.xR m c) j) * (RA.xR m c r j - mean (RA.xR m c) j) := by
  unfold RT.sqdev
  rw [ValueIdx.mulf_apply, ValueIdx.subf_apply, meanRow_apply, res54_eq, cur_arr2, arr2_apply]

/-- %58 is the biased variance of the edge message: the guard on the normaliser keeps the quotient. -/
theorem res58_eq (j : Fin 256) : RT.res58 m c (ValueIdx.ix1 j) = varRef (RA.xR m c) j := by
  unfold RT.res58
  rw [ValueIdx.select_apply]
  have hc : broadcastInDim S256 ![] bcast_S_S256
      (cmpf (F := Ideal) .ogt RT.dof (constant (F := Ideal) S_ .f32 0x00000000#32)) (ValueIdx.ix1 j) = 1#1 :=
    dof_pos _
  rw [hc, ValueIdx.select_one]
  show Ideal.div (RT.csum (RT.sqdev m c) (ValueIdx.ix1 j)) (RT.dof _) = _
  rw [dof_eq, csum_apply]
  unfold varRef
  refine congrArg (Ideal.div · cN) (Finset.sum_congr rfl fun r _ => ?_)
  exact sqdev_apply m c r j

end Staged

end Cert.ReferenceIdeal.ReadA

end
-- ==== Proof.RefReadB.lean ====
/-
  The second half of reading the reference's staged terms at an index: batch norm with the maximum with zero, the
  scatter-add of the messages into the edge features, the logistic function and its column normalisation (the second
  result), the V-transform of the node features gathered by column index, and the first result.
  First the operations read at an index over abstract arrays of the reference's shapes at the extended reals: a row
  broadcast over the rows, a scalar broadcast, the logistic chain, a column sum, a product with a transposed weight
  matrix, a row gather, and the normalised index column. Then each stage as the function of Spec it computes.
-/
import proofs.«407534_j31061203484850_2_alg».proof.Proof.Gen.ReferenceIdeal
import proofs.«407534_j31061203484850_2_alg».proof.Proof.Spec
import proofs.«407534_j31061203484850_2_alg».proof.Proof.RefArgs
import proofs.«407534_j31061203484850_2_alg».proof.Proof.LibRead
import proofs.«407534_j31061203484850_2_alg».proof.Proof.RefTerms
import proofs.«407534_j31061203484850_2_alg».proof.Proof.RefReadA
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

noncomputable section

open scoped BigOperators
open Idealize.ShloMosaic Idealize.ShloMosaic.TcCoe Idealize.SL.Sem
open Idealize.ShloMosaic.ValueIdx
open Cert.ReferenceIdeal Cert.Spec

namespace Cert.ReferenceIdeal.ReadB

/-! ## Broadcasts read at an index -/

/-- A scalar broadcast to any shape reads the scalar's one element everywhere. -/
theorem bcast0_apply {α : Type} {t : Shape} (dims : Fin S_.rank → Fin t.rank) (h : S_.BroadcastsInDim t dims)
    (x : S_.Idx → α) (j : t.Idx) : broadcastInDim t dims h x j = x ix0 := by
  unfold broadcastInDim
  exact congrArg x (funext fun a => a.elim0)

/-- A [256] row broadcast to [1, 256] and then to [131072, 256] reads, at (r, j), the row's element j. -/
theorem bcastRow_apply {α : Type} (h1 : S256.BroadcastsInDim S1x256 (![1] : Fin 1 → Fin S1x256.rank))
    (h2 : S1x256.BroadcastsInDim S131072x256 (![0, 1] : Fin 2 → Fin S131072x256.rank))
    (x : S256.Idx → α) (r : Fin 131072) (j : Fin 256) :
    broadcastInDim S131072x256 ![0, 1] h2 (broadcastInDim S1x256 ![1] h1 x) (ix2 r j) = x (ix1 j) := by
  rw [broadcastInDim_apply _ h2 _ _ (ix2 (0 : Fin 1) j) (fun a => by
        match a with
        | ⟨0, _⟩ => rfl
        | ⟨1, _⟩ => rfl),
      broadcastInDim_apply _ h1 _ _ (ix1 j) (fun a => by
        match a with
        | ⟨0, _⟩ => rfl)]

/-- A [256] row broadcast to [1, 256], read at (0, j). -/
theorem bcastRow1_apply {α : Type} (h1 : S256.BroadcastsInDim S1x256 (![1] : Fin 1 → Fin S1x256.rank))
    (x : S256.Idx → α) (u : Fin 1) (j : Fin 256) :
    broadcastInDim S1x256 ![1] h1 x (ix2 u j) = x (ix1 j) := by
  rw [broadcastInDim_apply _ h1 _ _ (ix1 j) (fun a => by
        match a with
        | ⟨0, _⟩ => rfl)]

/-- A [1, 256] array broadcast to [131072, 256] reads, at (r, j), its element (0, j). -/
theorem bcastRow2_apply {α : Type}
    (h2 : S1x256.BroadcastsInDim S131072x256 (![0, 1] : Fin 2 → Fin S131072x256.rank))
    (x : S1x256.Idx → α) (r : Fin 131072) (j : Fin 256) :
    broadcastInDim S131072x256 ![0, 1] h2 x (ix2 r j) = x (ix2 (0 : Fin 1) j) := by
  rw [broadcastInDim_apply _ h2 _ _ (ix2 (0 : Fin 1) j) (fun a => by
        match a with
        | ⟨0, _⟩ => rfl
        | ⟨1, _⟩ => rfl)]

/-- The host's quotient at an element is the quotient of the elements. -/
theorem hdivf_apply {s : Shape} {φ : FTy} (a b : FVec Ideal s φ) (i : s.Idx) :
    Host.divf a b i = Ideal.div (a i) (b i) := rfl

/-- The host's reciprocal square root at an element. -/
theorem hrsqrt_apply {s : Shape} {φ : FTy} (a : FVec Ideal s φ) (i : s.Idx) :
    Host.rsqrt a i = Ideal.rsqrt (a i) := rfl

/-! ## The sigmoid chain -/

/-- 1 / (1 + e^(-x)) as the reference spells it, element by element. -/
theorem sigmoid_apply (h : S_.BroadcastsInDim S131072x256 (![] : Fin 0 → Fin S131072x256.rank))
    (x : FVec Ideal S131072x256 .f32) (i : S131072x256.Idx) :
    Host.divf (broadcastInDim S131072x256 ![] h (constant (F := Ideal) S_ .f32 0x3F800000#32))
      (addf (broadcastInDim S131072x256 ![] h (constant (F := Ideal) S_ .f32 0x3F800000#32)) (Host.exp (Host.negf x))) i
      = sgm (x i) := rfl

/-! ## A column sum -/

/-- The host's sum over the rows, from the zero constant, at column j is the column sum. -/
theorem colReduce_apply (h' : S131072x256.ReducesTo [0] S256) (hu : 0 < S_.numel)
    (x : FVec Ideal S131072x256 .f32) (j : Fin 256) :
    Host.reduceAdd x (constant (F := Ideal) S_ .f32 0x00000000#32) h' hu (ix1 j) = colsum (cur x) j := by
  have h : S131072x256.Reduces [0] S256 := by decide
  show Ideal.hostReduceAdd h' x (Ideal.ofBits .f32 0x00000000#32) (ix1 j) = _
  rw [Ideal.hostReduceAdd_single h' h, Ideal.ofBits_zero_f32, zero_add]
  refine Finset.sum_congr rfl fun k _ => congrArg x ?_
  funext a
  match a with
  | ⟨0, _⟩ => rfl
  | ⟨1, _⟩ => rfl

/-! ## A product with a transposed weight matrix -/

/-- x · Wᵀ at (r, j): the sum over k of x[r, k] · W[j, k]. -/
theorem dotT_apply [Facts₀] (ht : S256x256.Transposes [1, 0] S256x256)
    (x : FVec Ideal S131072x256 .f32) (w : FVec Ideal S256x256 .f32) (r : Fin 131072) (j : Fin 256) :
    Host.dotGeneral dot_S131072x256_S256x256_S131072x256_1_0_0_1_n_n none x (transpose S256x256 [1, 0] w ht) (ix2 r j)
      = mm (cur x) (tr (cur w)) r j := by
  show Host.dotGeneral (DotDims.plain 131072 256 256) none x (transpose S256x256 [1, 0] w ht) (ix2 r j) = _
  rw [StackMember.dotGeneral_plain_apply]
  refine Finset.sum_congr rfl fun k _ => ?_
  rw [transpose_apply [1, 0] w ht (ix2 k j) (ix2 j k) (fun b => by
        match b with
        | ⟨0, _⟩ => rfl
        | ⟨1, _⟩ => rfl)]
  rfl

/-! ## A row gather -/

/-- The program's row gather at (r, j): the operand's row named by start index r, clamped, at channel j. -/
theorem gather_apply' [Facts₀] {α : Type} (x : S131072x256.Idx → α) (idx : IVec S131072x1 32) (r : Fin 131072) (j : Fin 256) :
    Host.gather gather_S131072x256_S131072x1_S131072x256_1_0_n_n_0_1_1256 x idx (ix2 r j)
      = x (ix2 (gix (idx (ix2 r 0))) j) :=
  Cert.LibRead.gather_apply x idx r j

/-! ## The index chain -/

/-- Row a of edge_index, flattened, normalised, and stood up as a [131072, 1] column: at (r, 0) it is nrm of edge_index[a, r]. -/
theorem idxChain_apply (a : Fin 2) (off : Fin 2 → Nat) (hoff : off = ![a.val, 0])
    (hs : S2x131072.Slices off S1x131072) (hc : S1x131072.ShapeCasts S131072)
    (hb0 : S_.BroadcastsInDim S131072 (![] : Fin 0 → Fin S131072.rank))
    (hb1 : S131072.BroadcastsInDim S131072x1 (![0] : Fin 1 → Fin S131072x1.rank))
    (ei : IVec S2x131072 32) (r : Fin 131072) (u : Fin 1) :
    broadcastInDim S131072x1 ![0] hb1
      (select (cmpi .slt (shapeCast S131072 (extractStridedSlice S1x131072 off ei hs) hc)
                  (broadcastInDim S131072 ![] hb0 (constantI S_ 32 0#32)))
              (addi (shapeCast S131072 (extractStridedSlice S1x131072 off ei hs) hc)
                  (broadcastInDim S131072 ![] hb0 (constantI S_ 32 131072#32)))
              (shapeCast S131072 (extractStridedSlice S1x131072 off ei hs) hc)) (ix2 r u)
      = nrm (ei (ix2 a r)) := by
  subst hoff
  rw [broadcastInDim_apply _ hb1 _ _ (ix1 r) (fun b => by
        match b with
        | ⟨0, _⟩ => rfl)]
  have hv : shapeCast S131072 (extractStridedSlice S1x131072 ![a.val, 0] ei hs) hc (ix1 r) = ei (ix2 a r) := by
    rw [shapeCast_1a_a_apply, extractStridedSlice_apply _ ei hs _ (ix2 a r) (fun b => by
        match b with
        | ⟨0, _⟩ => simp
        | ⟨1, _⟩ => simp)]
  show Scalar.select (IntOp.cmpi .slt (shapeCast S131072 (extractStridedSlice S1x131072 ![a.val, 0] ei hs) hc (ix1 r)) 0#32)
      (shapeCast S131072 (extractStridedSlice S1x131072 ![a.val, 0] ei hs) hc (ix1 r) + 131072#32)
      (shapeCast S131072 (extractStridedSlice S1x131072 ![a.val, 0] ei hs) hc (ix1 r)) = _
  rw [hv, Cert.LibRead.nrm_eq]

/-! ## The stages of the reference read at an index -/

variable (m : (ℓ : Loc nD τ sig) → Buf (Elt Ideal) ℓ) (c : Dev nD)

/-- The normalised row index at (r, 0) is nrm of edge_index[0, r]. -/
theorem rowN_apply (r : Fin 131072) (u : Fin 1) : RT.rowN m c (ix2 r u) = nrm (RA.EI m c (ix2 0 r)) := by
  unfold RT.rowN RT.normIdx RT.idxRow
  exact idxChain_apply 0 ![0, 0] rfl _ _ _ _ _ r u

/-- The normalised column index at (r, 0) is nrm of edge_index[1, r]. -/
theorem colN_apply (r : Fin 131072) (u : Fin 1) : RT.colN m c (ix2 r u) = nrm (RA.EI m c (ix2 1 r)) := by
  unfold RT.colN RT.normIdx RT.idxRow
  exact idxChain_apply 1 ![1, 0] rfl _ _ _ _ _ r u

/-- The scatter's index operand is the normalised edge_index[0] as a column. -/
theorem rowN_eq : RT.rowN m c = scatIdx (RA.EI m c) :=
  ext2 fun r u => by
    rw [rowN_apply]
    rfl

/-- A bias row broadcast over the rows, at (r, j). -/
theorem rows_apply (b : Vec Ideal S256 .f32) (r : Fin 131072) (j : Fin 256) : RT.rows b (ix2 r j) = b (ix1 j) :=
  bcastRow_apply _ _ b r j

/-- Gathered rows times a transposed weight matrix, at (r, j). -/
theorem gmm_apply (x : Vec Ideal S131072x256 .f32) (i : IVec S131072x1 32) (w : Vec Ideal S256x256 .f32)
    (r : Fin 131072) (j : Fin 256) :
    RT.gmm x i w (ix2 r j) = mm (cur x) (tr (cur w)) (gix (i (ix2 r 0))) j := by
  unfold RT.gmm
  rw [dotT_apply]
  refine Finset.sum_congr rfl fun k _ => ?_
  show Host.gather gather_S131072x256_S131072x1_S131072x256_1_0_n_n_0_1_1256 x i (ix2 r k) * _ = _
  rw [gather_apply']

/-- The column sums, at column j. -/
theorem csum_apply (x : Vec Ideal S131072x256 .f32) (j : Fin 256) : RT.csum x (ix1 j) = colsum (cur x) j :=
  colReduce_apply _ _ x j

/-- Batch norm and the maximum with zero: the stage %74. -/
theorem res74_eq :
    RT.res74 m c = arr2 (bn (RA.xR m c) (mean (RA.xR m c)) (varRef (RA.xR m c)) (RA.Gm m c) (RA.Be m c)) :=
  ext2 fun r j => by
    unfold RT.res74
    rw [maximumf_apply, addf_apply, mulf_apply, mulf_apply, subf_apply, rows_apply, rows_apply, rows_apply, rows_apply,
      bcast0_apply, constant_apply, Ideal.ofBits_zero_f32, ReadA.res54_eq, ReadA.res57_eq, arr2_apply, arr2_apply]
    show max (_ * _ * Ideal.rsqrt (RT.res58 m c (ix1 j) + cEps) + _) 0 = _
    rw [ReadA.res58_eq]
    rfl

/-- The scatter-add: the stage %81. -/
theorem res81_eq :
    RT.res81 m c = arr2 (eNew (RA.E m c) (RA.EI m c)
      (bn (RA.xR m c) (mean (RA.xR m c)) (varRef (RA.xR m c)) (RA.Gm m c) (RA.Be m c))) := by
  unfold RT.res81
  rw [rowN_eq, res74_eq]
  show Ideal.hostScatterAdd scatD (m ((c.tc : Thread nD τ).loc main_arg2)) _ _ = _
  unfold eNew
  rw [arr2_cur, arr2_cur]

/-- The logistic stage %87 at an element. -/
theorem res87_apply (i : S131072x256.Idx) : RT.res87 m c i = sgm (RT.res81 m c i) :=
  sigmoid_apply _ _ i

/-- THE SECOND RESULT. -/
theorem res93_eq :
    RT.res93 m c = arr2 (out1 (RA.xR m c) (varRef (RA.xR m c)) (RA.E m c) (RA.EI m c) (RA.Gm m c) (RA.Be m c)) :=
  ext2 fun r j => by
    unfold RT.res93
    rw [hdivf_apply, bcastRow2_apply, addf_apply, bcastRow1_apply, csum_apply, bcast0_apply, constant_apply, res87_apply, arr2_apply]
    have hc : cur (RT.res87 m c) = fun r j => sgm (eNew (RA.E m c) (RA.EI m c)
        (bn (RA.xR m c) (mean (RA.xR m c)) (varRef (RA.xR m c)) (RA.Gm m c) (RA.Be m c)) r j) := by
      funext r j
      show RT.res87 m c (ix2 r j) = _
      rw [res87_apply, res81_eq, arr2_apply]
    rw [hc, res81_eq, arr2_apply]
    rfl

/-- V of the gathered node features: the stage %110 at (r, j). -/
theorem res110_apply (r : Fin 131072) (j : Fin 256) :
    RT.res110 m c (ix2 r j) = hV (RA.H m c) (tr (RA.Vw m c)) (RA.Vb m c) (eIx (RA.EI m c) 1) r j := by
  unfold RT.res110
  rw [addf_apply, gmm_apply, rows_apply, colN_apply]
  rfl

/-- THE FIRST RESULT. -/
theorem res116_eq :
    RT.res116 m c = arr2 (out0 (RA.xR m c) (varRef (RA.xR m c)) (RA.E m c) (RA.EI m c) (RA.Gm m c) (RA.Be m c)
      (RA.H m c) (tr (RA.Uw m c)) (RA.Ub m c) (tr (RA.Vw m c)) (RA.Vb m c)) :=
  ext2 fun r j => by
    unfold RT.res116
    rw [maximumf_apply, addf_apply, addf_apply, dotT_apply, rows_apply, rows_apply, csum_apply, bcast0_apply, constant_apply,
      Ideal.ofBits_zero_f32, arr2_apply]
    have hc : cur (mulf (F := Ideal) (RT.res93 m c) (RT.res110 m c))
        = fun r j => out1 (RA.xR m c) (varRef (RA.xR m c)) (RA.E m c) (RA.EI m c) (RA.Gm m c) (RA.Be m c) r j
            * hV (RA.H m c) (tr (RA.Vw m c)) (RA.Vb m c) (eIx (RA.EI m c) 1) r j := by
      funext r j
      show mulf (F := Ideal) (RT.res93 m c) (RT.res110 m c) (ix2 r j) = _
      rw [mulf_apply, res93_eq, arr2_apply, res110_apply]
    rw [hc]
    rfl

end Cert.ReferenceIdeal.ReadB

end
-- ==== Proof.RefRun.lean ====
/-
  The reference program's run, read back stage by stage.
  @main is a straight line of 163 host operations once the three outlined functions (the variance with its guard, and the
  maximum with zero, twice) are written out at their call sites over each call's own buffers. The line is cut at the stages
  of RefTerms.lean; the contents after each cut are named (val1 … val4), each stage's result buffer is read off the cut's
  operations from the contents before it, and a buffer a cut does not write keeps its contents through it. From any memory
  with zero counters every weakly fair execution terminates with the two results at RT.res116 and RT.res93 of the launch
  arrays and every argument array unchanged.
-/
import proofs.«407534_j31061203484850_2_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Program

variable {F : FTy → Type} [FloatOps F]

/-! ## The operations, in order, in six consecutive lists -/

/-- @main's operations 1 … 60: the two index rows (%1, %3), the four gathered products and the first three biases of the edge message, up to %51. -/
abbrev A0 : List (HloOp τ sig (Elt F)) :=
    [ unary main_arg1 main_v0 ((extractStridedSlice S1x131072 ![0, 0] · slices_S2x131072_S1x131072_0_0) : (⟨S2x131072, .i32⟩ : BufTy).Contents (Elt F) → (⟨S1x131072, .i32⟩ : BufTy).Contents (Elt F)),
      reshape main_v0 main_v1 rfl shapeCasts_S1x131072_S131072,
      unary main_arg1 main_v2 ((extractStridedSlice S1x131072 ![1, 0] · slices_S2x131072_S1x131072_1_0) : (⟨S2x131072, .i32⟩ : BufTy).Contents (Elt F) → (⟨S1x131072, .i32⟩ : BufTy).Contents (Elt F)),
      reshape main_v2 main_v3 rfl shapeCasts_S1x131072_S131072,
      nullary main_c (constantI S_ 32 0#32),
      unary main_c main_v4 (broadcastInDim S131072 ![] bcast_S_S131072 : (⟨S_, .i32⟩ : BufTy).Contents (Elt F) → (⟨S131072, .i32⟩ : BufTy).Contents (Elt F)),
      binary main_v1 main_v4 main_v5 (cmpi .slt : (⟨S131072, .i32⟩ : BufTy).Contents (Elt F) → (⟨S131072, .i32⟩ : BufTy).Contents (Elt F) → (⟨S131072, .i1⟩ : BufTy).Contents (Elt F)),
      nullary main_c_0 (constantI S_ 32 131072#32),
      unary main_c_0 main_v6 (broadcastInDim S131072 ![] bcast_S_S131072 : (⟨S_, .i32⟩ : BufTy).Contents (Elt F) → (⟨S131072, .i32⟩ : BufTy).Contents (Elt F)),
      binary main_v1 main_v6 main_v7 (addi : (⟨S131072, .i32⟩ : BufTy).Contents (Elt F) → (⟨S131072, .i32⟩ : BufTy).Contents (Elt F) → (⟨S131072, .i32⟩ : BufTy).Contents (Elt F)),
      ternary main_v5 main_v7 main_v1 main_v8 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
      unary main_v8 main_v9 (broadcastInDim S131072x1 ![0] bcast_S131072_S131072x1_0 : (⟨S131072, .i32⟩ : BufTy).Contents (Elt F) → (⟨S131072x1, .i32⟩ : BufTy).Contents (Elt F)),
      binary main_arg0 main_v9 main_v10 ((fun x i => Host.gather gather_S131072x256_S131072x1_S131072x256_1_0_n_n_0_1_1256 x i) : (⟨S131072x256, .f32⟩ : BufTy).Contents (Elt F) → (⟨S131072x1, .i32⟩ : BufTy).Contents (Elt F) → (⟨S131072x256, .f32⟩ : BufTy).Contents (Elt F)),
      unary main_arg3 main_v11 ((transpose S256x256 [1, 0] · transposes_S256x256_S256x256_1_0) : (⟨S256x256, .f32⟩ : BufTy).Contents (Elt F) → (⟨S256x256, .f32⟩ : BufTy).Contents (Elt F)),
      binary main_v10 main_v11 main_v12 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
      unary main_arg4 main_v13 (broadcastInDim S1x256 ![1] bcast_S256_S1x256_1 : (⟨S256, .f32⟩ : BufTy).Contents (Elt F) → (⟨S1x256, .f32⟩ : BufTy).Contents (Elt F)),
      unary main_v13 main_v14 (broadcastInDim S131072x256 ![0, 1] bcast_S1x256_S131072x256_0_1 : (⟨S1x256, .f32⟩ : BufTy).Contents (Elt F) → (⟨S131072x256, .f32⟩ : BufTy).Contents (Elt F)),
      binary main_v12 main_v14 main_v15 (addf : (⟨S131072x256, .f32⟩ : BufTy).Contents (Elt F) → (⟨S131072x256, .f32⟩ : BufTy).Contents (Elt F) → (⟨S131072x256, .f32⟩ : BufTy).Contents (Elt F)),
      nullary main_c_1 (constantI S_ 32 0#32),
      unary main_c_1 main_v16 (broadcastInDim S131072 ![] bcast_S_S131072 : (⟨S_, .i32⟩ : BufTy).Contents (Elt F) → (⟨S131072, .i32⟩ : BufTy).Contents (Elt F)),
      binary main_v3 main_v16 main_v17 (cmpi .slt : (⟨S131072, .i32⟩ : BufTy).Contents (Elt F) → (⟨S131072, .i32⟩ : BufTy).Contents (Elt F) → (⟨S131072, .i1⟩ : BufTy).Contents (Elt F)),
      nullary main_c_2 (constantI S_ 32 131072#32),
      unary main_c_2 main_v18 (broadcastInDim S131072 ![] bcast_S_S131072 : (⟨S_, .i32⟩ : BufTy).Contents (Elt F) → (⟨S131072, .i32⟩ : BufTy).Contents (Elt F)),
      binary main_v3 main_v18 main_v19 (addi : (⟨S131072, .i32⟩ : BufTy).Contents (Elt F) → (⟨S131072, .i32⟩ : BufTy).Contents (Elt F) → (⟨S131072, .i32⟩ : BufTy).Contents (Elt F)),
      ternary main_v17 main_v19 main_v3 main_v20 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
      unary main_v20 main_v21 (broadcastInDim S131072x1 ![0] bcast_S131072_S131072x1_0 : (⟨S131072, .i32⟩ : BufTy).Contents (Elt F) → (⟨S131072x1, .i32⟩ : BufTy).Contents (Elt F)),
      binary main_arg0 main_v21 main_v22 ((fun x i => Host.gather gather_S131072x256_S131072x1_S131072x256_1_0_n_n_0_1_1256 x i) : (⟨S131072x256, .f32⟩ : BufTy).Contents (Elt F) → (⟨S131072x1, .i32⟩ : BufTy).Contents (Elt F) → (⟨S131072x256, .f32⟩ : BufTy).Contents (Elt F)),
      unary main_arg5 main_v23 ((transpose S256x256 [1, 0] · transposes_S256x256_S256x256_1_0) : (⟨S256x256, .f32⟩ : BufTy).Contents (Elt F) → (⟨S256x256, .f32⟩ : BufTy).Contents (Elt F)),
      binary main_v22 main_v23 main_v24 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
      binary main_v15 main_v24 main_v25 (addf : (⟨S131072x256, .f32⟩ : BufTy).Contents (Elt F) → (⟨S131072x256, .f32⟩ : BufTy).Contents (Elt F) → (⟨S131072x256, .f32⟩ : BufTy).Contents (Elt F)),
      unary main_arg6 main_v26 (broadcastInDim S1x256 ![1] bcast_S256_S1x256_1 : (⟨S256, .f32⟩ : BufTy).Contents (Elt F) → (⟨S1x256, .f32⟩ : BufTy).Contents (Elt F)),
      unary main_v26 main_v27 (broadcastInDim S131072x256 ![0, 1] bcast_S1x256_S131072x256_0_1 : (⟨S1x256, .f32⟩ : BufTy).Contents (Elt F) → (⟨S131072x256, .f32⟩ : BufTy).Contents (Elt F)),
      binary main_v25 main_v27 main_v28 (addf : (⟨S131072x256, .f32⟩ : BufTy).Contents (Elt F) → (⟨S131072x256, .f32⟩ : BufTy).Contents (Elt F) → (⟨S131072x256, .f32⟩ : BufTy).Contents (Elt F)),
      nullary main_c_3 (constantI S_ 32 0#32),
      unary main_c_3 main_v29 (broadcastInDim S131072 ![] bcast_S_S131072 : (⟨S_, .i32⟩ : BufTy).Contents (Elt F) → (⟨S131072, .i32⟩ : BufTy).Contents (Elt F)),
      binary main_v3 main_v29 main_v30 (cmpi .slt : (⟨S131072, .i32⟩ : BufTy).Contents (Elt F) → (⟨S131072, .i32⟩ : BufTy).Contents (Elt F) → (⟨S131072, .i1⟩ : BufTy).Contents (Elt F)),
      nullary main_c_4 (constantI S_ 32 131072#32),
      unary main_c_4 main_v31 (broadcastInDim S131072 ![] bcast_S_S131072 : (⟨S_, .i32⟩ : BufTy).Contents (Elt F) → (⟨S131072, .i32⟩ : BufTy).Contents (Elt F)),
      binary main_v3 main_v31 main_v32 (addi : (⟨S131072, .i32⟩ : BufTy).Contents (Elt F) → (⟨S131072, .i32⟩ : BufTy).Contents (Elt F) → (⟨S131072, .i32⟩ : BufTy).Contents (Elt F)),
      ternary main_v30 main_v32 main_v3 main_v33 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
      unary main_v33 main_v34 (broadcastInDim S131072x1 ![0] bcast_S131072_S131072x1_0 : (⟨S131072, .i32⟩ : BufTy).Contents (Elt F) → (⟨S131072x1, .i32⟩ : BufTy).Contents (Elt F)),
      binary main_arg2 main_v34 main_v35 ((fun x i => Host.gather gather_S131072x256_S131072x1_S131072x256_1_0_n_n_0_1_1256 x i) : (⟨S131072x256, .f32⟩ : BufTy).Contents (Elt F) → (⟨S131072x1, .i32⟩ : BufTy).Contents (Elt F) → (⟨S131072x256, .f32⟩ : BufTy).Contents (Elt F)),
      unary main_arg7 main_v36 ((transpose S256x256 [1, 0] · transposes_S256x256_S256x256_1_0) : (⟨S256x256, .f32⟩ : BufTy).Contents (Elt F) → (⟨S256x256, .f32⟩ : BufTy).Contents (Elt F)),
      binary main_v35 main_v36 main_v37 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
      binary main_v28 main_v37 main_v38 (addf : (⟨S131072x256, .f32⟩ : BufTy).Contents (Elt F) → (⟨S131072x256, .f32⟩ : BufTy).Contents (Elt F) → (⟨S131072x256, .f32⟩ : BufTy).Contents (Elt F)),
      unary main_arg8 main_v39 (broadcastInDim S1x256 ![1] bcast_S256_S1x256_1 : (⟨S256, .f32⟩ : BufTy).Contents (Elt F) → (⟨S1x256, .f32⟩ : BufTy).Contents (Elt F)),
      unary main_v39 main_v40 (broadcastInDim S131072x256 ![0, 1] bcast_S1x256_S131072x256_0_1 : (⟨S1x256, .f32⟩ : BufTy).Contents (Elt F) → (⟨S131072x256, .f32⟩ : BufTy).Contents (Elt F)),
      binary main_v38 main_v40 main_v41 (addf : (⟨S131072x256, .f32⟩ : BufTy).Contents (Elt F) → (⟨S131072x256, .f32⟩ : BufTy).Contents (Elt F) → (⟨S131072x256, .f32⟩ : BufTy).Contents (Elt F)),
      nullary main_c_5 (constantI S_ 32 0#32),
      unary main_c_5 main_v42 (broadcastInDim S131072 ![] bcast_S_S131072 : (⟨S_, .i32⟩ : BufTy).Contents (Elt F) → (⟨S131072, .i32⟩ : BufTy).Contents (Elt F)),
      binary main_v1 main_v42 main_v43 (cmpi .slt : (⟨S131072, .i32⟩ : BufTy).Contents (Elt F) → (⟨S131072, .i32⟩ : BufTy).Contents (Elt F) → (⟨S131072, .i1⟩ : BufTy).Contents (Elt F)),
      nullary main_c_6 (constantI S_ 32 131072#32),
      unary main_c_6 main_v44 (broadcastInDim S131072 ![] bcast_S_S131072 : (⟨S_, .i32⟩ : BufTy).Contents (Elt F) → (⟨S131072, .i32⟩ : BufTy).Contents (Elt F)),
      binary main_v1 main_v44 main_v45 (addi : (⟨S131072, .i32⟩ : BufTy).Contents (Elt F) → (⟨S131072, .i32⟩ : BufTy).Contents (Elt F) → (⟨S131072, .i32⟩ : BufTy).Contents (Elt F)),
      ternary main_v43 main_v45 main_v1 main_v46 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
      unary main_v46 main_v47 (broadcastInDim S131072x1 ![0] bcast_S131072_S131072x1_0 : (⟨S131072, .i32⟩ : BufTy).Contents (Elt F) → (⟨S131072x1, .i32⟩ : BufTy).Contents (Elt F)),
      binary main_arg2 main_v47 main_v48 ((fun x i => Host.gather gather_S131072x256_S131072x1_S131072x256_1_0_n_n_0_1_1256 x i) : (⟨S131072x256, .f32⟩ : BufTy).Contents (Elt F) → (⟨S131072x1, .i32⟩ : BufTy).Contents (Elt F) → (⟨S131072x256, .f32⟩ : BufTy).Contents (Elt F)),
      unary main_arg9 main_v49 ((transpose S256x256 [1, 0] · transposes_S256x256_S256x256_1_0) : (⟨S256x256, .f32⟩ : BufTy).Contents (Elt F) → (⟨S256x256, .f32⟩ : BufTy).Contents (Elt F)),
      binary main_v48 main_v49 main_v50 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
      binary main_v41 main_v50 main_v51 (addf : (⟨S131072x256, .f32⟩ : BufTy).Contents (Elt F) → (⟨S131072x256, .f32⟩ : BufTy).Contents (Elt F) → (⟨S131072x256, .f32⟩ : BufTy).Contents (Elt F)) ]

/-- The last bias of the edge message: %52, %53 and the sum %54. -/
abbrev A1 : List (HloOp τ sig (Elt F)) :=
    [ unary main_arg10 main_v52 (broadcastInDim S1x256 ![1] bcast_S256_S1x256_1 : (⟨S256, .f32⟩ : BufTy).Contents (Elt F) → (⟨S1x256, .f32⟩ : BufTy).Contents (Elt F)),
      unary main_v52 main_v53 (broadcastInDim S131072x256 ![0, 1] bcast_S1x256_S131072x256_0_1 : (⟨S1x256, .f32⟩ : BufTy).Contents (Elt F) → (⟨S131072x256, .f32⟩ : BufTy).Contents (Elt F)),
      binary main_v51 main_v53 main_v54 (addf : (⟨S131072x256, .f32⟩ : BufTy).Contents (Elt F) → (⟨S131072x256, .f32⟩ : BufTy).Contents (Elt F) → (⟨S131072x256, .f32⟩ : BufTy).Contents (Elt F)) ]

/-- From the edge message to its normalised form: the mean %57; the variance function's twenty-two operations inline over its call's buffers (the guard's three last, the result %58); batch norm %59 … %73; the maximum with zero, three operations inline, the result %74. -/
abbrev A2 : List (HloOp τ sig (Elt F)) :=
    [ nullary main_cst (constant S_ .f32 0x00000000#32),
      binary main_v54 main_cst main_v55 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
      nullary main_cst_7 (constant S_ .f32 0x48000000#32),
      unary main_cst_7 main_v56 (broadcastInDim S256 ![] bcast_S_S256 : (⟨S_, .f32⟩ : BufTy).Contents (Elt F) → (⟨S256, .f32⟩ : BufTy).Contents (Elt F)),
      binary main_v55 main_v56 main_v57 (Host.divf : (⟨S256, .f32⟩ : BufTy).Contents (Elt F) → (⟨S256, .f32⟩ : BufTy).Contents (Elt F) → (⟨S256, .f32⟩ : BufTy).Contents (Elt F)),
      nullary main_c_8 (constantI S_ 32 0#32),
      TRef.nullary main_call0.cst (constant S_ .f32 0x00000000#32),
      TRef.binary (.of main_v54) main_call0.cst main_call0.v0 (fun x v => Host.reduceAdd x v reducesTo_S131072x256_S256_d0 h_S_),
      TRef.unary main_call0.v0 main_call0.v1 (broadcastInDim S1x256 ![1] bcast_S256_S1x256_1),
      TRef.nullary main_call0.cst_0 (constant S_ .f32 0x48000000#32),
      TRef.unary main_call0.cst_0 main_call0.v2 (broadcastInDim S1x256 ![] bcast_S_S1x256),
      TRef.binary main_call0.v1 main_call0.v2 main_call0.v3 Host.divf,
      TRef.unary main_call0.v3 main_call0.v4 (broadcastInDim S131072x256 ![0, 1] bcast_S1x256_S131072x256_0_1),
      TRef.binary (.of main_v54) main_call0.v4 main_call0.v5 subf,
      TRef.binary main_call0.v5 main_call0.v5 main_call0.v6 mulf,
      TRef.unary (.of main_c_8) main_call0.v7 (sitofp .f32),
      TRef.nullary main_call0.cst_1 (constant S_ .f32 0x48000000#32),
      TRef.binary main_call0.cst_1 main_call0.v7 main_call0.v8 subf,
      TRef.nullary main_call0.cst_2 (constant S_ .f32 0x00000000#32),
      TRef.binary main_call0.v6 main_call0.cst_2 main_call0.v9 (fun x v => Host.reduceAdd x v reducesTo_S131072x256_S256_d0 h_S_),
      TRef.unary main_call0.v8 main_call0.v10 (broadcastInDim S256 ![] bcast_S_S256),
      TRef.binary main_call0.v9 main_call0.v10 main_call0.v11 Host.divf,
      TRef.nullary main_call0.cst_3 (constant S_ .f32 0x00000000#32),
      TRef.binary main_call0.v8 main_call0.cst_3 main_call0.v12 (cmpf .ogt),
      TRef.nullary main_call0.cst_4 (constant S_ .f32 0x7FC00000#32),
      TRef.unary main_call0.cst_4 main_call0.call0.v0 id,
      TRef.unary main_call0.call0.v0 main_call0.call0.v1 (broadcastInDim S256 ![] bcast_S_S256),
      TRef.ternary main_call0.v12 main_call0.v11 main_call0.call0.v1 main_call0.call0.v2 (fun p a b => select (broadcastInDim S256 ![] bcast_S_S256 p) a b),
      unary main_v57 main_v59 (broadcastInDim S1x256 ![1] bcast_S256_S1x256_1 : (⟨S256, .f32⟩ : BufTy).Contents (Elt F) → (⟨S1x256, .f32⟩ : BufTy).Contents (Elt F)),
      unary main_v59 main_v60 (broadcastInDim S131072x256 ![0, 1] bcast_S1x256_S131072x256_0_1 : (⟨S1x256, .f32⟩ : BufTy).Contents (Elt F) → (⟨S131072x256, .f32⟩ : BufTy).Contents (Elt F)),
      binary main_v54 main_v60 main_v61 (subf : (⟨S131072x256, .f32⟩ : BufTy).Contents (Elt F) → (⟨S131072x256, .f32⟩ : BufTy).Contents (Elt F) → (⟨S131072x256, .f32⟩ : BufTy).Contents (Elt F)),
      unary main_arg11 main_v62 (broadcastInDim S1x256 ![1] bcast_S256_S1x256_1 : (⟨S256, .f32⟩ : BufTy).Contents (Elt F) → (⟨S1x256, .f32⟩ : BufTy).Contents (Elt F)),
      unary main_v62 main_v63 (broadcastInDim S131072x256 ![0, 1] bcast_S1x256_S131072x256_0_1 : (⟨S1x256, .f32⟩ : BufTy).Contents (Elt F) → (⟨S131072x256, .f32⟩ : BufTy).Contents (Elt F)),
      binary main_v63 main_v61 main_v64 (mulf : (⟨S131072x256, .f32⟩ : BufTy).Contents (Elt F) → (⟨S131072x256, .f32⟩ : BufTy).Contents (Elt F) → (⟨S131072x256, .f32⟩ : BufTy).Contents (Elt F)),
      nullary main_cst_9 (constant S_ .f32 0x3727C5AC#32),
      unary main_cst_9 main_v65 (broadcastInDim S256 ![] bcast_S_S256 : (⟨S_, .f32⟩ : BufTy).Contents (Elt F) → (⟨S256, .f32⟩ : BufTy).Contents (Elt F)),
      binary main_v58 main_v65 main_v66 (addf : (⟨S256, .f32⟩ : BufTy).Contents (Elt F) → (⟨S256, .f32⟩ : BufTy).Contents (Elt F) → (⟨S256, .f32⟩ : BufTy).Contents (Elt F)),
      unary main_v66 main_v67 (Host.rsqrt : (⟨S256, .f32⟩ : BufTy).Contents (Elt F) → (⟨S256, .f32⟩ : BufTy).Contents (Elt F)),
      unary main_v67 main_v68 (broadcastInDim S1x256 ![1] bcast_S256_S1x256_1 : (⟨S256, .f32⟩ : BufTy).Contents (Elt F) → (⟨S1x256, .f32⟩ : BufTy).Contents (Elt F)),
      unary main_v68 main_v69 (broadcastInDim S131072x256 ![0, 1] bcast_S1x256_S131072x256_0_1 : (⟨S1x256, .f32⟩ : BufTy).Contents (Elt F) → (⟨S131072x256, .f32⟩ : BufTy).Contents (Elt F)),
      binary main_v64 main_v69 main_v70 (mulf : (⟨S131072x256, .f32⟩ : BufTy).Contents (Elt F) → (⟨S131072x256, .f32⟩ : BufTy).Contents (Elt F) → (⟨S131072x256, .f32⟩ : BufTy).Contents (Elt F)),
      unary main_arg12 main_v71 (broadcastInDim S1x256 ![1] bcast_S256_S1x256_1 : (⟨S256, .f32⟩ : BufTy).Contents (Elt F) → (⟨S1x256, .f32⟩ : BufTy).Contents (Elt F)),
      unary main_v71 main_v72 (broadcastInDim S131072x256 ![0, 1] bcast_S1x256_S131072x256_0_1 : (⟨S1x256, .f32⟩ : BufTy).Contents (Elt F) → (⟨S131072x256, .f32⟩ : BufTy).Contents (Elt F)),
      binary main_v70 main_v72 main_v73 (addf : (⟨S131072x256, .f32⟩ : BufTy).Contents (Elt F) → (⟨S131072x256, .f32⟩ : BufTy).Contents (Elt F) → (⟨S131072x256, .f32⟩ : BufTy).Contents (Elt F)),
      TRef.nullary main_call1.cst (constant S_ .f32 0x00000000#32),
      TRef.unary main_call1.cst main_call1.v0 (broadcastInDim S131072x256 ![] bcast_S_S131072x256),
      TRef.binary (.of main_v73) main_call1.v0 main_call1.v1 maximumf ]

/-- The row index normalised again (%75 … %80), the scatter %81, the logistic function %82 … %87 and its column normalisation %88 … %93. -/
abbrev A3 : List (HloOp τ sig (Elt F)) :=
    [ nullary main_c_10 (constantI S_ 32 0#32),
      unary main_c_10 main_v75 (broadcastInDim S131072 ![] bcast_S_S131072 : (⟨S_, .i32⟩ : BufTy).Contents (Elt F) → (⟨S131072, .i32⟩ : BufTy).Contents (Elt F)),
      binary main_v1 main_v75 main_v76 (cmpi .slt : (⟨S131072, .i32⟩ : BufTy).Contents (Elt F) → (⟨S131072, .i32⟩ : BufTy).Contents (Elt F) → (⟨S131072, .i1⟩ : BufTy).Contents (Elt F)),
      nullary main_c_11 (constantI S_ 32 131072#32),
      unary main_c_11 main_v77 (broadcastInDim S131072 ![] bcast_S_S131072 : (⟨S_, .i32⟩ : BufTy).Contents (Elt F) → (⟨S131072, .i32⟩ : BufTy).Contents (Elt F)),
      binary main_v1 main_v77 main_v78 (addi : (⟨S131072, .i32⟩ : BufTy).Contents (Elt F) → (⟨S131072, .i32⟩ : BufTy).Contents (Elt F) → (⟨S131072, .i32⟩ : BufTy).Contents (Elt F)),
      ternary main_v76 main_v78 main_v1 main_v79 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
      unary main_v79 main_v80 (broadcastInDim S131072x1 ![0] bcast_S131072_S131072x1_0 : (⟨S131072, .i32⟩ : BufTy).Contents (Elt F) → (⟨S131072x1, .i32⟩ : BufTy).Contents (Elt F)),
      ternary main_arg2 main_v80 main_v74 main_v81 ((fun x i u => Host.scatterAdd scatter_S131072x256_S131072x1_S131072x256_1_0_0_1 x i u) : (⟨S131072x256, .f32⟩ : BufTy).Contents (Elt F) → (⟨S131072x1, .i32⟩ : BufTy).Contents (Elt F) → (⟨S131072x256, .f32⟩ : BufTy).Contents (Elt F) → (⟨S131072x256, .f32⟩ : BufTy).Contents (Elt F)),
      unary main_v81 main_v82 (Host.negf : (⟨S131072x256, .f32⟩ : BufTy).Contents (Elt F) → (⟨S131072x256, .f32⟩ : BufTy).Contents (Elt F)),
      unary main_v82 main_v83 (Host.exp : (⟨S131072x256, .f32⟩ : BufTy).Contents (Elt F) → (⟨S131072x256, .f32⟩ : BufTy).Contents (Elt F)),
      nullary main_cst_12 (constant S_ .f32 0x3F800000#32),
      unary main_cst_12 main_v84 (broadcastInDim S131072x256 ![] bcast_S_S131072x256 : (⟨S_, .f32⟩ : BufTy).Contents (Elt F) → (⟨S131072x256, .f32⟩ : BufTy).Contents (Elt F)),
      binary main_v84 main_v83 main_v85 (addf : (⟨S131072x256, .f32⟩ : BufTy).Contents (Elt F) → (⟨S131072x256, .f32⟩ : BufTy).Contents (Elt F) → (⟨S131072x256, .f32⟩ : BufTy).Contents (Elt F)),
      nullary main_cst_13 (constant S_ .f32 0x3F800000#32),
      unary main_cst_13 main_v86 (broadcastInDim S131072x256 ![] bcast_S_S131072x256 : (⟨S_, .f32⟩ : BufTy).Contents (Elt F) → (⟨S131072x256, .f32⟩ : BufTy).Contents (Elt F)),
      binary main_v86 main_v85 main_v87 (Host.divf : (⟨S131072x256, .f32⟩ : BufTy).Contents (Elt F) → (⟨S131072x256, .f32⟩ : BufTy).Contents (Elt F) → (⟨S131072x256, .f32⟩ : BufTy).Contents (Elt F)),
      nullary main_cst_14 (constant S_ .f32 0x00000000#32),
      binary main_v87 main_cst_14 main_v88 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
      unary main_v88 main_v89 (broadcastInDim S1x256 ![1] bcast_S256_S1x256_1 : (⟨S256, .f32⟩ : BufTy).Contents (Elt F) → (⟨S1x256, .f32⟩ : BufTy).Contents (Elt F)),
      nullary main_cst_15 (constant S_ .f32 0x3727C5AC#32),
      unary main_cst_15 main_v90 (broadcastInDim S1x256 ![] bcast_S_S1x256 : (⟨S_, .f32⟩ : BufTy).Contents (Elt F) → (⟨S1x256, .f32⟩ : BufTy).Contents (Elt F)),
      binary main_v89 main_v90 main_v91 (addf : (⟨S1x256, .f32⟩ : BufTy).Contents (Elt F) → (⟨S1x256, .f32⟩ : BufTy).Contents (Elt F) → (⟨S1x256, .f32⟩ : BufTy).Contents (Elt F)),
      unary main_v91 main_v92 (broadcastInDim S131072x256 ![0, 1] bcast_S1x256_S131072x256_0_1 : (⟨S1x256, .f32⟩ : BufTy).Contents (Elt F) → (⟨S131072x256, .f32⟩ : BufTy).Contents (Elt F)),
      binary main_v87 main_v92 main_v93 (Host.divf : (⟨S131072x256, .f32⟩ : BufTy).Contents (Elt F) → (⟨S131072x256, .f32⟩ : BufTy).Contents (Elt F) → (⟨S131072x256, .f32⟩ : BufTy).Contents (Elt F)) ]

/-- The U-transform %94 … %98 and the first two steps of the column index's normalisation (%99, %100). -/
abbrev A4 : List (HloOp τ sig (Elt F)) :=
    [ unary main_arg13 main_v94 ((transpose S256x256 [1, 0] · transposes_S256x256_S256x256_1_0) : (⟨S256x256, .f32⟩ : BufTy).Contents (Elt F) → (⟨S256x256, .f32⟩ : BufTy).Contents (Elt F)),
      binary main_arg0 main_v94 main_v95 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
      unary main_arg14 main_v96 (broadcastInDim S1x256 ![1] bcast_S256_S1x256_1 : (⟨S256, .f32⟩ : BufTy).Contents (Elt F) → (⟨S1x256, .f32⟩ : BufTy).Contents (Elt F)),
      unary main_v96 main_v97 (broadcastInDim S131072x256 ![0, 1] bcast_S1x256_S131072x256_0_1 : (⟨S1x256, .f32⟩ : BufTy).Contents (Elt F) → (⟨S131072x256, .f32⟩ : BufTy).Contents (Elt F)),
      binary main_v95 main_v97 main_v98 (addf : (⟨S131072x256, .f32⟩ : BufTy).Contents (Elt F) → (⟨S131072x256, .f32⟩ : BufTy).Contents (Elt F) → (⟨S131072x256, .f32⟩ : BufTy).Contents (Elt F)),
      nullary main_c_16 (constantI S_ 32 0#32),
      unary main_c_16 main_v99 (broadcastInDim S131072 ![] bcast_S_S131072 : (⟨S_, .i32⟩ : BufTy).Contents (Elt F) → (⟨S131072, .i32⟩ : BufTy).Contents (Elt F)),
      binary main_v3 main_v99 main_v100 (cmpi .slt : (⟨S131072, .i32⟩ : BufTy).Contents (Elt F) → (⟨S131072, .i32⟩ : BufTy).Contents (Elt F) → (⟨S131072, .i1⟩ : BufTy).Contents (Elt F)) ]

/-- The rest of the column index's normalisation (%101 … %104), the V-transform of the gathered node features %105 … %110, the weighted column sums %111 … %115, and the maximum with zero, three operations inline, the result %116. -/
abbrev A5 : List (HloOp τ sig (Elt F)) :=
    [ nullary main_c_17 (constantI S_ 32 131072#32),
      unary main_c_17 main_v101 (broadcastInDim S131072 ![] bcast_S_S131072 : (⟨S_, .i32⟩ : BufTy).Contents (Elt F) → (⟨S131072, .i32⟩ : BufTy).Contents (Elt F)),
      binary main_v3 main_v101 main_v102 (addi : (⟨S131072, .i32⟩ : BufTy).Contents (Elt F) → (⟨S131072, .i32⟩ : BufTy).Contents (Elt F) → (⟨S131072, .i32⟩ : BufTy).Contents (Elt F)),
      ternary main_v100 main_v102 main_v3 main_v103 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
      unary main_v103 main_v104 (broadcastInDim S131072x1 ![0] bcast_S131072_S131072x1_0 : (⟨S131072, .i32⟩ : BufTy).Contents (Elt F) → (⟨S131072x1, .i32⟩ : BufTy).Contents (Elt F)),
      binary main_arg0 main_v104 main_v105 ((fun x i => Host.gather gather_S131072x256_S131072x1_S131072x256_1_0_n_n_0_1_1256 x i) : (⟨S131072x256, .f32⟩ : BufTy).Contents (Elt F) → (⟨S131072x1, .i32⟩ : BufTy).Contents (Elt F) → (⟨S131072x256, .f32⟩ : BufTy).Contents (Elt F)),
      unary main_arg15 main_v106 ((transpose S256x256 [1, 0] · transposes_S256x256_S256x256_1_0) : (⟨S256x256, .f32⟩ : BufTy).Contents (Elt F) → (⟨S256x256, .f32⟩ : BufTy).Contents (Elt F)),
      binary main_v105 main_v106 main_v107 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
      unary main_arg16 main_v108 (broadcastInDim S1x256 ![1] bcast_S256_S1x256_1 : (⟨S256, .f32⟩ : BufTy).Contents (Elt F) → (⟨S1x256, .f32⟩ : BufTy).Contents (Elt F)),
      unary main_v108 main_v109 (broadcastInDim S131072x256 ![0, 1] bcast_S1x256_S131072x256_0_1 : (⟨S1x256, .f32⟩ : BufTy).Contents (Elt F) → (⟨S131072x256, .f32⟩ : BufTy).Contents (Elt F)),
      binary main_v107 main_v109 main_v110 (addf : (⟨S131072x256, .f32⟩ : BufTy).Contents (Elt F) → (⟨S131072x256, .f32⟩ : BufTy).Contents (Elt F) → (⟨S131072x256, .f32⟩ : BufTy).Contents (Elt F)),
      binary main_v93 main_v110 main_v111 (mulf : (⟨S131072x256, .f32⟩ : BufTy).Contents (Elt F) → (⟨S131072x256, .f32⟩ : BufTy).Contents (Elt F) → (⟨S131072x256, .f32⟩ : BufTy).Contents (Elt F)),
      nullary main_cst_18 (constant S_ .f32 0x00000000#32),
      binary main_v111 main_cst_18 main_v112 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
      unary main_v112 main_v113 (broadcastInDim S1x256 ![1] bcast_S256_S1x256_1 : (⟨S256, .f32⟩ : BufTy).Contents (Elt F) → (⟨S1x256, .f32⟩ : BufTy).Contents (Elt F)),
      unary main_v113 main_v114 (broadcastInDim S131072x256 ![0, 1] bcast_S1x256_S131072x256_0_1 : (⟨S1x256, .f32⟩ : BufTy).Contents (Elt F) → (⟨S131072x256, .f32⟩ : BufTy).Contents (Elt F)),
      binary main_v98 main_v114 main_v115 (addf : (⟨S131072x256, .f32⟩ : BufTy).Contents (Elt F) → (⟨S131072x256, .f32⟩ : BufTy).Contents (Elt F) → (⟨S131072x256, .f32⟩ : BufTy).Contents (Elt F)),
      TRef.nullary main_call2.cst (constant S_ .f32 0x00000000#32),
      TRef.unary main_call2.cst main_call2.v0 (broadcastInDim S131072x256 ![] bcast_S_S131072x256),
      TRef.binary (.of main_v115) main_call2.v0 main_call2.v1 maximumf ]

/-- @main's 163 operations, in order: the first list, then the second window's four, then the last. -/
abbrev ops : List (HloOp τ sig (Elt F)) := A0 ++ ((A1 ++ (A2 ++ (A3 ++ A4))) ++ A5)

/-! ## @main is that line -/

set_option maxRecDepth 8192 in
set_option maxHeartbeats 4000000 in
theorem main_part0_eq (c : Dev nD) : main_part0 (F := F) c = seq A0 := rfl

set_option maxRecDepth 8192 in
set_option maxHeartbeats 4000000 in
/-- The second window: the two functions' bodies unfolded at their calls, the records at their fields. -/
theorem main_part1_eq (c : Dev nD) : main_part1 (F := F) c = seq (A1 ++ (A2 ++ (A3 ++ A4))) := by
  simp only [main_part1, fn_var.body, fn_where.body, fn_relu.body, A1, A2, A3, A4, List.cons_append, List.nil_append, seq,
    bind_assoc, pure_bind]
  rfl

set_option maxRecDepth 8192 in
set_option maxHeartbeats 4000000 in
theorem main_part2_eq (c : Dev nD) : main_part2 (F := F) c = seq A5 := by
  simp only [main_part2, fn_relu.body, A5, seq, bind_assoc, pure_bind]

theorem main_eq (c : Dev nD) : main (F := F) c = seq ops := by
  show _ = seq (A0 ++ ((A1 ++ (A2 ++ (A3 ++ A4))) ++ A5))
  rw [seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

set_option maxRecDepth 8192 in
theorem A0_sub : (A0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub ..⟩

set_option maxRecDepth 8192 in
theorem A1_sub : (A1 : List (HloOp τ sig (Elt F))).Forall fun op => op.bufs ⊆ tcRefs τ sig :=
  ⟨unary_bufs_sub .., unary_bufs_sub .., binary_bufs_sub ..⟩

set_option maxRecDepth 8192 in
theorem A2_sub : (A2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem A3_sub : (A3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., nullary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub ..⟩

set_option maxRecDepth 8192 in
theorem A4_sub : (A4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩

set_option maxRecDepth 8192 in
theorem A5_sub : (A5 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | (((h | h | h | h) | h))
    exacts [List.forall_iff_forall_mem.mp A0_sub op h, List.forall_iff_forall_mem.mp A1_sub op h,
      List.forall_iff_forall_mem.mp A2_sub op h, List.forall_iff_forall_mem.mp A3_sub op h,
      List.forall_iff_forall_mem.mp A4_sub op h, List.forall_iff_forall_mem.mp A5_sub op h]

/-! ## What each list writes -/

/-- A single written reference that is in the list W is, as a device buffer, in W's set. -/
private theorem w1 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the operations of A0 write, in order. -/
abbrev A0_W : List (Ref sig .tc) := [main_v0, main_v1, main_v2, main_v3, main_c, main_v4, main_v5, main_c_0, main_v6, main_v7, main_v8, main_v9, main_v10, main_v11, main_v12, main_v13, main_v14, main_v15, main_c_1, main_v16, main_v17, main_c_2, main_v18, main_v19, main_v20, main_v21, main_v22, main_v23, main_v24, main_v25, main_v26, main_v27, main_v28, main_c_3, main_v29, main_v30, main_c_4, main_v31, main_v32, main_v33, main_v34, main_v35, main_v36, main_v37, main_v38, main_v39, main_v40, main_v41, main_c_5, main_v42, main_v43, main_c_6, main_v44, main_v45, main_v46, main_v47, main_v48, main_v49, main_v50, main_v51]
set_option maxRecDepth 8192 in
theorem A0_writes : (A0 : List (HloOp τ sig (Elt F))).Forall fun op =>
    op.writes ⊆ (A0_W.map (Proc.devRef (τ := τ) .tc)).toFinset :=
  ⟨w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide)⟩

/-- The references the operations of A1 write, in order. -/
abbrev A1_W : List (Ref sig .tc) := [main_v52, main_v53, main_v54]
set_option maxRecDepth 8192 in
theorem A1_writes : (A1 : List (HloOp τ sig (Elt F))).Forall fun op =>
    op.writes ⊆ (A1_W.map (Proc.devRef (τ := τ) .tc)).toFinset :=
  ⟨w1 (by decide), w1 (by decide), w1 (by decide)⟩

/-- The references the operations of A2 write, in order. -/
abbrev A2_W : List (Ref sig .tc) := [main_cst, main_v55, main_cst_7, main_v56, main_v57, main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v58, main_v59, main_v60, main_v61, main_v62, main_v63, main_v64, main_cst_9, main_v65, main_v66, main_v67, main_v68, main_v69, main_v70, main_v71, main_v72, main_v73, main_call1_cst, main_call1_v0, main_v74]
set_option maxRecDepth 8192 in
theorem A2_writes : (A2 : List (HloOp τ sig (Elt F))).Forall fun op =>
    op.writes ⊆ (A2_W.map (Proc.devRef (τ := τ) .tc)).toFinset :=
  ⟨w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide)⟩

/-- The references the operations of A3 write, in order. -/
abbrev A3_W : List (Ref sig .tc) := [main_c_10, main_v75, main_v76, main_c_11, main_v77, main_v78, main_v79, main_v80, main_v81, main_v82, main_v83, main_cst_12, main_v84, main_v85, main_cst_13, main_v86, main_v87, main_cst_14, main_v88, main_v89, main_cst_15, main_v90, main_v91, main_v92, main_v93]
set_option maxRecDepth 8192 in
theorem A3_writes : (A3 : List (HloOp τ sig (Elt F))).Forall fun op =>
    op.writes ⊆ (A3_W.map (Proc.devRef (τ := τ) .tc)).toFinset :=
  ⟨w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide)⟩

/-- The references the operations of A4 write, in order. -/
abbrev A4_W : List (Ref sig .tc) := [main_v94, main_v95, main_v96, main_v97, main_v98, main_c_16, main_v99, main_v100]
set_option maxRecDepth 8192 in
theorem A4_writes : (A4 : List (HloOp τ sig (Elt F))).Forall fun op =>
    op.writes ⊆ (A4_W.map (Proc.devRef (τ := τ) .tc)).toFinset :=
  ⟨w1 (by decide), w1 (by decide), w1 (by decide), w1 (by decide), w1 (by decide), w1 (by decide), w1 (by decide), w1 (by decide)⟩

/-- The references the operations of A5 write, in order. -/
abbrev A5_W : List (Ref sig .tc) := [main_c_17, main_v101, main_v102, main_v103, main_v104, main_v105, main_v106, main_v107, main_v108, main_v109, main_v110, main_v111, main_cst_18, main_v112, main_v113, main_v114, main_v115, main_call2_cst, main_call2_v0, main_v116]
set_option maxRecDepth 8192 in
theorem A5_writes : (A5 : List (HloOp τ sig (Elt F))).Forall fun op =>
    op.writes ⊆ (A5_W.map (Proc.devRef (τ := τ) .tc)).toFinset :=
  ⟨w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide)⟩

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Program

/-! ## The contents after each stage, at the extended reals -/

variable (m : (ℓ : Loc nD τ sig) → Buf (Elt Ideal) ℓ) (c : Dev nD)

/-- The device's buffer contents at launch. -/
def val0 : Valuation τ sig (Elt Ideal) := launchContents m c
/-- After the edge message (%54). -/
def val1 : Valuation τ sig (Elt Ideal) := after A1 (after A0 (val0 m c))
/-- After batch norm and the maximum with zero (%74). -/
def val2 : Valuation τ sig (Elt Ideal) := after A2 (val1 m c)
/-- After the second result (%93). -/
def val3 : Valuation τ sig (Elt Ideal) := after A3 (val2 m c)
/-- After the first result (%116): the end of the line. -/
def val4 : Valuation τ sig (Elt Ideal) := after A5 (after A4 (val3 m c))

theorem after_ops : after ops (launchContents m c) = val4 m c := by
  simp only [ops, after_app]
  rfl

/-! ### A buffer a stage does not write keeps its contents -/

theorem val1_keep (r : Ref sig .tc) (h0 : r ∉ A0_W) (h1 : r ∉ A1_W) :
    val1 m c (Proc.devRef .tc r) = val0 m c (Proc.devRef .tc r) :=
  (after_of_writes_sub A1 _ A1_writes h1).trans (after_of_writes_sub A0 _ A0_writes h0)
theorem val2_keep (r : Ref sig .tc) (h : r ∉ A2_W) : val2 m c (Proc.devRef .tc r) = val1 m c (Proc.devRef .tc r) :=
  after_of_writes_sub A2 _ A2_writes h
theorem val3_keep (r : Ref sig .tc) (h : r ∉ A3_W) : val3 m c (Proc.devRef .tc r) = val2 m c (Proc.devRef .tc r) :=
  after_of_writes_sub A3 _ A3_writes h
theorem val4_keep (r : Ref sig .tc) (h4 : r ∉ A4_W) (h5 : r ∉ A5_W) :
    val4 m c (Proc.devRef .tc r) = val3 m c (Proc.devRef .tc r) :=
  (after_of_writes_sub A5 _ A5_writes h5).trans (after_of_writes_sub A4 _ A4_writes h4)

/-- A reference no operation up to a stage writes (an argument) holds its launch contents there. -/
theorem val1_arg (r : Ref sig .tc) (h0 : r ∉ A0_W) (h1 : r ∉ A1_W) :
    val1 m c (no_index (Proc.devRef .tc r)) = val0 m c (Proc.devRef .tc r) := val1_keep m c r h0 h1
theorem val2_arg (r : Ref sig .tc) (h0 : r ∉ A0_W) (h1 : r ∉ A1_W) (h2 : r ∉ A2_W) :
    val2 m c (no_index (Proc.devRef .tc r)) = val0 m c (Proc.devRef .tc r) :=
  (val2_keep m c r h2).trans (val1_keep m c r h0 h1)
theorem val3_arg (r : Ref sig .tc) (h0 : r ∉ A0_W) (h1 : r ∉ A1_W) (h2 : r ∉ A2_W) (h3 : r ∉ A3_W) :
    val3 m c (no_index (Proc.devRef .tc r)) = val0 m c (Proc.devRef .tc r) :=
  (val3_keep m c r h3).trans (val2_arg m c r h0 h1 h2)
theorem val4_arg (r : Ref sig .tc) (h0 : r ∉ A0_W) (h1 : r ∉ A1_W) (h2 : r ∉ A2_W) (h3 : r ∉ A3_W) (h4 : r ∉ A4_W)
    (h5 : r ∉ A5_W) : val4 m c (Proc.devRef .tc r) = m ((c.tc : Thread nD τ).loc r) :=
  (val4_keep m c r h4 h5).trans (val3_arg m c r h0 h1 h2 h3)

/-! ### The first stage: the two index rows and the edge message -/

set_option maxRecDepth 8192 in
set_option maxHeartbeats 4000000 in
theorem val1_v1 : val1 m c (no_index (Proc.devRef .tc main_v1)) = RT.idxRow m c ![0, 0] slices_S2x131072_S1x131072_0_0 := by
  unfold val1
  simp only [A0, A1]
  after_results_simp
  rfl

set_option maxRecDepth 8192 in
set_option maxHeartbeats 4000000 in
theorem val1_v3 : val1 m c (no_index (Proc.devRef .tc main_v3)) = RT.idxRow m c ![1, 0] slices_S2x131072_S1x131072_1_0 := by
  unfold val1
  simp only [A0, A1]
  after_results_simp
  rfl

set_option maxRecDepth 8192 in
set_option maxHeartbeats 8000000 in
theorem val1_v54 : val1 m c (no_index (Proc.devRef .tc main_v54)) = RT.res54 m c := by
  unfold val1
  simp only [A0, A1]
  after_results_simp
  rfl

/-! ### The second stage: mean, variance, batch norm, the maximum with zero -/

theorem val2_v1 : val2 m c (no_index (Proc.devRef .tc main_v1)) = RT.idxRow m c ![0, 0] slices_S2x131072_S1x131072_0_0 :=
  (val2_keep m c main_v1 (by decide)).trans (val1_v1 m c)
theorem val2_v3 : val2 m c (no_index (Proc.devRef .tc main_v3)) = RT.idxRow m c ![1, 0] slices_S2x131072_S1x131072_1_0 :=
  (val2_keep m c main_v3 (by decide)).trans (val1_v3 m c)

set_option maxRecDepth 8192 in
set_option maxHeartbeats 8000000 in
theorem val2_v74 : val2 m c (no_index (Proc.devRef .tc main_v74)) = RT.res74 m c := by
  unfold val2
  simp only [A2]
  after_results_simp
  simp (disch := decide) only [val1_v54, val1_arg]
  rfl

/-! ### The third stage: the scatter, the logistic function, its column normalisation -/

theorem val3_v3 : val3 m c (no_index (Proc.devRef .tc main_v3)) = RT.idxRow m c ![1, 0] slices_S2x131072_S1x131072_1_0 :=
  (val3_keep m c main_v3 (by decide)).trans (val2_v3 m c)

set_option maxRecDepth 8192 in
set_option maxHeartbeats 8000000 in
theorem val3_v93 : val3 m c (no_index (Proc.devRef .tc main_v93)) = RT.res93 m c := by
  unfold val3
  simp only [A3]
  after_results_simp
  simp (disch := decide) only [val2_v74, val2_v1, val2_arg]
  rfl

/-! ### The last stage: the U- and V-transforms, the weighted column sums, the maximum with zero -/

theorem val4_v93 : val4 m c (Proc.devRef .tc main_v93) = RT.res93 m c :=
  (val4_keep m c main_v93 (by decide) (by decide)).trans (val3_v93 m c)

set_option maxRecDepth 8192 in
set_option maxHeartbeats 8000000 in
theorem val4_v116 : val4 m c (Proc.devRef .tc main_v116) = RT.res116 m c := by
  unfold val4
  simp only [A4, A5]
  after_results_simp
  simp (disch := decide) only [val3_v93, val3_v3, val3_arg]
  rfl

/-! ## The run -/

set_option maxRecDepth 8192 in
set_option maxHeartbeats 4000000 in
/-- On the device, from any memory with zero counters: every weakly fair execution of @main terminates with the first result
    at RT.res116 and the second at RT.res93 of the launch arrays, and the seventeen argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v116) = RT.res116 m c
      ∧ r.2.mem ((c.tc : Thread nD τ).loc main_v93) = RT.res93 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v116).trans (by rw [after_ops]; exact val4_v116 m c),
      (h c main_v93).trans (by rw [after_ops]; exact val4_v93 m c),
      (h c main_arg0).trans (by rw [after_ops]; exact val4_arg m c main_arg0 (by decide) (by decide) (by decide) (by decide) (by decide) (by decide)),
      (h c main_arg1).trans (by rw [after_ops]; exact val4_arg m c main_arg1 (by decide) (by decide) (by decide) (by decide) (by decide) (by decide)),
      (h c main_arg2).trans (by rw [after_ops]; exact val4_arg m c main_arg2 (by decide) (by decide) (by decide) (by decide) (by decide) (by decide)),
      (h c main_arg3).trans (by rw [after_ops]; exact val4_arg m c main_arg3 (by decide) (by decide) (by decide) (by decide) (by decide) (by decide)),
      (h c main_arg4).trans (by rw [after_ops]; exact val4_arg m c main_arg4 (by decide) (by decide) (by decide) (by decide) (by decide) (by decide)),
      (h c main_arg5).trans (by rw [after_ops]; exact val4_arg m c main_arg5 (by decide) (by decide) (by decide) (by decide) (by decide) (by decide)),
      (h c main_arg6).trans (by rw [after_ops]; exact val4_arg m c main_arg6 (by decide) (by decide) (by decide) (by decide) (by decide) (by decide)),
      (h c main_arg7).trans (by rw [after_ops]; exact val4_arg m c main_arg7 (by decide) (by decide) (by decide) (by decide) (by decide) (by decide)),
      (h c main_arg8).trans (by rw [after_ops]; exact val4_arg m c main_arg8 (by decide) (by decide) (by decide) (by decide) (by decide) (by decide)),
      (h c main_arg9).trans (by rw [after_ops]; exact val4_arg m c main_arg9 (by decide) (by decide) (by decide) (by decide) (by decide) (by decide)),
      (h c main_arg10).trans (by rw [after_ops]; exact val4_arg m c main_arg10 (by decide) (by decide) (by decide) (by decide) (by decide) (by decide)),
      (h c main_arg11).trans (by rw [after_ops]; exact val4_arg m c main_arg11 (by decide) (by decide) (by decide) (by decide) (by decide) (by decide)),
      (h c main_arg12).trans (by rw [after_ops]; exact val4_arg m c main_arg12 (by decide) (by decide) (by decide) (by decide) (by decide) (by decide)),
      (h c main_arg13).trans (by rw [after_ops]; exact val4_arg m c main_arg13 (by decide) (by decide) (by decide) (by decide) (by decide) (by decide)),
      (h c main_arg14).trans (by rw [after_ops]; exact val4_arg m c main_arg14 (by decide) (by decide) (by decide) (by decide) (by decide) (by decide)),
      (h c main_arg15).trans (by rw [after_ops]; exact val4_arg m c main_arg15 (by decide) (by decide) (by decide) (by decide) (by decide) (by decide)),
      (h c main_arg16).trans (by rw [after_ops]; exact val4_arg m c main_arg16 (by decide) (by decide) (by decide) (by decide) (by decide) (by decide))⟩)
    (run_seq scopedRefs_eq scopedSems_eq defs main (fun _ => ops) main_eq (fun _ => ops_sub) m ρ)

end Cert.ReferenceIdeal.RefRun

end
-- ==== Proof.Algebraic.lean ====
/-
  The five claims. The frames of the two kernel programs are the generated ones; the reference's frame is its run with the
  results dropped; nothing was rewritten by the idealization, so there is nothing to preserve; and the two idealized
  programs end with equal results because each result is one function of the arguments on both sides.
-/
import proofs.«407534_j31061203484850_2_alg».proof.Defs
import proofs.«407534_j31061203484850_2_alg».proof.Proof.Gen.Kernel.Frame
import proofs.«407534_j31061203484850_2_alg».proof.Proof.Gen.KernelIdeal.Frame
import proofs.«407534_j31061203484850_2_alg».proof.Proof.Gen.ReferenceIdeal
import proofs.«407534_j31061203484850_2_alg».proof.Proof.Gen.Pre_finite_inputs
import proofs.«407534_j31061203484850_2_alg».proof.Proof.Spec
import proofs.«407534_j31061203484850_2_alg».proof.Proof.KerArgs
import proofs.«407534_j31061203484850_2_alg».proof.Proof.RefArgs
import proofs.«407534_j31061203484850_2_alg».proof.Proof.KernelRun
import proofs.«407534_j31061203484850_2_alg».proof.Proof.KerValue
import proofs.«407534_j31061203484850_2_alg».proof.Proof.PreDecode
import proofs.«407534_j31061203484850_2_alg».proof.Proof.RefTerms
import proofs.«407534_j31061203484850_2_alg».proof.Proof.RefReadB
import proofs.«407534_j31061203484850_2_alg».proof.Proof.RefRun

noncomputable section

open Idealize.ShloMosaic Idealize.ShloMosaic.TcCoe Idealize.SL.Sem Cert.Spec

namespace Cert.Proof.Alg

section Agree
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! Where the two memories agree on an argument, that argument reads the same on both sides. -/
theorem aH (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.RA.H m' c = Cert.KernelIdeal.KA.H m c := by
  show cur _ = cur _
  rw [e]
theorem aEI (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RA.EI m' c = Cert.KernelIdeal.KA.EI m c := by
  show _ = _
  exact e
theorem aE (e : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RA.E m' c = Cert.KernelIdeal.KA.E m c := by
  show cur _ = cur _
  rw [e]
theorem aAw (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.RA.Aw m' c = Cert.KernelIdeal.KA.Aw m c := by
  show cur _ = cur _
  rw [e]
theorem aAb (e : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RA.Ab m' c = Cert.KernelIdeal.KA.Ab m c := by
  show cur1 _ = cur1 _
  rw [e]
theorem aBw (e : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RA.Bw m' c = Cert.KernelIdeal.KA.Bw m c := by
  show cur _ = cur _
  rw [e]
theorem aBb (e : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RA.Bb m' c = Cert.KernelIdeal.KA.Bb m c := by
  show cur1 _ = cur1 _
  rw [e]
theorem aCw (e : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RA.Cw m' c = Cert.KernelIdeal.KA.Cw m c := by
  show cur _ = cur _
  rw [e]
theorem aCb (e : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RA.Cb m' c = Cert.KernelIdeal.KA.Cb m c := by
  show cur1 _ = cur1 _
  rw [e]
theorem aDw (e : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RA.Dw m' c = Cert.KernelIdeal.KA.Dw m c := by
  show cur _ = cur _
  rw [e]
theorem aDb (e : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RA.Db m' c = Cert.KernelIdeal.KA.Db m c := by
  show cur1 _ = cur1 _
  rw [e]
theorem aGm (e : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RA.Gm m' c = Cert.KernelIdeal.KA.Gm m c := by
  show cur1 _ = cur1 _
  rw [e]
theorem aBe (e : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RA.Be m' c = Cert.KernelIdeal.KA.Be m c := by
  show cur1 _ = cur1 _
  rw [e]
theorem aUw (e : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RA.Uw m' c = Cert.KernelIdeal.KA.Uw m c := by
  show cur _ = cur _
  rw [e]
theorem aUb (e : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RA.Ub m' c = Cert.KernelIdeal.KA.Ub m c := by
  show cur1 _ = cur1 _
  rw [e]
theorem aVw (e : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RA.Vw m' c = Cert.KernelIdeal.KA.Vw m c := by
  show cur _ = cur _
  rw [e]
theorem aVb (e : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RA.Vb m' c = Cert.KernelIdeal.KA.Vb m c := by
  show cur1 _ = cur1 _
  rw [e]

end Agree

/-- Under the precondition the kernel's edge message has real entries: sums of products of real entries. -/
theorem xK_real (m : (ℓ : Loc Cert.KernelIdeal.nD Cert.KernelIdeal.τ Cert.KernelIdeal.sig) → Buf (Elt Ideal) ℓ) (c : Dev Cert.KernelIdeal.nD)
    (g : Cert.KernelIdeal.KA.Good m c) : Real2 (Cert.KernelIdeal.KA.xK m c) := by
  unfold Cert.KernelIdeal.KA.xK
  rw [eOutKer_eq]
  exact eOutRef_real _ _ _ _ _ _ _ _ _ _ _ _ g.hH g.hE (fun a b => g.hAw b a) (fun a b => g.hBw b a) (fun a b => g.hCw b a)
    (fun a b => g.hDw b a) g.hAb g.hBb g.hCb g.hDb

theorem frame_Kernel : Cert.frame_Kernel := fun m ρ _ => Cert.Kernel.Gen.frame m ρ
theorem frame_KernelIdeal : Cert.frame_KernelIdeal := fun m ρ _ => Cert.KernelIdeal.Gen.frame m ρ
theorem frame_ReferenceIdeal : Cert.frame_ReferenceIdeal := fun m ρ _ =>
  (θ_run Cert.ReferenceIdeal.defs _ _).mono (fun _ h c => (h c).2.2) (Cert.ReferenceIdeal.RefRun.run m ρ)

/-- Both programs end with the same two results: the kernel's chain of boundaries gives its results as functions of the
    arguments, the reference's run gives its own; the edge messages agree by regrouping a sum, the variances because on
    real entries the mean of squares minus the squared mean is the mean squared deviation, and everything after is
    the same function of the same values. -/
theorem algebraic : Cert.algebraic_KernelIdeal_ReferenceIdeal := by
  intro m ρ m' ρ' hpre hagree
  have g := fun c => Cert.KernelIdeal.PreDecode.good_of_pre m hpre c
  refine ⟨fun c => arr2 (out0 (Cert.KernelIdeal.KA.xK m c) (varKer (Cert.KernelIdeal.KA.xK m c)) (Cert.KernelIdeal.KA.E m c) (Cert.KernelIdeal.KA.EI m c) (Cert.KernelIdeal.KA.Gm m c) (Cert.KernelIdeal.KA.Be m c)
        (Cert.KernelIdeal.KA.H m c) (tr (Cert.KernelIdeal.KA.Uw m c)) (Cert.KernelIdeal.KA.Ub m c) (tr (Cert.KernelIdeal.KA.Vw m c)) (Cert.KernelIdeal.KA.Vb m c)),
      fun c => arr2 (out1 (Cert.KernelIdeal.KA.xK m c) (varKer (Cert.KernelIdeal.KA.xK m c)) (Cert.KernelIdeal.KA.E m c) (Cert.KernelIdeal.KA.EI m c) (Cert.KernelIdeal.KA.Gm m c) (Cert.KernelIdeal.KA.Be m c)), ?_, ?_⟩
  · exact (θ_run Cert.KernelIdeal.defs _ _).mono
      (fun _ h c => ⟨(h c).1.trans (Cert.KernelIdeal.KerValue.kout0 m ρ c (g c).hEI), (h c).2.1.trans (Cert.KernelIdeal.KerValue.kout1 m ρ c (g c).hEI), (h c).2.2⟩)
      (Cert.KernelIdeal.ValueRun.run (F := Ideal) m ρ)
  · refine (θ_run Cert.ReferenceIdeal.defs _ _).mono (fun _ h c => ?_) (Cert.ReferenceIdeal.RefRun.run m' ρ')
    obtain ⟨e0, e1, e2, e3, e4, e5, e6, e7, e8, e9, e10, e11, e12, e13, e14, e15, e16⟩ := hagree c
    have hx : Cert.ReferenceIdeal.RA.xR m' c = Cert.KernelIdeal.KA.xK m c := by
      unfold Cert.ReferenceIdeal.RA.xR Cert.KernelIdeal.KA.xK
      rw [eOutKer_eq, aH m m' c e0, aE m m' c e2, aAw m m' c e3, aBw m m' c e5, aCw m m' c e7, aDw m m' c e9, aAb m m' c e4,
        aBb m m' c e6, aCb m m' c e8, aDb m m' c e10, aEI m m' c e1]
    have hv : varRef (Cert.KernelIdeal.KA.xK m c) = varKer (Cert.KernelIdeal.KA.xK m c) := (varKer_eq _ (xK_real m c (g c))).symm
    refine ⟨(h c).1.trans ?_, (h c).2.1.trans ?_, (h c).2.2⟩
    · rw [Cert.ReferenceIdeal.ReadB.res116_eq m' c, hx, hv, aE m m' c e2, aEI m m' c e1, aGm m m' c e11, aBe m m' c e12, aH m m' c e0, aUw m m' c e13,
        aUb m m' c e14, aVw m m' c e15, aVb m m' c e16]
    · rw [Cert.ReferenceIdeal.ReadB.res93_eq m' c, hx, hv, aE m m' c e2, aEI m m' c e1, aGm m m' c e11, aBe m m' c e12]

end Cert.Proof.Alg

end
-- ==== Proof.lean ====
/-
  Two programs for one graph layer over 131072 nodes and edges with 256 channels. The reference gathers node and edge
  features by the two rows of `edge_index`, applies four linears and sums them, normalises the sum by its batch
  statistics, scatters it back into the edge features, takes a column-normalised sigmoid, and reduces its product with
  a fifth linear into the node update. The kernel program applies the linears BEFORE the gathers (a product of a gathered
  row is the product read at the gathered row), computes the statistics as a sum and a sum of squares split over two
  cores, and does the two reductions the same way. With every index word in [-131072, 131072) the kernel's gathers,
  which fill rows named out of range, are the reference's clamped ones, and over the extended reals:
    · the two edge messages are the same eight summands in two groupings;
    · on real entries the mean of squares minus the squared mean is the mean squared deviation, which is
      nonnegative, so the kernel's clamp at zero does nothing;
    · every later stage is the same function of the same values on both sides, a column sum being the sum of its
      two half sums.
  Proof/Spec.lean states that mathematics index by index; Proof/Region0 … Region4 read each kernel launch as a
  whole-array function; Proof/KerChainA … C2 and KerValue carry values across the host operations between the
  launches; Proof/KernelRun is the kernel program's run with its two results named; Proof/RefTerms, RefRun, RefReadA and
  RefReadB are the reference's run and its results read at an index; Proof/PreDecode reads the precondition;
  Proof/Algebraic joins the two sides.
-/
import proofs.«407534_j31061203484850_2_alg».proof.Defs
import proofs.«407534_j31061203484850_2_alg».proof.Proof.Gen.Kernel
import proofs.«407534_j31061203484850_2_alg».proof.Proof.Gen.Kernel.Skeleton
import proofs.«407534_j31061203484850_2_alg».proof.Proof.Gen.Kernel.Launch
import proofs.«407534_j31061203484850_2_alg».proof.Proof.Gen.Kernel.Points
import proofs.«407534_j31061203484850_2_alg».proof.Proof.Gen.Kernel.Frame
import proofs.«407534_j31061203484850_2_alg».proof.Proof.Gen.KernelIdeal
import proofs.«407534_j31061203484850_2_alg».proof.Proof.Gen.KernelIdeal.Skeleton
import proofs.«407534_j31061203484850_2_alg».proof.Proof.Gen.KernelIdeal.Launch
import proofs.«407534_j31061203484850_2_alg».proof.Proof.Gen.KernelIdeal.Points
import proofs.«407534_j31061203484850_2_alg».proof.Proof.Gen.KernelIdeal.Frame
import proofs.«407534_j31061203484850_2_alg».proof.Proof.Gen.ReferenceIdeal
import proofs.«407534_j31061203484850_2_alg».proof.Proof.Gen.Pre_finite_inputs
import proofs.«407534_j31061203484850_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Alg.frame_Kernel, Cert.Proof.Alg.frame_KernelIdeal, Cert.Proof.Alg.frame_ReferenceIdeal, trivial, Cert.Proof.Alg.algebraic⟩

end Cert.Proof

end
